-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x5 : Shape := ⟨2, ![100000, 5]⟩
abbrev S2x3200000 : Shape := ⟨2, ![2, 3200000]⟩
abbrev S100000 : Shape := ⟨1, ![100000]⟩
abbrev S5x64 : Shape := ⟨2, ![5, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S_ : Shape := ⟨0, ![]⟩

class Facts : Prop where
  bcast_S_S100000x5 : S_.BroadcastsInDim S100000x5 (![] : Fin 0 → Fin S100000x5.rank)
  reducesTo_S100000x5_S_d0_1 : S100000x5.ReducesTo [0, 1] S_
  h_S_ : 0 < S_.numel
  bcast_S_S5x64 : S_.BroadcastsInDim S5x64 (![] : Fin 0 → Fin S5x64.rank)
  reducesTo_S5x64_S_d0_1 : S5x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S32x2 .f32) (main_arg10 : FVec F S2 .f32) (main_v33 : IVec S_ 1) : IVec S_ 1 :=
  let main_v34 : FVec F S32x2 .f32 := Host.absf main_arg9
  let main_cst_12 : FVec F S_ .f32 := constant S_ .f32 0x7F800000#32
  let main_v35 : FVec F S32x2 .f32 := broadcastInDim S32x2 ![] bcast_S_S32x2 main_cst_12
  let main_v36 : IVec S32x2 1 := cmpf .olt main_v34 main_v35
  let main_c_13 : IVec S_ 1 := constantI S_ 1 1#1
  let main_v37 : IVec S_ 1 := (fun x v => Host.reduce IntOp.andi x v reducesTo_S32x2_S_d0_1 h_S_) main_v36 main_c_13
  let main_v38 : IVec S_ 1 := andi main_v33 main_v37
  let main_v39 : FVec F S2 .f32 := Host.absf main_arg10
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg6 : FVec F S64 .f32) (main_arg7 : FVec F S64x32 .f32) (main_arg8 : FVec F S32 .f32) (main_arg9 : FVec F S32x2 .f32) (main_arg10 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg7
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_v33

def fn {F : FTy → Type} [FloatOps F] (main_arg0 : FVec F S100000x5 .f32) (main_arg1 : IVec S2x3200000 32) (main_arg2 : IVec S100000 32) (main_arg3 : FVec F S5x64 .f32) (main_arg4 : FVec F S64 .f32) (main_arg5 : FVec F S64x64 .f32) (main_arg6 : FVec F S64 .f32) (main_arg7 : FVec F S64x32 .f32) (main_arg8 : FVec F S32 .f32) (main_arg9 : FVec F S32x2 .f32) (main_arg10 : FVec F S2 .f32) : IVec S_ 1 :=
  let main_v0 : FVec F S100000x5 .f32 := Host.absf main_arg0
  let main_cst : FVec F S_ .f32 := constant S_ .f32 0x7F800000#32
  let main_v1 : FVec F S100000x5 .f32 := broadcastInDim S100000x5 ![] bcast_S_S100000x5 main_cst
  let main_v2 : IVec S100000x5 1 := cmpf .olt main_v0 main_v1
  let main_c : IVec S_ 1 := constantI S_ 1 1#1
  let main_v3 : IVec S_ 1 := (fun x v => Host.reduce IntOp.andi x v reducesTo_S100000x5_S_d0_1 h_S_) main_v2 main_c
  let main_v4 : FVec F S5x64 .f32 := Host.absf main_arg3
  let main_cst_0 : FVec F S_ .f32 := constant S_ .f32 0x7F800000#32
  let main_v5 : FVec F S5x64 .f32 := broadcastInDim S5x64 ![] bcast_S_S5x64 main_cst_0
  let main_v6 : IVec S5x64 1 := cmpf .olt main_v4 main_v5
  let main_c_1 : IVec S_ 1 := constantI S_ 1 1#1
  let main_v7 : IVec S_ 1 := (fun x v => Host.reduce IntOp.andi x v reducesTo_S5x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S100000x5 : Shape := ⟨2, ![100000, 5]⟩
abbrev S2x3200000 : Shape := ⟨2, ![2, 3200000]⟩
abbrev S100000 : Shape := ⟨1, ![100000]⟩
abbrev S5x64 : Shape := ⟨2, ![5, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000x1 : Shape := ⟨2, ![100000, 1]⟩
abbrev S3200000x5 : Shape := ⟨2, ![3200000, 5]⟩
abbrev S1x64 : Shape := ⟨2, ![1, 64]⟩
abbrev S100000x64 : Shape := ⟨2, ![100000, 64]⟩
abbrev S5000x5 : Shape := ⟨2, ![5000, 5]⟩
abbrev S5000x1 : Shape := ⟨2, ![5000, 1]⟩
abbrev S5000x64 : Shape := ⟨2, ![5000, 64]⟩
abbrev S3200000x64 : Shape := ⟨2, ![3200000, 64]⟩
abbrev S256x64 : Shape := ⟨2, ![256, 64]⟩
abbrev S5000x256 : Shape := ⟨2, ![5000, 256]⟩
abbrev S256 : Shape := ⟨1, ![256]⟩
abbrev S256x1 : Shape := ⟨2, ![256, 1]⟩
abbrev S1x32 : Shape := ⟨2, ![1, 32]⟩
abbrev S1x2 : Shape := ⟨2, ![1, 2]⟩
abbrev S256x2 : Shape := ⟨2, ![256, 2]⟩
abbrev S256x32 : Shape := ⟨2, ![256, 32]⟩

abbrev nBuf : Space → Nat
  | .hbm => 77
  | .vmem => 31
  | .smem => 0
  | _ => 0

abbrev bufTy : (tb : Table) → Fin (tcTables nBuf tb) → BufTy
  | .hbm, ⟨0, _⟩ => ⟨S100000x5, .f32⟩
  | .hbm, ⟨1, _⟩ => ⟨S2x3200000, .i32⟩
  | .hbm, ⟨2, _⟩ => ⟨S100000, .i32⟩
  | .hbm, ⟨3, _⟩ => ⟨S5x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x32, .f32⟩
  | .hbm, ⟨8, _⟩ => ⟨S32, .f32⟩
  | .hbm, ⟨9, _⟩ => ⟨S32x2, .f32⟩
  | .hbm, ⟨10, _⟩ => ⟨S2, .f32⟩
  | .hbm, ⟨11, _⟩ => ⟨S1x3200000, .i32⟩
  | .hbm, ⟨12, _⟩ => ⟨S3200000, .i32⟩
  | .hbm, ⟨13, _⟩ => ⟨S1x3200000, .i32⟩
  | .hbm, ⟨14, _⟩ => ⟨S3200000, .i32⟩
  | .hbm, ⟨15, _⟩ => ⟨S_, .f32⟩
  | .hbm, ⟨16, _⟩ => ⟨S3200000, .f32⟩
  | .hbm, ⟨17, _⟩ => ⟨S_, .f32⟩
  | .hbm, ⟨18, _⟩ => ⟨S100000, .f32⟩
  | .hbm, ⟨19, _⟩ => ⟨S3200000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x5, .f32⟩
  | .hbm, ⟨27, _⟩ => ⟨S100000x5, .f32⟩
  | .hbm, ⟨28, _⟩ => ⟨S_, .i32⟩
  | .hbm, ⟨29, _⟩ => ⟨S3200000, .i32⟩
  | .hbm, ⟨30, _⟩ => ⟨S3200000, .i1⟩
  | .hbm, ⟨31, _⟩ => ⟨S_, .i32⟩
  | .hbm, ⟨32, _⟩ => ⟨S3200000, .i32⟩
  | .hbm, ⟨33, _⟩ => ⟨S3200000, .i32⟩
  | .hbm, ⟨34, _⟩ => ⟨S3200000, .i32⟩
  | .hbm, ⟨35, _⟩ => ⟨S3200000x1, .i32⟩
  | .hbm, ⟨36, _⟩ => ⟨S3200000x5, .f32⟩
  | .hbm, ⟨37, _⟩ => ⟨S_, .f32⟩
  | .hbm, ⟨38, _⟩ => ⟨S100000x5, .f32⟩
  | .hbm, ⟨39, _⟩ => ⟨S3200000x1, .i32⟩
  | .hbm, ⟨40, _⟩ => ⟨S100000x5, .f32⟩
  | .hbm, ⟨41, _⟩ => ⟨S1x64, .f32⟩
  | .hbm, ⟨42, _⟩ => ⟨S100000x64, .f32⟩
  | .hbm, ⟨43, _⟩ => ⟨S100000x64, .f32⟩
  | .hbm, ⟨44, _⟩ => ⟨S100000x64, .f32⟩
  | .hbm, ⟨45, _⟩ => ⟨S_, .i32⟩
  | .hbm, ⟨46, _⟩ => ⟨S3200000, .i32⟩
  | .hbm, ⟨47, _⟩ => ⟨S3200000, .i1⟩
  | .hbm, ⟨48, _⟩ => ⟨S_, .i32⟩
  | .hbm, ⟨49, _⟩ => ⟨S3200000, .i32⟩
  | .hbm, ⟨50, _⟩ => ⟨S3200000, .i32⟩
  | .hbm, ⟨51, _⟩ => ⟨S3200000, .i32⟩
  | .hbm, ⟨52, _⟩ => ⟨S3200000x1, .i32⟩
  | .hbm, ⟨53, _⟩ => ⟨S3200000x64, .f32⟩
  | .hbm, ⟨54, _⟩ => ⟨S_, .f32⟩
  | .hbm, ⟨55, _⟩ => ⟨S100000x64, .f32⟩
  | .hbm, ⟨56, _⟩ => ⟨S3200000x1, .i32⟩
  | .hbm, ⟨57, _⟩ => ⟨S100000x64, .f32⟩
  | .hbm, ⟨58, _⟩ => ⟨S1x64, .f32⟩
  | .hbm, ⟨59, _⟩ => ⟨S100000x64, .f32⟩
  | .hbm, ⟨60, _⟩ => ⟨S100000x1, .i32⟩
  | .hbm, ⟨61, _⟩ => ⟨S256x64, .f32⟩
  | .hbm, ⟨62, _⟩ => ⟨S_, .f32⟩
  | .hbm, ⟨63, _⟩ => ⟨S100000, .f32⟩
  | .hbm, ⟨64, _⟩ => ⟨S_, .f32⟩
  | .hbm, ⟨65, _⟩ => ⟨S256, .f32⟩
  | .hbm, ⟨66, _⟩ => ⟨S100000x1, .i32⟩
  | .hbm, ⟨67, _⟩ => ⟨S256, .f32⟩
  | .hbm, ⟨68, _⟩ => ⟨S_, .f32⟩
  | .hbm, ⟨69, _⟩ => ⟨S256, .f32⟩
  | .hbm, ⟨70, _⟩ => ⟨S256, .f32⟩
  | .hbm, ⟨71, _⟩ => ⟨S256x1, .f32⟩
  | .hbm, ⟨72, _⟩ => ⟨S256x64, .f32⟩
  | .hbm, ⟨73, _⟩ => ⟨S256x64, .f32⟩
  | .hbm, ⟨74, _⟩ => ⟨S1x32, .f32⟩
  | .hbm, ⟨75, _⟩ => ⟨S1x2, .f32⟩
  | .hbm, ⟨76, _⟩ => ⟨S256x2, .f32⟩
  | .local _ .vmem, ⟨0, _⟩ => ⟨S5000x5, .f32⟩
  | .local _ .vmem, ⟨1, _⟩ => ⟨S5000x5, .f32⟩
  | .local _ .vmem, ⟨2, _⟩ => ⟨S5000x5, .f32⟩
  | .local _ .vmem, ⟨3, _⟩ => ⟨S5000x5, .f32⟩
  | .local _ .vmem, ⟨4, _⟩ => ⟨S5000x1, .f32⟩
  | .local _ .vmem, ⟨5, _⟩ => ⟨S5000x1, .f32⟩
  | .local _ .vmem, ⟨6, _⟩ => ⟨S5x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x1, .f32⟩
  | .local _ .vmem, ⟨15, _⟩ => ⟨S5000x1, .f32⟩
  | .local _ .vmem, ⟨16, _⟩ => ⟨S64x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x1, .i32⟩
  | .local _ .vmem, ⟨23, _⟩ => ⟨S5000x1, .i32⟩
  | .local _ .vmem, ⟨24, _⟩ => ⟨S256x64, .f32⟩
  | .local _ .vmem, ⟨25, _⟩ => ⟨S256x64, .f32⟩
  | .local _ .vmem, ⟨26, _⟩ => ⟨S64x32, .f32⟩
  | .local _ .vmem, ⟨27, _⟩ => ⟨S1x32, .f32⟩
  | .local _ .vmem, ⟨28, _⟩ => ⟨S32x2, .f32⟩
  | .local _ .vmem, ⟨29, _⟩ => ⟨S1x2, .f32⟩
  | .local _ .vmem, ⟨30, _⟩ => ⟨S256x2, .f32⟩
  | _, _ => ⟨S100000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_7 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_9 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc3_stg0_0 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc3_sem0_0 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S5x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S256x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S64x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S32x2 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x2 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x2 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  bcast_S100000x1_S100000x5_0_1 : S100000x1.BroadcastsInDim S100000x5 (![0, 1] : Fin 2 → Fin S100000x5.rank)
  bcast_S_S100000x5 : S_.BroadcastsInDim S100000x5 (![] : Fin 0 → Fin S100000x5.rank)
  shapeCasts_S64_S1x64 : S64.ShapeCasts S1x64
  inb_S5000x5_S5000x5_0_0 : ∀ a, (![0, 0] : Fin 2 → Nat) a + S5000x5.size a ≤ S5000x5.size a
  h_S5000x5 : 0 < S5000x5.numel
  shapeCasts_S5000x5_S5000x5 : S5000x5.ShapeCasts S5000x5
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x5 : S5000x1.Broadcasts S5000x5
  bitsLt_bf16_f32 : FTy.bits .bf16 < FTy.bits .f32
  inb_S5x64_S5x64_0_0 : ∀ a, (![0, 0] : Fin 2 → Nat) a + S5x64.size a ≤ S5x64.size a
  h_S5x64 : 0 < S5x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  shapeCasts_S5000x64_S5000x64 : S5000x64.ShapeCasts S5000x64
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  inb_S256x64_S256x64_0_0 : ∀ a, (![0, 0] : Fin 2 → Nat) a + S256x64.size a ≤ S256x64.size a
  h_S256x64 : 0 < S256x64.numel
  iota_S5000x256_d1_w32 : S5000x256.Iotas .tc 32 [1]
  broadcasts_S5000x1_S5000x256 : S5000x1.Broadcasts S5000x256
  natLt_1_32 : 1 < 32
  shapeCasts_S256x64_S256x64 : S256x64.ShapeCasts S256x64
  bcast_S_S256 : S_.BroadcastsInDim S256 (![] : Fin 0 → Fin S256.rank)
  bcast_S100000_S100000x1_0 : S100000.BroadcastsInDim S100000x1 (![0] : Fin 1 → Fin S100000x1.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  shapeCasts_S32_S1x32 : S32.ShapeCasts S1x32
  shapeCasts_S2_S1x2 : S2.ShapeCasts S1x2
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S256x32 : S1x32.Broadcasts S256x32
  inb_S32x2_S32x2_0_0 : ∀ a, (![0, 0] : Fin 2 → Nat) a + S32x2.size a ≤ S32x2.size a
  h_S32x2 : 0 < S32x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S256x2 : S1x2.Broadcasts S256x2
  inb_S256x2_S256x2_0_0 : ∀ a, (![0, 0] : Fin 2 → Nat) a + S256x2.size a ≤ S256x2.size a
  h_S256x2 : 0 < S256x2.numel
  scatter_S100000_S3200000x1_S3200000_n_0_0_1_wf : ScatterDims.WF S100000 S3200000x1 S3200000 [] [0] [0] 1
  gather_S100000x5_S3200000x1_S3200000x5_1_0_n_n_0_1_15_wf : GatherDims.WF S100000x5 S3200000x1 S3200000x5 [1] [0] [] [0] [] 1 ![1, 5]
  scatter_S100000x5_S3200000x1_S3200000x5_1_0_0_1_wf : ScatterDims.WF S100000x5 S3200000x1 S3200000x5 [1] [0] [0] 1
  dot_S5000x5_S5x64_S5000x64_1_0_0_1_n_n_wf : DotDims.WF S5000x5 S5x64 S5000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S5000x64_S64x64_S5000x64_1_0_0_1_n_n_wf : DotDims.WF S5000x64 S64x64 S5000x64 [1] [0] [0] [1] [] []
  dot_S5000x256_S5000x64_S256x64_0_0_1_1_n_n_wf : DotDims.WF S5000x256 S5000x64 S256x64 [0] [0] [1] [1] [] []
  scatter_S256_S100000x1_S100000_n_0_0_1_wf : ScatterDims.WF S256 S100000x1 S100000 [] [0] [0] 1
  dot_S256x64_S64x32_S256x32_1_0_0_1_n_n_wf : DotDims.WF S256x64 S64x32 S256x32 [1] [0] [0] [1] [] []
  dot_S256x32_S32x2_S256x2_1_0_0_1_n_n_wf : DotDims.WF S256x32 S32x2 S256x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x5.size a ≤ S100000x5.size a
  hwx0_0 : ∀ i : grid0.Coords, EltTy.bits .f32 = 32 ∨ (Rect.block (s := S100000x5) S5000x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x5.size a ≤ S100000x5.size a
  hwx0_1 : ∀ i : grid0.Coords, EltTy.bits .f32 = 32 ∨ (Rect.block (s := S100000x5) S5000x5.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5x64.size a ≤ S5x64.size a
  hwx0_3 : ∀ i : grid0.Coords, EltTy.bits .f32 = 32 ∨ (Rect.block (s := S5x64) S5x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .i32 = 32 ∨ (Rect.block (s := S100000x1) S5000x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x64.size a ≤ S256x64.size a
  hwx2_2 : ∀ i : grid2.Coords, EltTy.bits .f32 = 32 ∨ (Rect.block (s := S256x64) S256x64.size (cc2_transform_2 i) (hinb2_2 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S256x64.size a ≤ S256x64.size a
  hwx3_0 : ∀ i : grid3.Coords, EltTy.bits .f32 = 32 ∨ (Rect.block (s := S256x64) S256x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x32.size a ≤ S64x32.size a
  hwx3_1 : ∀ i : grid3.Coords, EltTy.bits .f32 = 32 ∨ (Rect.block (s := S64x32) S64x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S32x2.size a ≤ S32x2.size a
  hwx3_3 : ∀ i : grid3.Coords, EltTy.bits .f32 = 32 ∨ (Rect.block (s := S32x2) S32x2.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x2.size a ≤ S1x2.size a
  hwx3_4 : ∀ i : grid3.Coords, EltTy.bits .f32 = 32 ∨ (Rect.block (s := S1x2) S1x2.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x2.size a ≤ S256x2.size a
  hwx3_5 : ∀ i : grid3.Coords, EltTy.bits .f32 = 32 ∨ (Rect.block (s := S256x2) S256x2.size (cc3_transform_5 i) (hinb3_5 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x5_S3200000x1_S3200000x5_1_0_n_n_0_1_15 : GatherDims S100000x5 S3200000x1 S3200000x5 where
  offsetDims := [1]
  collapsedSliceDims := [0]
  operandBatchingDims := []
  startIndicesBatchingDims := []
  startIndexMap := [0]
  indexVectorDim := 1
  sliceSizes := ![1, 5]
  wf := gather_S100000x5_S3200000x1_S3200000x5_1_0_n_n_0_1_15_wf
def scatter_S100000x5_S3200000x1_S3200000x5_1_0_0_1 : ScatterDims S100000x5 S3200000x1 S3200000x5 where
  updateWindowDims := [1]
  insertedWindowDims := [0]
  scatterDimsToOperandDims := [0]
  indexVectorDim := 1
  wf := scatter_S100000x5_S3200000x1_S3200000x5_1_0_0_1_wf
def dot_S5000x5_S5x64_S5000x64_1_0_0_1_n_n : DotDims S5000x5 S5x64 S5000x64 where
  lhsContracting := [1]
  rhsContracting := [0]
  lhsNonContracting := [0]
  rhsNonContracting := [1]
  lhsBatch := []
  rhsBatch := []
  wf := dot_S5000x5_S5x64_S5000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x256_S5000x64_S256x64_0_0_1_1_n_n : DotDims S5000x256 S5000x64 S256x64 where
  lhsContracting := [0]
  rhsContracting := [0]
  lhsNonContracting := [1]
  rhsNonContracting := [1]
  lhsBatch := []
  rhsBatch := []
  wf := dot_S5000x256_S5000x64_S256x64_0_0_1_1_n_n_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x64_S64x32_S256x32_1_0_0_1_n_n : DotDims S256x64 S64x32 S256x32 where
  lhsContracting := [1]
  rhsContracting := [0]
  lhsNonContracting := [0]
  rhsNonContracting := [1]
  lhsBatch := []
  rhsBatch := []
  wf := dot_S256x64_S64x32_S256x32_1_0_0_1_n_n_wf
def dot_S256x32_S32x2_S256x2_1_0_0_1_n_n : DotDims S256x32 S32x2 S256x2 where
  lhsContracting := [1]
  rhsContracting := [0]
  lhsNonContracting := [0]
  rhsNonContracting := [1]
  lhsBatch := []
  rhsBatch := []
  wf := dot_S256x32_S32x2_S256x2_1_0_0_1_n_n_wf

abbrev win0_0 : Pipeline.Window sig grid0 :=
  Pipeline.Window.ofSpec (Memref.whole main_v13) S5000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S5000x5.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S5x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v27) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v39) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S256x64.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v50) S256x64.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S64x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v51) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S32x2.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v52) S1x2.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v53) S256x2.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x5 : Shape := ⟨2, ![100000, 5]⟩
abbrev S2x3200000 : Shape := ⟨2, ![2, 3200000]⟩
abbrev S100000 : Shape := ⟨1, ![100000]⟩
abbrev S5x64 : Shape := ⟨2, ![5, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000x64 : Shape := ⟨2, ![100000, 64]⟩
abbrev S3200000x64 : Shape := ⟨2, ![3200000, 64]⟩
abbrev S100000x1 : Shape := ⟨2, ![100000, 1]⟩
abbrev S1x64 : Shape := ⟨2, ![1, 64]⟩
abbrev S256 : Shape := ⟨1, ![256]⟩
abbrev S256x64 : Shape := ⟨2, ![256, 64]⟩
abbrev S256x1 : Shape := ⟨2, ![256, 1]⟩
abbrev S256x32 : Shape := ⟨2, ![256, 32]⟩
abbrev S1x32 : Shape := ⟨2, ![1, 32]⟩
abbrev S256x2 : Shape := ⟨2, ![256, 2]⟩
abbrev S1x2 : Shape := ⟨2, ![1, 2]⟩

abbrev nBuf : Space → Nat
  | .hbm => 160
  | .vmem => 0
  | .smem => 0
  | _ => 0

abbrev hbmTy0_0 (i : Nat) : BufTy := match i % 128 with
  | 0 => ⟨S100000x5, .f32⟩
  | 1 => ⟨S2x3200000, .i32⟩
  | 2 => ⟨S100000, .i32⟩
  | 3 => ⟨S5x64, .f32⟩
  | 4 => ⟨S64, .f32⟩
  | 5 => ⟨S64x64, .f32⟩
  | 6 => ⟨S64, .f32⟩
  | 7 => ⟨S64x32, .f32⟩
  | 8 => ⟨S32, .f32⟩
  | 9 => ⟨S32x2, .f32⟩
  | 10 => ⟨S2, .f32⟩
  | 11 => ⟨S1x3200000, .i32⟩
  | 12 => ⟨S3200000, .i32⟩
  | 13 => ⟨S1x3200000, .i32⟩
  | 14 => ⟨S3200000, .i32⟩
  | 15 => ⟨S_, .f32⟩
  | 16 => ⟨S3200000, .f32⟩
  | 17 => ⟨S_, .f32⟩
  | 18 => ⟨S100000, .f32⟩
  | 19 => ⟨S3200000x1, .i32⟩
  | 20 => ⟨S100000, .f32⟩
  | 21 => ⟨S_, .f32⟩
  | 22 => ⟨S100000, .f32⟩
  | 23 => ⟨S100000, .f32⟩
  | 24 => ⟨S100000, .f32⟩
  | 25 => ⟨S100000x64, .f32⟩
  | 26 => ⟨S_, .i32⟩
  | 27 => ⟨S3200000, .i32⟩
  | 28 => ⟨S3200000, .i1⟩
  | 29 => ⟨S_, .i32⟩
  | 30 => ⟨S3200000, .i32⟩
  | 31 => ⟨S3200000, .i32⟩
  | 32 => ⟨S3200000, .i32⟩
  | 33 => ⟨S3200000x1, .i32⟩
  | 34 => ⟨S3200000, .f32⟩
  | 35 => ⟨S_, .i32⟩
  | 36 => ⟨S3200000, .i32⟩
  | 37 => ⟨S3200000, .i1⟩
  | 38 => ⟨S_, .i32⟩
  | 39 => ⟨S3200000, .i32⟩
  | 40 => ⟨S3200000, .i32⟩
  | 41 => ⟨S3200000, .i32⟩
  | 42 => ⟨S3200000x1, .i32⟩
  | 43 => ⟨S3200000, .f32⟩
  | 44 => ⟨S3200000, .f32⟩
  | 45 => ⟨S_, .i32⟩
  | 46 => ⟨S3200000, .i32⟩
  | 47 => ⟨S3200000, .i1⟩
  | 48 => ⟨S_, .i32⟩
  | 49 => ⟨S3200000, .i32⟩
  | 50 => ⟨S3200000, .i32⟩
  | 51 => ⟨S3200000, .i32⟩
  | 52 => ⟨S3200000x1, .i32⟩
  | 53 => ⟨S3200000x64, .f32⟩
  | 54 => ⟨S3200000x1, .f32⟩
  | 55 => ⟨S3200000x64, .f32⟩
  | 56 => ⟨S3200000x64, .f32⟩
  | 57 => ⟨S_, .f32⟩
  | 58 => ⟨S100000x64, .f32⟩
  | 59 => ⟨S3200000x1, .i32⟩
  | 60 => ⟨S100000x64, .f32⟩
  | 61 => ⟨S100000, .f32⟩
  | 62 => ⟨S100000x1, .f32⟩
  | 63 => ⟨S100000x64, .f32⟩
  | 64 => ⟨S100000x64, .f32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S100000x64, .f32⟩
  | 73 => ⟨S_, .i32⟩
  | 74 => ⟨S3200000, .i32⟩
  | 75 => ⟨S3200000, .i1⟩
  | 76 => ⟨S_, .i32⟩
  | 77 => ⟨S3200000, .i32⟩
  | 78 => ⟨S3200000, .i32⟩
  | 79 => ⟨S3200000, .i32⟩
  | 80 => ⟨S3200000x1, .i32⟩
  | 81 => ⟨S3200000, .f32⟩
  | 82 => ⟨S_, .i32⟩
  | 83 => ⟨S3200000, .i32⟩
  | 84 => ⟨S3200000, .i1⟩
  | 85 => ⟨S_, .i32⟩
  | 86 => ⟨S3200000, .i32⟩
  | 87 => ⟨S3200000, .i32⟩
  | 88 => ⟨S3200000, .i32⟩
  | 89 => ⟨S3200000x1, .i32⟩
  | 90 => ⟨S3200000, .f32⟩
  | 91 => ⟨S3200000, .f32⟩
  | 92 => ⟨S_, .i32⟩
  | 93 => ⟨S3200000, .i32⟩
  | 94 => ⟨S3200000, .i1⟩
  | 95 => ⟨S_, .i32⟩
  | 96 => ⟨S3200000, .i32⟩
  | 97 => ⟨S3200000, .i32⟩
  | 98 => ⟨S3200000, .i32⟩
  | 99 => ⟨S3200000x1, .i32⟩
  | 100 => ⟨S3200000x64, .f32⟩
  | 101 => ⟨S3200000x1, .f32⟩
  | 102 => ⟨S3200000x64, .f32⟩
  | 103 => ⟨S3200000x64, .f32⟩
  | 104 => ⟨S_, .f32⟩
  | 105 => ⟨S100000x64, .f32⟩
  | 106 => ⟨S3200000x1, .i32⟩
  | 107 => ⟨S100000x64, .f32⟩
  | 108 => ⟨S100000, .f32⟩
  | 109 => ⟨S100000x1, .f32⟩
  | 110 => ⟨S100000x64, .f32⟩
  | 111 => ⟨S100000x64, .f32⟩
  | 112 => ⟨S100000x64, .f32⟩
  | 113 => ⟨S1x64, .f32⟩
  | 114 => ⟨S100000x64, .f32⟩
  | 115 => ⟨S100000x64, .f32⟩
  | 116 => ⟨S_, .f32⟩
  | 117 => ⟨S100000x64, .f32⟩
  | 118 => ⟨S100000x64, .f32⟩
  | 119 => ⟨S_, .f32⟩
  | 120 => ⟨S100000, .f32⟩
  | 121 => ⟨S_, .f32⟩
  | 122 => ⟨S256, .f32⟩
  | 123 => ⟨S100000x1, .i32⟩
  | 124 => ⟨S256, .f32⟩
  | 125 => ⟨S_, .f32⟩
  | 126 => ⟨S256x64, .f32⟩
  | 127 => ⟨S100000x1, .i32⟩
  | _ => ⟨S100000x5, .f32⟩

abbrev hbmTy0_1 (i : Nat) : BufTy := match i % 128 with
  | 0 => ⟨S256x64, .f32⟩
  | 1 => ⟨S_, .f32⟩
  | 2 => ⟨S256, .f32⟩
  | 3 => ⟨S256, .f32⟩
  | 4 => ⟨S256x1, .f32⟩
  | 5 => ⟨S256x64, .f32⟩
  | 6 => ⟨S256x64, .f32⟩
  | 7 => ⟨S256x32, .f32⟩
  | 8 => ⟨S1x32, .f32⟩
  | 9 => ⟨S256x32, .f32⟩
  | 10 => ⟨S256x32, .f32⟩
  | 11 => ⟨S_, .f32⟩
  | 12 => ⟨S256x32, .f32⟩
  | 13 => ⟨S256x32, .f32⟩
  | 14 => ⟨S256x2, .f32⟩
  | 15 => ⟨S1x2, .f32⟩
  | 16 => ⟨S256x2, .f32⟩
  | 17 => ⟨S256x2, .f32⟩
  | 18 => ⟨S256x2, .f32⟩
  | 19 => ⟨S256x2, .f32⟩
  | 20 => ⟨S_, .f32⟩
  | 21 => ⟨S256x2, .f32⟩
  | 22 => ⟨S256x2, .f32⟩
  | 23 => ⟨S_, .f32⟩
  | 24 => ⟨S256x2, .f32⟩
  | 25 => ⟨S256x2, .f32⟩
  | 26 => ⟨S_, .f32⟩
  | 27 => ⟨S256x2, .f32⟩
  | 28 => ⟨S256x2, .f32⟩
  | 29 => ⟨S_, .f32⟩
  | 30 => ⟨S256x2, .f32⟩
  | 31 => ⟨S256x2, .f32⟩
  | _ => ⟨S100000x5, .f32⟩

abbrev hbmTy (i : Nat) : BufTy := match i / 128 with
  | 0 => hbmTy0_0 i
  | 1 => hbmTy0_1 i
  | _ => ⟨S100000x5, .f32⟩

abbrev bufTy : (tb : Table) → Fin (tcTables nBuf tb) → BufTy
  | .hbm, ⟨i, _⟩ => hbmTy i
  | _, _ => ⟨S100000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call0_cst : Ref sig .tc := ⟨.hbm, 69, rfl⟩
abbrev main_call0_v0 : Ref sig .tc := ⟨.hbm, 70, rfl⟩
abbrev main_v48 : Ref sig .tc := ⟨.hbm, 71, rfl⟩
abbrev main_v49 : Ref sig .tc := ⟨.hbm, 72, rfl⟩
abbrev main_c_8 : Ref sig .tc := ⟨.hbm, 73, rfl⟩
abbrev main_v50 : Ref sig .tc := ⟨.hbm, 74, rfl⟩
abbrev main_v51 : Ref sig .tc := ⟨.hbm, 75, rfl⟩
abbrev main_c_9 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_10 : Ref sig .tc := ⟨.hbm, 82, rfl⟩
abbrev main_v57 : Ref sig .tc := ⟨.hbm, 83, rfl⟩
abbrev main_v58 : Ref sig .tc := ⟨.hbm, 84, rfl⟩
abbrev main_c_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_12 : Ref sig .tc := ⟨.hbm, 92, rfl⟩
abbrev main_v65 : Ref sig .tc := ⟨.hbm, 93, rfl⟩
abbrev main_v66 : Ref sig .tc := ⟨.hbm, 94, rfl⟩
abbrev main_c_13 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_14 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_call1_cst : Ref sig .tc := ⟨.hbm, 116, rfl⟩
abbrev main_call1_v0 : Ref sig .tc := ⟨.hbm, 117, rfl⟩
abbrev main_v86 : Ref sig .tc := ⟨.hbm, 118, rfl⟩
abbrev main_cst_15 : Ref sig .tc := ⟨.hbm, 119, rfl⟩
abbrev main_v87 : Ref sig .tc := ⟨.hbm, 120, rfl⟩
abbrev main_cst_16 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_17 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_cst_18 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_call2_cst : Ref sig .tc := ⟨.hbm, 139, rfl⟩
abbrev main_call2_v0 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_cst_19 : Ref sig .tc := ⟨.hbm, 148, rfl⟩
abbrev main_v110 : Ref sig .tc := ⟨.hbm, 149, rfl⟩
abbrev main_v111 : Ref sig .tc := ⟨.hbm, 150, rfl⟩
abbrev main_cst_20 : Ref sig .tc := ⟨.hbm, 151, rfl⟩
abbrev main_v112 : Ref sig .tc := ⟨.hbm, 152, rfl⟩
abbrev main_v113 : Ref sig .tc := ⟨.hbm, 153, rfl⟩
abbrev main_cst_21 : Ref sig .tc := ⟨.hbm, 154, rfl⟩
abbrev main_v114 : Ref sig .tc := ⟨.hbm, 155, rfl⟩
abbrev main_v115 : Ref sig .tc := ⟨.hbm, 156, rfl⟩
abbrev main_cst_22 : Ref sig .tc := ⟨.hbm, 157, rfl⟩
abbrev main_v116 : Ref sig .tc := ⟨.hbm, 158, rfl⟩
abbrev main_v117 : Ref sig .tc := ⟨.hbm, 159, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S256 : S_.BroadcastsInDim S256 (![] : Fin 0 → Fin S256.rank)
  bcast_S_S256x64 : S_.BroadcastsInDim S256x64 (![] : Fin 0 → Fin S256x64.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  bcast_S32_S1x32_1 : S32.BroadcastsInDim S1x32 (![1] : Fin 1 → Fin S1x32.rank)
  bcast_S1x32_S256x32_0_1 : S1x32.BroadcastsInDim S256x32 (![0, 1] : Fin 2 → Fin S256x32.rank)
  bcast_S_S256x32 : S_.BroadcastsInDim S256x32 (![] : Fin 0 → Fin S256x32.rank)
  bcast_S2_S1x2_1 : S2.BroadcastsInDim S1x2 (![1] : Fin 1 → Fin S1x2.rank)
  bcast_S1x2_S256x2_0_1 : S1x2.BroadcastsInDim S256x2 (![0, 1] : Fin 2 → Fin S256x2.rank)
  bcast_S_S256x2 : S_.BroadcastsInDim S256x2 (![] : Fin 0 → Fin S256x2.rank)
  scatter_S100000_S3200000x1_S3200000_n_0_0_1_wf : ScatterDims.WF S100000 S3200000x1 S3200000 [] [0] [0] 1
  dot_S100000x5_S5x64_S100000x64_1_0_0_1_n_n_wf : DotDims.WF S100000x5 S5x64 S100000x64 [1] [0] [0] [1] [] []
  gather_S100000_S3200000x1_S3200000_n_0_n_n_0_1_1_wf : GatherDims.WF S100000 S3200000x1 S3200000 [] [0] [] [0] [] 1 ![1]
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []
  scatter_S256_S100000x1_S100000_n_0_0_1_wf : ScatterDims.WF S256 S100000x1 S100000 [] [0] [0] 1
  scatter_S256x64_S100000x1_S100000x64_1_0_0_1_wf : ScatterDims.WF S256x64 S100000x1 S100000x64 [1] [0] [0] 1
  dot_S256x64_S64x32_S256x32_1_0_0_1_n_n_wf : DotDims.WF S256x64 S64x32 S256x32 [1] [0] [0] [1] [] []
  dot_S256x32_S32x2_S256x2_1_0_0_1_n_n_wf : DotDims.WF S256x32 S32x2 S256x2 [1] [0] [0] [1] [] []

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x5_S5x64_S100000x64_1_0_0_1_n_n : DotDims S100000x5 S5x64 S100000x64 where
  lhsContracting := [1]
  rhsContracting := [0]
  lhsNonContracting := [0]
  rhsNonContracting := [1]
  lhsBatch := []
  rhsBatch := []
  wf := dot_S100000x5_S5x64_S100000x64_1_0_0_1_n_n_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def dot_S256x64_S64x32_S256x32_1_0_0_1_n_n : DotDims S256x64 S64x32 S256x32 where
  lhsContracting := [1]
  rhsContracting := [0]
  lhsNonContracting := [0]
  rhsNonContracting := [1]
  lhsBatch := []
  rhsBatch := []
  wf := dot_S256x64_S64x32_S256x32_1_0_0_1_n_n_wf
def dot_S256x32_S32x2_S256x2_1_0_0_1_n_n : DotDims S256x32 S32x2 S256x2 where
  lhsContracting := [1]
  rhsContracting := [0]
  lhsNonContracting := [0]
  rhsNonContracting := [1]
  lhsBatch := []
  rhsBatch := []
  wf := dot_S256x32_S32x2_S256x2_1_0_0_1_n_n_wf

class Facts : Prop extends Facts₀ where

variable [Facts]
-- ==== Proof.Finite.lean ====
/-
  What the precondition gives: the printed predicate is the conjunction, over the nine float arguments, of "every
  entry's absolute value is below +∞"; at the extended reals an entry with `|x| < ⊤` is a real number.  Read here
  for the four arguments whose finiteness the equivalence uses: the node features, the two weight matrices of the
  graph-convolution layers and the first bias.
-/
import proofs.«418273_j51264729645494_2_alg».proof.Proof.Gen.Pre_finite_inputs
import Idealize.ShloMosaic.PureOps.Ideal
import Idealize.ShloMosaic.Lib.ReduceAll
import Idealize.ShloMosaic.Lib.ValueIdx

noncomputable section

namespace Cert.GcnPre

open Idealize.ShloMosaic Cert.Pre_finite_inputs

/-- The word `0x7F800000` read as a single-precision value is `+∞`. -/
private theorem inf_bits : Ideal.ofBits .f32 0x7F800000#32 = (⊤ : EReal) := by
  simp [Ideal.ofBits, Ideal.ieee]

/-- An extended real whose absolute value `max x (-x)` is strictly below `+∞` is a real number: at `⊥` and at `⊤`
    the absolute value is `⊤`, which is not below itself. -/
private theorem real_of_abs_lt (x : EReal)
    (hx : Ideal.cmp .olt (max x (-x)) (Ideal.ofBits .f32 0x7F800000#32) = 1#1) : ∃ r : ℝ, x = (r : EReal) := by
  rw [inf_bits] at hx
  induction x using EReal.rec with
  | bot => simp [Ideal.cmp] at hx
  | coe r => exact ⟨r, rfl⟩
  | top => simp [Ideal.cmp] at hx

/-- One conjunct of the predicate, for an array of any shape: if the conjunction over all entries of
    "`|a i| < +∞`" is true, every entry of `a` is a real number. -/
private theorem real_of_all {s : Shape} {axes : List (Fin s.rank)} (a : FVec Ideal s .f32)
    (bc : S_.BroadcastsInDim s (![] : Fin 0 → Fin s.rank)) (hr : s.ReducesTo axes S_) (hu : 0 < S_.numel)
    (j : S_.Idx)
    (e : Host.reduce IntOp.andi (cmpf .olt (Host.absf a) (broadcastInDim s ![] bc (constant S_ .f32 0x7F800000#32)))
          (constantI S_ 1 1#1) hr hu j = 1#1) :
    ∀ i, ∃ r : ℝ, (a i : EReal) = (r : EReal) := by
  haveI : Subsingleton S_.Idx := ⟨fun a b => funext fun d => d.elim0⟩
  intro i
  exact real_of_abs_lt (a i) (Host.reduce_andi_all _ _ hr hu j e i)

/-- Where the precondition holds, the features, both layer weights and the first bias are arrays of reals. -/
theorem real_of_pre [Cert.Pre_finite_inputs.Facts]
    (a0 : FVec Ideal S100000x5 .f32) (a1 : IVec S2x3200000 32) (a2 : IVec S100000 32) (a3 : FVec Ideal S5x64 .f32)
    (a4 : FVec Ideal S64 .f32) (a5 : FVec Ideal S64x64 .f32) (a6 : FVec Ideal S64 .f32) (a7 : FVec Ideal S64x32 .f32)
    (a8 : FVec Ideal S32 .f32) (a9 : FVec Ideal S32x2 .f32) (a10 : FVec Ideal S2 .f32)
    (h : Cert.Pre_finite_inputs.fn (F := Ideal) a0 a1 a2 a3 a4 a5 a6 a7 a8 a9 a10 = fun _ => 1#1) :
    (∀ i, ∃ r : ℝ, (a0 i : EReal) = (r : EReal)) ∧ (∀ i, ∃ r : ℝ, (a3 i : EReal) = (r : EReal))
      ∧ (∀ i, ∃ r : ℝ, (a4 i : EReal) = (r : EReal)) ∧ (∀ i, ∃ r : ℝ, (a5 i : EReal) = (r : EReal)) := by
  -- the predicate at its one index: a conjunction of nine bits, one per float argument, the first four in the order
  -- features, first weights, first bias, second weights
  have h0 := congrFun h ValueIdx.ix0
  dsimp only [fn, fn_part1, fn_part2] at h0
  simp only [andi, IntOp.andi_eq_one] at h0
  obtain ⟨⟨⟨⟨⟨⟨⟨⟨e0, e3⟩, e4⟩, e5⟩, -⟩, -⟩, -⟩, -⟩, -⟩ := h0
  exact ⟨real_of_all a0 _ _ _ _ e0, real_of_all a3 _ _ _ _ e3, real_of_all a4 _ _ _ _ e4, real_of_all a5 _ _ _ _ e5⟩

end Cert.GcnPre

end
-- ==== Proof.Spec.lean ====
/-
  The mathematics both programs compute, index by index, on the extended reals.

  Nodes are numbered below 100000, edges below 3200000, graphs below 256.  An edge `e` carries two signed
  words: `src e`, read as a node by wrapping a negative word by 100000 and clamping into range (`nodeOf`), and
  `dst e`, which contributes to node `n` exactly when the word, read signed, IS `n` (`into`): a segment sum
  drops every update whose segment is out of range.  The degree of `n` counts those edges plus the self loop,
  `dinv n` is its inverse square root.

  One graph-convolution layer sends node features `feat` to
  `max (Σ_e dinv·dinv·(feat(src e) W) + dinv·dinv·(feat n W) + b, 0)`.  `layerR` spells it as the reference
  does (transform, then aggregate with the per-edge normalisation); `layerK` as the kernel does (scale the
  features by `dinv`, aggregate, add the self term, scale by `dinv` again, then transform).  `pool` sums the
  rows of a graph, `emb` divides by the graph's size (at least one), `head` is the two-layer perceptron with
  the scaled logistic output.
-/
import Idealize.ShloMosaic.PureOps.Ideal
import Idealize.ShloMosaic.Lib.ValueIdx

noncomputable section

namespace Cert.Gcn

open Idealize.ShloMosaic

/-- The float words 1.0, 2.0 and 3.0 as the programs spell them. -/
abbrev one32 : EReal := Ideal.ofBits .f32 0x3F800000#32
abbrev two32 : EReal := Ideal.ofBits .f32 0x40000000#32
abbrev three32 : EReal := Ideal.ofBits .f32 0x40400000#32

/-- A negative index word counts from the end: it is moved up by the number of nodes. -/
def wrapW (w : BitVec 32) : BitVec 32 := Scalar.select (IntOp.cmpi .slt w 0#32) (IntOp.addi w 100000#32) w

/-- The node an index word names when a row is gathered: wrapped, read signed, clamped into `[0, 99999]`. -/
def nodeOf (w : BitVec 32) : Fin 100000 := ⟨min (wrapW w).toInt.toNat (100000 - 1), by omega⟩

section Edges
variable (src dst : Fin 3200000 → BitVec 32)

/-- The edges whose destination word, read signed, is node `n`. -/
def into (n : Fin 100000) : Finset (Fin 3200000) := Finset.univ.filter fun e => (dst e).toInt = (n.val : ℤ)

/-- In-degree plus the self loop. -/
def deg (n : Fin 100000) : EReal := (0 + ∑ _e ∈ into dst n, one32) + one32

/-- `deg^(-1/2)`. -/
def dinv (n : Fin 100000) : EReal := Ideal.rsqrt (deg dst n)

/-- One layer as the kernel computes it: aggregate the `dinv`-scaled features, then transform. -/
def layerK {Fi : ℕ} (feat : Fin 100000 → Fin Fi → EReal) (W : Fin Fi → Fin 64 → EReal) (b : Fin 64 → EReal)
    (n : Fin 100000) (k : Fin 64) : EReal :=
  max ((0 + ∑ f : Fin Fi,
        (dinv dst n * ((0 + ∑ e ∈ into dst n, feat (nodeOf (src e)) f * dinv dst (nodeOf (src e))) + feat n f * dinv dst n))
          * W f k) + b k) 0

/-- One layer as the reference computes it: transform, then aggregate with the edge normalisation. -/
def layerR {Fi : ℕ} (feat : Fin 100000 → Fin Fi → EReal) (W : Fin Fi → Fin 64 → EReal) (b : Fin 64 → EReal)
    (n : Fin 100000) (k : Fin 64) : EReal :=
  max ((((0 + ∑ e ∈ into dst n,
          (0 + ∑ f : Fin Fi, feat (nodeOf (src e)) f * W f k) * (dinv dst (nodeOf (src e)) * dinv dst (nodeOf (dst e))))
        + (0 + ∑ f : Fin Fi, feat n f * W f k) * (dinv dst n * dinv dst n)) + b k)) 0

end Edges

section Graphs
variable (batch : Fin 100000 → BitVec 32)

/-- The nodes whose graph word, read signed, is graph `g`. -/
def inGraph (g : Fin 256) : Finset (Fin 100000) := Finset.univ.filter fun n => (batch n).toInt = (g.val : ℤ)

/-- The sum of a graph's rows. -/
def pool (h : Fin 100000 → Fin 64 → EReal) (g : Fin 256) (k : Fin 64) : EReal := ∑ n ∈ inGraph batch g, h n k

/-- The number of a graph's nodes. -/
def cnt (g : Fin 256) : EReal := 0 + ∑ _n ∈ inGraph batch g, one32

/-- The mean row of a graph (an empty graph divides by one). -/
def emb (p : Fin 256 → Fin 64 → EReal) (g : Fin 256) (k : Fin 64) : EReal := Ideal.div (p g k) (max (cnt batch g) one32)

end Graphs

/-- The two-layer head with its scaled logistic output. -/
def head (e : Fin 256 → Fin 64 → EReal) (Wp1 : Fin 64 → Fin 32 → EReal) (bp1 : Fin 32 → EReal)
    (Wp2 : Fin 32 → Fin 2 → EReal) (bp2 : Fin 2 → EReal) (g : Fin 256) (j : Fin 2) : EReal :=
  two32 + Ideal.logistic ((0 + ∑ i : Fin 32, max ((0 + ∑ k : Fin 64, e g k * Wp1 k i) + bp1 i) 0 * Wp2 i j) + bp2 j) * three32

end Cert.Gcn

end
-- ==== Proof.LibScatter.lean ====
/-
  Segment sums and row gathers read at an index, at any extents.

  A segment sum of scalars (operand `[N]`, one index word per update, updates `[E]`) and of rows (operand
  `[N, K]`, updates `[E, K]`) adds to element `n` (row `n`, column `k`) exactly the updates whose index word,
  read SIGNED and not clamped, is `n`; a word outside `[0, N)` contributes nowhere.  A row gather reads row
  `min (toNat of the signed word) (N - 1)`: a negative word reads row 0, a word past the end the last row.
-/
import Idealize.ShloMosaic.PureOps.Ideal
import Idealize.ShloMosaic.Lib.ValueIdx
import Idealize.ShloMosaic.Lib.ValueIdxRank1
import Idealize.ShloMosaic.Lib.StableHlo.Predicate

noncomputable section

namespace Cert.GcnLib

open Idealize.ShloMosaic Idealize.ShloMosaic.ValueIdx

/-- An update lands at operand index `i` exactly when, on every axis, start plus window coordinate is `i`'s coordinate. -/
private theorem resultIdx?_eq_some_iff {s si u : Shape} (d : ScatterDims s si u) {w : ℕ} (j : u.Idx) (idx : IVec si w)
    (i : s.Idx) :
    d.resultIdx? j idx = some i ↔ ∀ a, d.start j idx a + d.window j a = ((i a).val : ℤ) := by
  unfold ScatterDims.resultIdx?
  split
  · next h =>
    rw [Option.some.injEq]
    constructor
    · intro hf a
      rw [← hf]
      exact (Int.toNat_of_nonneg (h a).1).symm
    · intro hall
      funext a
      apply Fin.ext
      show (d.start j idx a + (d.window j a : ℤ)).toNat = (i a).val
      rw [hall a]
      exact Int.toNat_natCast _
  · next h =>
    constructor
    · intro hf; exact absurd hf (by simp)
    · intro hall
      exact absurd (fun a => by
        rw [hall a]
        exact ⟨Int.natCast_nonneg _, by exact_mod_cast (i a).isLt⟩) h

/-- A segment sum of scalars at element `n`. -/
theorem scatterAdd_vec {N E w : ℕ} (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1)
    (x : (⟨1, ![N]⟩ : Shape).Idx → EReal) (idx : IVec ⟨2, ![E, 1]⟩ w) (upd : (⟨1, ![E]⟩ : Shape).Idx → EReal) (n : Fin N) :
    Ideal.hostScatterAdd d x idx upd (ix1 n)
      = x (ix1 n) + ∑ e ∈ Finset.univ.filter (fun e : Fin E => (idx (ix2 e (0 : Fin 1))).toInt = (n.val : ℤ)), upd (ix1 e) := by
  obtain ⟨uw, iw, sd, iv, wf⟩ := d
  simp only at huw hiw hsd hiv
  subst huw hiw hsd hiv
  -- on the one operand axis: the start is the signed word, the window coordinate is 0 (the axis is inserted)
  have hsw : ∀ (e : Fin E) (a : Fin 1),
      ScatterDims.start (s := ⟨1, ![N]⟩) (si := ⟨2, ![E, 1]⟩) (u := ⟨1, ![E]⟩) ⟨[], [0], [0], 1, wf⟩ (ix1 e) idx a
        + (ScatterDims.window (s := ⟨1, ![N]⟩) (si := ⟨2, ![E, 1]⟩) (u := ⟨1, ![E]⟩) ⟨[], [0], [0], 1, wf⟩ (ix1 e) a : ℤ)
        = (idx (ix2 e (0 : Fin 1))).toInt := by
    intro e a
    obtain rfl : a = 0 := Subsingleton.elim _ _
    unfold ScatterDims.start ScatterDims.window
    rw [dif_pos (List.mem_singleton.mpr rfl), dif_neg (by simp [Shape.kept])]
    have hsi : ∀ (c : Fin ([0] : List (Fin 1)).length),
        ScatterDims.siIdx (s := ⟨1, ![N]⟩) (si := ⟨2, ![E, 1]⟩) (u := ⟨1, ![E]⟩) ⟨[], [0], [0], 1, wf⟩ (ix1 e) c
          = ix2 e (0 : Fin 1) := by
      intro c
      funext b; refine Fin.ext ?_
      match b with
      | ⟨0, _⟩ => rfl
      | ⟨1, _⟩ =>
        have hc : c.val = 0 := by have := c.isLt; simpa using this
        show c.val = 0
        exact hc
    rw [hsi]
    simp
  have key : ∀ e : Fin E,
      ScatterDims.resultIdx? (s := ⟨1, ![N]⟩) (si := ⟨2, ![E, 1]⟩) (u := ⟨1, ![E]⟩) ⟨[], [0], [0], 1, wf⟩ (ix1 e) idx = some (ix1 n)
        ↔ (idx (ix2 e (0 : Fin 1))).toInt = (n.val : ℤ) := by
    intro e
    rw [resultIdx?_eq_some_iff]
    constructor
    · intro h
      have := h 0
      rw [hsw] at this
      exact this
    · intro h a
      rw [hsw, h]
      obtain rfl : a = 0 := Subsingleton.elim _ _
      rfl
  unfold Ideal.hostScatterAdd
  congr 1
  rw [Finset.sum_filter, Finset.sum_filter, ← Equiv.sum_comp (idxEquiv1 (n := E)).symm]
  refine Finset.sum_congr rfl (fun e _ => ?_)
  exact if_congr (key e) rfl rfl

/-- A segment sum of rows at row `n`, column `k`. -/
theorem scatterAdd_rows {N K E w : ℕ} (d : ScatterDims ⟨2, ![N, K]⟩ ⟨2, ![E, 1]⟩ ⟨2, ![E, K]⟩)
    (huw : d.updateWindowDims = [1]) (hiw : d.insertedWindowDims = [0]) (hsd : d.scatterDimsToOperandDims = [0])
    (hiv : d.indexVectorDim = 1)
    (x : (⟨2, ![N, K]⟩ : Shape).Idx → EReal) (idx : IVec ⟨2, ![E, 1]⟩ w) (upd : (⟨2, ![E, K]⟩ : Shape).Idx → EReal)
    (n : Fin N) (k : Fin K) :
    Ideal.hostScatterAdd d x idx upd (ix2 n k)
      = x (ix2 n k) + ∑ e ∈ Finset.univ.filter (fun e : Fin E => (idx (ix2 e (0 : Fin 1))).toInt = (n.val : ℤ)), upd (ix2 e k) := by
  obtain ⟨uw, iw, sd, iv, wf⟩ := d
  simp only at huw hiw hsd hiv
  subst huw hiw hsd hiv
  -- axis 0 (inserted, start-indexed): the start is the signed word, the window coordinate is 0
  have hsw0 : ∀ (e : Fin E) (k' : Fin K),
      ScatterDims.start (s := ⟨2, ![N, K]⟩) (si := ⟨2, ![E, 1]⟩) (u := ⟨2, ![E, K]⟩) ⟨[1], [0], [0], 1, wf⟩ (ix2 e k') idx 0
        + (ScatterDims.window (s := ⟨2, ![N, K]⟩) (si := ⟨2, ![E, 1]⟩) (u := ⟨2, ![E, K]⟩) ⟨[1], [0], [0], 1, wf⟩ (ix2 e k') 0 : ℤ)
        = (idx (ix2 e (0 : Fin 1))).toInt := by
    intro e k'
    unfold ScatterDims.start ScatterDims.window
    rw [dif_pos (List.mem_singleton.mpr rfl), dif_neg (by simp [Shape.kept])]
    have hsi : ∀ (c : Fin ([0] : List (Fin 2)).length),
        ScatterDims.siIdx (s := ⟨2, ![N, K]⟩) (si := ⟨2, ![E, 1]⟩) (u := ⟨2, ![E, K]⟩) ⟨[1], [0], [0], 1, wf⟩ (ix2 e k') c
          = ix2 e (0 : Fin 1) := by
      intro c
      funext b; refine Fin.ext ?_
      match b with
      | ⟨0, _⟩ => rfl
      | ⟨1, _⟩ =>
        have hc : c.val = 0 := by have := c.isLt; simpa using this
        show c.val = 0
        exact hc
    rw [hsi]
    simp
  -- axis 1 (the window axis, not start-indexed): the start is 0, the window coordinate is the column
  have hsw1 : ∀ (e : Fin E) (k' : Fin K),
      ScatterDims.start (s := ⟨2, ![N, K]⟩) (si := ⟨2, ![E, 1]⟩) (u := ⟨2, ![E, K]⟩) ⟨[1], [0], [0], 1, wf⟩ (ix2 e k') idx 1
        + (ScatterDims.window (s := ⟨2, ![N, K]⟩) (si := ⟨2, ![E, 1]⟩) (u := ⟨2, ![E, K]⟩) ⟨[1], [0], [0], 1, wf⟩ (ix2 e k') 1 : ℤ)
        = (k'.val : ℤ) := by
    intro e k'
    unfold ScatterDims.start ScatterDims.window
    rw [dif_neg (by simp), dif_pos (by simp [Shape.kept])]
    rw [Int.zero_add]
    rfl
  have key : ∀ (e : Fin E) (k' : Fin K),
      ScatterDims.resultIdx? (s := ⟨2, ![N, K]⟩) (si := ⟨2, ![E, 1]⟩) (u := ⟨2, ![E, K]⟩) ⟨[1], [0], [0], 1, wf⟩ (ix2 e k') idx
          = some (ix2 n k)
        ↔ ((idx (ix2 e (0 : Fin 1))).toInt = (n.val : ℤ) ∧ k' = k) := by
    intro e k'
    rw [resultIdx?_eq_some_iff]
    constructor
    · intro h
      have h0 := h 0
      have h1 := h 1
      rw [hsw0] at h0
      rw [hsw1] at h1
      refine ⟨h0, Fin.ext ?_⟩
      have h1' : (k'.val : ℤ) = (k.val : ℤ) := h1
      exact_mod_cast h1'
    · rintro ⟨h0, rfl⟩ a
      match a with
      | ⟨0, _⟩ => exact (hsw0 e k').trans h0
      | ⟨1, _⟩ => exact hsw1 e k'
  unfold Ideal.hostScatterAdd
  congr 1
  rw [Finset.sum_filter, Finset.sum_filter, sum_idx2]
  refine Finset.sum_congr rfl (fun e _ => ?_)
  rw [Finset.sum_congr rfl (fun k' _ => if_congr (key e k') rfl rfl)]
  by_cases ht : (idx (ix2 e (0 : Fin 1))).toInt = (n.val : ℤ)
  · simp only [ht, true_and, if_true]
    rw [Finset.sum_ite_eq' Finset.univ k (fun k' => upd (ix2 e k'))]
    simp
  · simp only [ht, false_and, if_false]
    exact Finset.sum_const_zero

/-- A gather of scalars at position `e` (the library's take, over `ix1` / `ix2`). -/
theorem gather_vec {α : Type} {N E w : ℕ} (d : GatherDims ⟨1, ![N]⟩ ⟨2, ![E, 1]⟩ ⟨1, ![E]⟩)
    (hcoll : d.collapsedSliceDims = [0]) (hob : d.operandBatchingDims = []) (hsim : d.startIndexMap = [0])
    (hivd : d.indexVectorDim = 1)
    (x : (⟨1, ![N]⟩ : Shape).Idx → α) (idx : IVec ⟨2, ![E, 1]⟩ w) (e : Fin E) (hN : 0 < N) :
    Host.gather d x idx (ix1 e) = x (ix1 ⟨min (idx (ix2 e (0 : Fin 1))).toInt.toNat (N - 1), by omega⟩) := by
  have h1 : ∀ {n : ℕ} (p : Fin n), Shape.Idx.ofFin p = ix1 p := fun p => by
    funext a; match a with | ⟨0, _⟩ => rfl
  have h2 : StableHlo.Predicate.ixP e = ix2 e (0 : Fin 1) := by
    funext a; match a with | ⟨0, _⟩ => rfl | ⟨1, _⟩ => rfl
  have key := StableHlo.Predicate.gather_take d hcoll hob hsim hivd x idx e hN
  simp only [h1, h2] at key
  exact key

/-- A gather of rows at position `e`, column `k`. -/
theorem gather_rows {α : Type} {N K E w : ℕ} (d : GatherDims ⟨2, ![N, K]⟩ ⟨2, ![E, 1]⟩ ⟨2, ![E, K]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, K])
    (x : (⟨2, ![N, K]⟩ : Shape).Idx → α) (idx : IVec ⟨2, ![E, 1]⟩ w) (e : Fin E) (k : Fin K) (hN : 0 < N) :
    Host.gather d x idx (ix2 e k) = x (ix2 ⟨min (idx (ix2 e (0 : Fin 1))).toInt.toNat (N - 1), by omega⟩ k) := by
  obtain ⟨od, cd, ob, sb, sm, iv, ss, wf⟩ := d
  simp only at hoff hcoll hob hsb hsim hivd hss
  subst hoff hcoll hob hsb hsim hivd hss
  unfold Host.gather
  congr 1
  funext a
  apply Fin.ext
  match a with
  | ⟨0, _⟩ =>
    -- axis 0: collapsed and start-indexed; the clamped signed word, no batching or offset coordinate
    show GatherDims.start _ (ix2 e k) idx 0 + GatherDims.batchCoord _ (ix2 e k) 0 + GatherDims.offCoord _ (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ (c : Fin ([0] : List (Fin 2)).length),
        GatherDims.siIdx (s := ⟨2, ![N, K]⟩) (si := ⟨2, ![E, 1]⟩) (t := ⟨2, ![E, K]⟩)
          ⟨[1], [0], [], [], [0], 1, ![1, K], wf⟩ (ix2 e k) c = ix2 e (0 : Fin 1) := by
      intro c
      funext b; refine Fin.ext ?_
      match b with
      | ⟨0, _⟩ => rfl
      | ⟨1, _⟩ =>
        have hc : c.val = 0 := by have := c.isLt; simpa using this
        show c.val = 0
        exact hc
    rw [hsi]
    rfl
  | ⟨1, _⟩ =>
    -- axis 1: not start-indexed, the one offset axis; the column itself
    show GatherDims.start _ (ix2 e k) idx 1 + GatherDims.batchCoord _ (ix2 e k) 1 + GatherDims.offCoord _ (ix2 e k) 1 = _
    rw [GatherDims.batchCoord_eq_zero _ _ _ List.not_mem_nil]
    unfold GatherDims.start
    rw [dif_neg (by simp)]
    unfold GatherDims.offCoord
    rw [dif_pos ((GatherDims.mem_sKept _ _).mpr ⟨by simp, by simp⟩)]
    simp only [Nat.zero_add, Nat.add_zero]
    rfl

end Cert.GcnLib

end
-- ==== Proof.KArr.lean ====
/-
  Arrays at their literal types.  A buffer's contents are a function on the buffer's index set whose element type
  is computed from the buffer's type; naming the contents through these two identities fixes the element type
  (an extended real, a 32-bit word) so that arithmetic on the entries elaborates.
-/
import Idealize.ShloMosaic.PureOps.Ideal

noncomputable section

namespace Cert.Gcn

open Idealize.ShloMosaic

/-- A float array at shape `S`, as a function into the extended reals. -/
abbrev fA (S : Shape) (x : S.Idx → EReal) : S.Idx → EReal := x

/-- A word array at shape `S`. -/
abbrev iA (S : Shape) (x : S.Idx → BitVec 32) : S.Idx → BitVec 32 := x

end Cert.Gcn

end
-- ==== Proof.KRegion0.lean ====
/-
  The first graph-convolution kernel, read at an element.  The launch tiles the 100000 rows in 20 blocks of
  5000; row `n` of the output depends on row `n` of the scaled features, of their aggregate and of `dinv`, on
  the whole weight matrix and on the bias row:
  `max (Σ_f (dinv n · (agg n f + feat n f)) · W f k + b k, 0)`.
-/
import proofs.«418273_j51264729645494_2_alg».proof.Proof.PKernelIdealFrame
import proofs.«418273_j51264729645494_2_alg».proof.Proof.Spec
import proofs.«418273_j51264729645494_2_alg».proof.Proof.KArr

import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.GcnK

open Cert.KernelIdeal Cert.KernelIdeal.Gen Cert.KernelIdeal.GenP Cert.Gcn
open Idealize.ShloMosaic Idealize.ShloMosaic.TcCoe Idealize.SL.Sem Idealize.ShloMosaic.ValueIdx

/-! ## The body's stored value at an entry of its block -/

/-- The column of inverse root degrees spread along the five features, read at an entry: the column's entry of that row. -/
private theorem colSpread (v : Vec Ideal S5000x1 .f32) (r : Fin 5000) (f : Fin 5) :
    broadcastTo S5000x5 v broadcasts_S5000x1_S5000x5 (ix2 r f) = v (ix2 r (0 : Fin 1)) := by
  refine broadcastTo_apply v broadcasts_S5000x1_S5000x5 (ix2 r f) (ix2 r (0 : Fin 1)) fun a => ?_
  match a with
  | ⟨0, _⟩ => rfl
  | ⟨1, _⟩ => rfl

/-- The left factor of the product at output entry `i` and contraction index `q`: its row is `i`'s row, -/
private theorem lhs_0 (i : S5000x64.Idx) (q : dot_S5000x5_S5x64_S5000x64_1_0_0_1_n_n.contr.Idx) :
    (dot_S5000x5_S5x64_S5000x64_1_0_0_1_n_n.lhsIdx i q 0).val = (i 0).val := by
  unfold DotDims.lhsIdx
  rw [dif_neg (show ¬(0 : Fin S5000x5.rank) ∈ dot_S5000x5_S5x64_S5000x64_1_0_0_1_n_n.lhsBatch by decide), dif_pos (show (0 : Fin S5000x5.rank) ∈ dot_S5000x5_S5x64_S5000x64_1_0_0_1_n_n.lhsNonContracting by decide)]
  rfl
/-- its column the contraction index; -/
private theorem lhs_1 (i : S5000x64.Idx) (q : dot_S5000x5_S5x64_S5000x64_1_0_0_1_n_n.contr.Idx) :
    (dot_S5000x5_S5x64_S5000x64_1_0_0_1_n_n.lhsIdx i q 1).val = (q ⟨0, by decide⟩).val :=
  dot_S5000x5_S5x64_S5000x64_1_0_0_1_n_n.lhsIdx_val_of_single rfl i q
/-- the right factor's row is the contraction index, -/
private theorem rhs_0 (i : S5000x64.Idx) (q : dot_S5000x5_S5x64_S5000x64_1_0_0_1_n_n.contr.Idx) :
    (dot_S5000x5_S5x64_S5000x64_1_0_0_1_n_n.rhsIdx i q 0).val = (q ⟨0, by decide⟩).val :=
  dot_S5000x5_S5x64_S5000x64_1_0_0_1_n_n.rhsIdx_val_of_single rfl i q
/-- its column `i`'s column. -/
private theorem rhs_1 (i : S5000x64.Idx) (q : dot_S5000x5_S5x64_S5000x64_1_0_0_1_n_n.contr.Idx) :
    (dot_S5000x5_S5x64_S5000x64_1_0_0_1_n_n.rhsIdx i q 1).val = (i 1).val := by
  unfold DotDims.rhsIdx
  rw [dif_neg (show ¬(1 : Fin S5x64.rank) ∈ dot_S5000x5_S5x64_S5000x64_1_0_0_1_n_n.rhsBatch by decide), dif_pos (show (1 : Fin S5x64.rank) ∈ dot_S5000x5_S5x64_S5000x64_1_0_0_1_n_n.rhsNonContracting by decide)]
  rfl

/-- A block of rows times the weight matrix, accumulated from zero, at an entry: the sum over the five features. -/
private theorem rowsTimesW (l : FVec Ideal S5000x5 .bf16) (w : FVec Ideal S5x64 .bf16) (r : Fin 5000) (k : Fin 64) :
    matmul dot_S5000x5_S5x64_S5000x64_1_0_0_1_n_n none l w (constant (F := Ideal) S5000x64 .f32 0x00000000#32) (ix2 r k)
      = ∑ f : Fin 5, l (ix2 r f) * w (ix2 f k) := by
  simp only [matmul]
  rw [Ideal.matmul_constant_zero_apply, ← Equiv.sum_comp (ValueIdx.contrEquiv1 dot_S5000x5_S5x64_S5000x64_1_0_0_1_n_n 5 rfl rfl).symm]
  refine Finset.sum_congr rfl fun f _ => ?_
  have hk := ValueIdx.contrEquiv1_symm_val dot_S5000x5_S5x64_S5000x64_1_0_0_1_n_n 5 rfl rfl f
  have el : dot_S5000x5_S5x64_S5000x64_1_0_0_1_n_n.lhsIdx (ix2 r k) ((ValueIdx.contrEquiv1 dot_S5000x5_S5x64_S5000x64_1_0_0_1_n_n 5 rfl rfl).symm f) = ix2 r f := funext fun a => Fin.ext (by
    match a with
    | ⟨0, _⟩ => exact lhs_0 _ _
    | ⟨1, _⟩ => exact (lhs_1 _ _).trans hk)
  have er : dot_S5000x5_S5x64_S5000x64_1_0_0_1_n_n.rhsIdx (ix2 r k) ((ValueIdx.contrEquiv1 dot_S5000x5_S5x64_S5000x64_1_0_0_1_n_n 5 rfl rfl).symm f) = ix2 f k := funext fun a => Fin.ext (by
    match a with
    | ⟨0, _⟩ => exact (rhs_0 _ _).trans hk
    | ⟨1, _⟩ => exact rhs_1 _ _)
  rw [el, er]

/-- The value the body stores at row `r`, column `k` of its block, from the five blocks it loads: the aggregate and the
    feature rows are added, scaled by the row's inverse root degree, multiplied into the weights from a zero accumulator
    (the change of float format on the way in is the identity on extended reals), the bias row is added and the result
    is cut off below at zero. -/
private theorem layer_entry (x0 x1 : Vec Ideal S5000x5 .f32) (x2 : Vec Ideal S5000x1 .f32) (x3 : Vec Ideal S5x64 .f32) (x4 : Vec Ideal S1x64 .f32)
    (r : Fin 5000) (k : Fin 64) :
    (k0_pay1 (F := Ideal) x0 x1 x2 x3 x4) (ix2 r k)
      = max ((0 + ∑ f : Fin 5, (x2 (ix2 r (0 : Fin 1)) * (x1 (ix2 r f) + x0 (ix2 r f))) * x3 (ix2 f k)) + x4 (ix2 (0 : Fin 1) k)) 0 := by
  unfold k0_pay1
  rw [shapeCast_self, shapeCast_self, shapeCast_self, shapeCast_self]
  show max (matmul dot_S5000x5_S5x64_S5000x64_1_0_0_1_n_n none
          (truncf FTy.bf16 (mulf (broadcastTo S5000x5 x2 broadcasts_S5000x1_S5000x5) (addf x1 x0)) bitsLt_bf16_f32)
          (truncf FTy.bf16 x3 bitsLt_bf16_f32) (constant (F := Ideal) S5000x64 FTy.f32 0x00000000#32) (ix2 r k)
        + broadcastTo S5000x64 x4 broadcasts_S1x64_S5000x64 (ix2 r k)) (Ideal.ofBits .f32 0x00000000#32) = _
  rw [rowsTimesW, broadcastTo_1b_ab_apply, Ideal.ofBits_zero_f32, zero_add]
  refine congrArg (fun s => max (s + x4 (ix2 (0 : Fin 1) k)) 0) (Finset.sum_congr rfl fun f _ => ?_)
  show broadcastTo S5000x5 x2 broadcasts_S5000x1_S5000x5 (ix2 r f) * (x1 (ix2 r f) + x0 (ix2 r f)) * x3 (ix2 f k) = _
  rw [colSpread]

/-! ## From the blocks to the array -/

section Region
variable (V : (c : Dev nD) → (b : Ref sig .tc) → Buf (Elt Ideal) ((c : Thread nD τ).loc b))

private theorem zeroOff : (![0, 0] : Fin 2 → Nat) = fun _ => 0 := funext fun a => by
  match a with
  | ⟨0, _⟩ => rfl
  | ⟨1, _⟩ => rfl

/-- The layer as one function of the whole arrays, entry by entry: entry `(n, k)` reads row `n` of the features, of their
    aggregate and of the inverse root degrees, column `k` of the weights and of the bias row. -/
private abbrev layerArr (a0 a1 : S100000x5.Idx → EReal) (a2 : S100000x1.Idx → EReal) (a3 : S5x64.Idx → EReal) (a4 : S1x64.Idx → EReal) :
    S100000x64.Idx → EReal := fun i =>
  max ((0 + ∑ f : Fin 5, (a2 (ix2 (i 0 : Fin 100000) (0 : Fin 1)) * (a1 (ix2 (i 0 : Fin 100000) f) + a0 (ix2 (i 0 : Fin 100000) f)))
      * a3 (ix2 f (i 1 : Fin 64))) + a4 (ix2 (0 : Fin 1) (i 1 : Fin 64))) 0

/-- Where each block sits at point `t` of the twenty: the three row-blocked inputs move with the output, block `t`; the
    weights and the bias row are whole at every point. -/
private theorem blockAt : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `r` of the feature block at point `t` is row `5000 t + r` of the feature array. -/
private theorem featBlock (c : Dev nD) (t : Fin cfg0.N) (r : Fin 5000) (f : Fin 5) (n : Fin 100000) (hn : n.val = t.val * 5000 + r.val) :
    (iblk0 V c 0 t : Vec Ideal S5000x5 .f32) (ix2 r f) = fA S100000x5 (V c main_v13) (ix2 n f) := by
  obtain ⟨e0, e1, -⟩ := blockAt t
  unfold iblk0
  rw [View.read_apply]
  show V c main_v13 _ = V c main_v13 _
  refine congrArg (V c main_v13) (funext fun a => Fin.ext ?_)
  match a with
  | ⟨0, _⟩ => show win0_0.index t (0 : Fin 2) * 5000 + 1 * r.val = n.val; omega
  | ⟨1, _⟩ => show win0_0.index t (1 : Fin 2) * 5 + 1 * f.val = f.val; omega

/-- Row `r` of the aggregate block at point `t` is row `5000 t + r` of the aggregate array. -/
private theorem aggBlock (c : Dev nD) (t : Fin cfg0.N) (r : Fin 5000) (f : Fin 5) (n : Fin 100000) (hn : n.val = t.val * 5000 + r.val) :
    (iblk0 V c 1 t : Vec Ideal S5000x5 .f32) (ix2 r f) = fA S100000x5 (V c main_v23) (ix2 n f) := by
  obtain ⟨-, -, e0, e1, -⟩ := blockAt t
  unfold iblk0
  rw [View.read_apply]
  show V c main_v23 _ = V c main_v23 _
  refine congrArg (V c main_v23) (funext fun a => Fin.ext ?_)
  match a with
  | ⟨0, _⟩ => show win0_1.index t (0 : Fin 2) * 5000 + 1 * r.val = n.val; omega
  | ⟨1, _⟩ => show win0_1.index t (1 : Fin 2) * 5 + 1 * f.val = f.val; omega

/-- Row `r` of the block of inverse root degrees at point `t` is row `5000 t + r` of their column. -/
private theorem dinvBlock (c : Dev nD) (t : Fin cfg0.N) (r : Fin 5000) (z : Fin 1) (n : Fin 100000) (hn : n.val = t.val * 5000 + r.val) :
    (iblk0 V c 2 t : Vec Ideal S5000x1 .f32) (ix2 r z) = fA S100000x1 (V c main_v11) (ix2 n z) := by
  obtain ⟨-, -, -, -, e0, e1, -⟩ := blockAt t
  unfold iblk0
  rw [View.read_apply]
  show V c main_v11 _ = V c main_v11 _
  refine congrArg (V c main_v11) (funext fun a => Fin.ext ?_)
  match a with
  | ⟨0, _⟩ => show win0_2.index t (0 : Fin 2) * 5000 + 1 * r.val = n.val; omega
  | ⟨1, _⟩ => show win0_2.index t (1 : Fin 2) * 1 + 1 * z.val = z.val; omega

/-- Every point has the whole weight matrix for its block. -/
private theorem weightBlock (c : Dev nD) (t : Fin cfg0.N) (f : Fin 5) (k : Fin 64) :
    (iblk0 V c 3 t : Vec Ideal S5x64 .f32) (ix2 f k) = fA S5x64 (V c main_arg3) (ix2 f k) := by
  obtain ⟨-, -, -, -, -, -, e0, e1, -⟩ := blockAt t
  unfold iblk0
  rw [View.read_apply]
  show V c main_arg3 _ = V c main_arg3 _
  refine congrArg (V c main_arg3) (funext fun a => Fin.ext ?_)
  match a with
  | ⟨0, _⟩ => show win0_3.index t (0 : Fin 2) * 5 + 1 * f.val = f.val; omega
  | ⟨1, _⟩ => show win0_3.index t (1 : Fin 2) * 64 + 1 * k.val = k.val; omega

/-- Every point has the whole bias row for its block. -/
private theorem biasBlock (c : Dev nD) (t : Fin cfg0.N) (z : Fin 1) (k : Fin 64) :
    (iblk0 V c 4 t : Vec Ideal S1x64 .f32) (ix2 z k) = fA S1x64 (V c main_v24) (ix2 z k) := by
  obtain ⟨-, -, -, -, -, -, -, -, e0, e1, -⟩ := blockAt t
  unfold iblk0
  rw [View.read_apply]
  show V c main_v24 _ = V c main_v24 _
  refine congrArg (V c main_v24) (funext fun a => Fin.ext ?_)
  match a with
  | ⟨0, _⟩ => show win0_4.index t (0 : Fin 2) * 1 + 1 * z.val = z.val; omega
  | ⟨1, _⟩ => show win0_4.index t (1 : Fin 2) * 64 + 1 * k.val = k.val; omega

/-- Entry `(r, k)` of the output block at point `t` is entry `(5000 t + r, k)` of the output array. -/
private theorem outBlock (t : Fin cfg0.N) (r : Fin 5000) (k : Fin 64) (n : Fin 100000) (hn : n.val = t.val * 5000 + r.val) :
    ((cfg0.win 5).blk t).view.emb (ix2 r k) = (ix2 n k : S100000x64.Idx) := by
  obtain ⟨-, -, -, -, -, -, -, -, -, -, e0, e1⟩ := blockAt t
  refine funext fun a => Fin.ext ?_
  match a with
  | ⟨0, _⟩ => show win0_5.index t (0 : Fin 2) * 5000 + 1 * r.val = n.val; omega
  | ⟨1, _⟩ => show win0_5.index t (1 : Fin 2) * 64 + 1 * k.val = k.val; omega

/-- What point `t` writes back is block `t` of the layer of the arrays the region is entered with. -/
private theorem flushed_layer (c : Dev nD) (t : Fin cfg0.N) :
    (dat0 V c).flushed 5 t = ((cfg0.win 5).blk t).view.read (Elt Ideal)
      (layerArr (fA S100000x5 (V c main_v13)) (fA S100000x5 (V c main_v23)) (fA S100000x1 (V c main_v11)) (fA S5x64 (V c main_arg3)) (fA S1x64 (V c main_v24))) := by
  show (cfg0.win 5).cut (grid0.coords t) ((dat0 V c).after 5 t) = _
  rw [after0_5]
  unfold out0_5
  rw [View.canon_unit_zero zeroOff]
  simp only [View.ld_unit_zero (S := S5000x5) zeroOff, View.ld_unit_zero (S := S5000x1) zeroOff, View.ld_unit_zero (S := S5x64) zeroOff, View.ld_unit_zero (S := S1x64) zeroOff]
  refine funext fun (j : S5000x64.Idx) => ?_
  obtain ⟨r, k, rfl⟩ : ∃ (r : Fin 5000) (k : Fin 64), j = ix2 r k := ⟨j 0, j 1, eq_ix2 j⟩
  have hN : cfg0.N = 20 := N_0
  have ht : t.val < 20 := hN ▸ t.isLt
  obtain ⟨n, hn⟩ : ∃ n : Fin 100000, n.val = t.val * 5000 + r.val := ⟨⟨t.val * 5000 + r.val, by have := r.isLt; omega⟩, rfl⟩
  show k0_pay1 (F := Ideal) (iblk0 V c 0 t) (iblk0 V c 1 t) (iblk0 V c 2 t) (iblk0 V c 3 t) (iblk0 V c 4 t) (ix2 r k)
    = layerArr (fA S100000x5 (V c main_v13)) (fA S100000x5 (V c main_v23)) (fA S100000x1 (V c main_v11)) (fA S5x64 (V c main_arg3)) (fA S1x64 (V c main_v24))
        (((cfg0.win 5).blk t).view.emb (ix2 r k))
  rw [outBlock t r k n hn]
  refine (layer_entry (iblk0 V c 0 t) (iblk0 V c 1 t) (iblk0 V c 2 t) (iblk0 V c 3 t) (iblk0 V c 4 t) r k).trans ?_
  simp only [fun f => featBlock V c t r f n hn, fun f => aggBlock V c t r f n hn, dinvBlock V c t r (0 : Fin 1) n hn,
    weightBlock V c t, biasBlock V c t]

/-- An entry of the output array is in point `t`'s block exactly when each coordinate is in the block's range. -/
private theorem mem_outBlock (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v25).slice (win0_5.rect t)).set ↔ _
  rw [View.set_slice_whole, Rect.mem_set_unit]
  exact Iff.rfl

/-- The twenty blocks of 5000 rows fill the output array (row `n` is in block `n / 5000`), so it ends holding the layer
    of the arrays the region is entered with. -/
private theorem layer_array (c : Dev nD) :
    (dat0 V c).arrAt 5 cfg0.N
      = layerArr (fA S100000x5 (V c main_v13)) (fA S100000x5 (V c main_v23)) (fA S100000x1 (V c main_v11)) (fA S5x64 (V c main_arg3)) (fA S1x64 (V c main_v24)) :=
  (dat0 V c).arrAt_eq_of_cover 5 _ (fun t _ => flushed_layer V c t) fun i => by
    have hN : cfg0.N = 20 := N_0
    have hi0 : (i 0).val < 100000 := (i 0).isLt
    have hi1 : (i 1).val < 64 := (i 1).isLt
    refine ⟨⟨(i 0).val / 5000, by rw [hN]; omega⟩, flush0_5 _, ?_⟩
    rw [mem_outBlock]
    obtain ⟨-, -, -, -, -, -, -, -, -, -, e0, e1⟩ := blockAt ⟨(i 0).val / 5000, by rw [hN]; omega⟩
    intro a
    match a with
    | ⟨0, _⟩ =>
      show win0_5.index ⟨(i 0).val / 5000, _⟩ (0 : Fin 2) * 5000 ≤ (i 0).val ∧ (i 0).val < win0_5.index ⟨(i 0).val / 5000, _⟩ (0 : Fin 2) * 5000 + 5000
      rw [e0]; show (i 0).val / 5000 * 5000 ≤ (i 0).val ∧ (i 0).val < (i 0).val / 5000 * 5000 + 5000; omega
    | ⟨1, _⟩ =>
      show win0_5.index ⟨(i 0).val / 5000, _⟩ (1 : Fin 2) * 64 ≤ (i 1).val ∧ (i 1).val < win0_5.index ⟨(i 0).val / 5000, _⟩ (1 : Fin 2) * 64 + 64
      rw [e1]; omega

end Region

/-! ## The region's output at an entry -/

variable (m : (ℓ : Loc nD τ sig) → Buf (Elt Ideal) ℓ) (ρ : Dev nD → PrngReg) (c : Dev nD)

/-- Row `n`, column `k` of the first layer's output, from the contents the region is entered with. -/
theorem h1_region (n : Fin 100000) (k : Fin 64) :
    fA S100000x64 (W2 m ρ c (Proc.devRef .tc main_v25)) (ix2 n k)
      = max ((0 + ∑ f : Fin 5,
          (fA S100000x1 (W1 m ρ c (Proc.devRef .tc main_v11)) (ix2 n (0 : Fin 1))
            * (fA S100000x5 (W1 m ρ c (Proc.devRef .tc main_v23)) (ix2 n f) + fA S100000x5 (W1 m ρ c (Proc.devRef .tc main_v13)) (ix2 n f)))
          * fA S5x64 (W1 m ρ c (Proc.devRef .tc main_arg3)) (ix2 f k))
        + fA S1x64 (W1 m ρ c (Proc.devRef .tc main_v24)) (ix2 (0 : Fin 1) k)) 0 := by
  have h : W2 m ρ c (Proc.devRef .tc main_v25) = (dat0 (V1 m ρ) c).arrAt 5 cfg0.N := W2_arr m ρ c 5
  rw [h, layer_array (V1 m ρ) c]

end Cert.GcnK

end
-- ==== Proof.KRegion1.lean ====
/-
  The second graph-convolution kernel, read at an element: the same body as the first at feature width 64.
  Row `n` of the output is `max (Σ_f (dinv n · (agg n f + feat n f)) · W f k + b k, 0)` of row `n` of its inputs.
-/
import proofs.«418273_j51264729645494_2_alg».proof.Proof.PKernelIdealFrame
import proofs.«418273_j51264729645494_2_alg».proof.Proof.Spec
import proofs.«418273_j51264729645494_2_alg».proof.Proof.KArr

import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.GcnK

open Cert.KernelIdeal Cert.KernelIdeal.Gen Cert.KernelIdeal.GenP Cert.Gcn
open Idealize.ShloMosaic Idealize.ShloMosaic.TcCoe Idealize.SL.Sem Idealize.ShloMosaic.ValueIdx

/-! ## The body's stored value at an entry of its block -/

/-- The column of inverse root degrees spread along the sixty-four features, read at an entry: the column's entry of that row. -/
private theorem colSpread (v : Vec Ideal S5000x1 .f32) (r : Fin 5000) (f : Fin 64) :
    broadcastTo S5000x64 v broadcasts_S5000x1_S5000x64 (ix2 r f) = v (ix2 r (0 : Fin 1)) := by
  refine broadcastTo_apply v broadcasts_S5000x1_S5000x64 (ix2 r f) (ix2 r (0 : Fin 1)) fun a => ?_
  match a with
  | ⟨0, _⟩ => rfl
  | ⟨1, _⟩ => rfl

/-- The left factor of the product at output entry `i` and contraction index `q`: its row is `i`'s row, -/
private theorem lhs_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- its column the contraction index; -/
private theorem lhs_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- the right factor's row is the contraction index, -/
private theorem rhs_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- its column `i`'s column. -/
private theorem rhs_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A block of rows times the weight matrix, accumulated from zero, at an entry: the sum over the sixty-four features. -/
private theorem rowsTimesW (l : FVec Ideal S5000x64 .bf16) (w : FVec Ideal S64x64 .bf16) (r : Fin 5000) (k : Fin 64) :
    matmul dot_S5000x64_S64x64_S5000x64_1_0_0_1_n_n none l w (constant (F := Ideal) S5000x64 .f32 0x00000000#32) (ix2 r k)
      = ∑ f : Fin 64, l (ix2 r f) * w (ix2 f k) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun f _ => ?_
  have hk := ValueIdx.contrEquiv1_symm_val dot_S5000x64_S64x64_S5000x64_1_0_0_1_n_n 64 rfl rfl f
  have el : dot_S5000x64_S64x64_S5000x64_1_0_0_1_n_n.lhsIdx (ix2 r k) ((ValueIdx.contrEquiv1 dot_S5000x64_S64x64_S5000x64_1_0_0_1_n_n 64 rfl rfl).symm f) = ix2 r f := funext fun a => Fin.ext (by
    match a with
    | ⟨0, _⟩ => exact lhs_0 _ _
    | ⟨1, _⟩ => exact (lhs_1 _ _).trans hk)
  have er : dot_S5000x64_S64x64_S5000x64_1_0_0_1_n_n.rhsIdx (ix2 r k) ((ValueIdx.contrEquiv1 dot_S5000x64_S64x64_S5000x64_1_0_0_1_n_n 64 rfl rfl).symm f) = ix2 f k := funext fun a => Fin.ext (by
    match a with
    | ⟨0, _⟩ => exact (rhs_0 _ _).trans hk
    | ⟨1, _⟩ => exact rhs_1 _ _)
  rw [el, er]

/-- The value the body stores at row `r`, column `k` of its block, from the five blocks it loads: the aggregate and the
    feature rows are added, scaled by the row's inverse root degree, multiplied into the weights from a zero accumulator
    (the change of float format on the way in is the identity on extended reals), the bias row is added and the result
    is cut off below at zero. -/
private theorem layer_entry (x0 x1 : Vec Ideal S5000x64 .f32) (x2 : Vec Ideal S5000x1 .f32) (x3 : Vec Ideal S64x64 .f32) (x4 : Vec Ideal S1x64 .f32)
    (r : Fin 5000) (k : Fin 64) :
    (k1_pay1 (F := Ideal) x0 x1 x2 x3 x4) (ix2 r k)
      = max ((0 + ∑ f : Fin 64, (x2 (ix2 r (0 : Fin 1)) * (x1 (ix2 r f) + x0 (ix2 r f))) * x3 (ix2 f k)) + x4 (ix2 (0 : Fin 1) k)) 0 := by
  unfold k1_pay1
  rw [shapeCast_self, shapeCast_self, shapeCast_self, shapeCast_self]
  show max (matmul dot_S5000x64_S64x64_S5000x64_1_0_0_1_n_n none
          (truncf FTy.bf16 (mulf (broadcastTo S5000x64 x2 broadcasts_S5000x1_S5000x64) (addf x1 x0)) bitsLt_bf16_f32)
          (truncf FTy.bf16 x3 bitsLt_bf16_f32) (constant (F := Ideal) S5000x64 FTy.f32 0x00000000#32) (ix2 r k)
        + broadcastTo S5000x64 x4 broadcasts_S1x64_S5000x64 (ix2 r k)) (Ideal.ofBits .f32 0x00000000#32) = _
  rw [rowsTimesW, broadcastTo_1b_ab_apply, Ideal.ofBits_zero_f32, zero_add]
  refine congrArg (fun s => max (s + x4 (ix2 (0 : Fin 1) k)) 0) (Finset.sum_congr rfl fun f _ => ?_)
  show broadcastTo S5000x64 x2 broadcasts_S5000x1_S5000x64 (ix2 r f) * (x1 (ix2 r f) + x0 (ix2 r f)) * x3 (ix2 f k) = _
  rw [colSpread]

/-! ## From the blocks to the array -/

section Region
variable (V : (c : Dev nD) → (b : Ref sig .tc) → Buf (Elt Ideal) ((c : Thread nD τ).loc b))

private theorem zeroOff : (![0, 0] : Fin 2 → Nat) = fun _ => 0 := funext fun a => by
  match a with
  | ⟨0, _⟩ => rfl
  | ⟨1, _⟩ => rfl

/-- The layer as one function of the whole arrays, entry by entry: entry `(n, k)` reads row `n` of the features, of their
    aggregate and of the inverse root degrees, column `k` of the weights and of the bias row. -/
private abbrev layerArr (a0 a1 : S100000x64.Idx → EReal) (a2 : S100000x1.Idx → EReal) (a3 : S64x64.Idx → EReal) (a4 : S1x64.Idx → EReal) :
    S100000x64.Idx → EReal := fun i =>
  max ((0 + ∑ f : Fin 64, (a2 (ix2 (i 0 : Fin 100000) (0 : Fin 1)) * (a1 (ix2 (i 0 : Fin 100000) f) + a0 (ix2 (i 0 : Fin 100000) f)))
      * a3 (ix2 f (i 1 : Fin 64))) + a4 (ix2 (0 : Fin 1) (i 1 : Fin 64))) 0

/-- Where each block sits at point `t` of the twenty: the three row-blocked inputs move with the output, block `t`; the
    weights and the bias row are whole at every point. -/
private theorem blockAt : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `r` of the feature block at point `t` is row `5000 t + r` of the feature array. -/
private theorem featBlock (c : Dev nD) (t : Fin cfg1.N) (r : Fin 5000) (f : Fin 64) (n : Fin 100000) (hn : n.val = t.val * 5000 + r.val) :
    (iblk1 V c 0 t : Vec Ideal S5000x64 .f32) (ix2 r f) = fA S100000x64 (V c main_v27) (ix2 n f) := by
  obtain ⟨e0, e1, -⟩ := blockAt t
  unfold iblk1
  rw [View.read_apply]
  show V c main_v27 _ = V c main_v27 _
  refine congrArg (V c main_v27) (funext fun a => Fin.ext ?_)
  match a with
  | ⟨0, _⟩ => show win1_0.index t (0 : Fin 2) * 5000 + 1 * r.val = n.val; omega
  | ⟨1, _⟩ => show win1_0.index t (1 : Fin 2) * 64 + 1 * f.val = f.val; omega

/-- Row `r` of the aggregate block at point `t` is row `5000 t + r` of the aggregate array. -/
private theorem aggBlock (c : Dev nD) (t : Fin cfg1.N) (r : Fin 5000) (f : Fin 64) (n : Fin 100000) (hn : n.val = t.val * 5000 + r.val) :
    (iblk1 V c 1 t : Vec Ideal S5000x64 .f32) (ix2 r f) = fA S100000x64 (V c main_v37) (ix2 n f) := by
  obtain ⟨-, -, e0, e1, -⟩ := blockAt t
  unfold iblk1
  rw [View.read_apply]
  show V c main_v37 _ = V c main_v37 _
  refine congrArg (V c main_v37) (funext fun a => Fin.ext ?_)
  match a with
  | ⟨0, _⟩ => show win1_1.index t (0 : Fin 2) * 5000 + 1 * r.val = n.val; omega
  | ⟨1, _⟩ => show win1_1.index t (1 : Fin 2) * 64 + 1 * f.val = f.val; omega

/-- Row `r` of the block of inverse root degrees at point `t` is row `5000 t + r` of their column. -/
private theorem dinvBlock (c : Dev nD) (t : Fin cfg1.N) (r : Fin 5000) (z : Fin 1) (n : Fin 100000) (hn : n.val = t.val * 5000 + r.val) :
    (iblk1 V c 2 t : Vec Ideal S5000x1 .f32) (ix2 r z) = fA S100000x1 (V c main_v11) (ix2 n z) := by
  obtain ⟨-, -, -, -, e0, e1, -⟩ := blockAt t
  unfold iblk1
  rw [View.read_apply]
  show V c main_v11 _ = V c main_v11 _
  refine congrArg (V c main_v11) (funext fun a => Fin.ext ?_)
  match a with
  | ⟨0, _⟩ => show win1_2.index t (0 : Fin 2) * 5000 + 1 * r.val = n.val; omega
  | ⟨1, _⟩ => show win1_2.index t (1 : Fin 2) * 1 + 1 * z.val = z.val; omega

/-- Every point has the whole weight matrix for its block. -/
private theorem weightBlock (c : Dev nD) (t : Fin cfg1.N) (f : Fin 64) (k : Fin 64) :
    (iblk1 V c 3 t : Vec Ideal S64x64 .f32) (ix2 f k) = fA S64x64 (V c main_arg5) (ix2 f k) := by
  obtain ⟨-, -, -, -, -, -, e0, e1, -⟩ := blockAt t
  unfold iblk1
  rw [View.read_apply]
  show V c main_arg5 _ = V c main_arg5 _
  refine congrArg (V c main_arg5) (funext fun a => Fin.ext ?_)
  match a with
  | ⟨0, _⟩ => show win1_3.index t (0 : Fin 2) * 64 + 1 * f.val = f.val; omega
  | ⟨1, _⟩ => show win1_3.index t (1 : Fin 2) * 64 + 1 * k.val = k.val; omega

/-- Every point has the whole bias row for its block. -/
private theorem biasBlock (c : Dev nD) (t : Fin cfg1.N) (z : Fin 1) (k : Fin 64) :
    (iblk1 V c 4 t : Vec Ideal S1x64 .f32) (ix2 z k) = fA S1x64 (V c main_v38) (ix2 z k) := by
  obtain ⟨-, -, -, -, -, -, -, -, e0, e1, -⟩ := blockAt t
  unfold iblk1
  rw [View.read_apply]
  show V c main_v38 _ = V c main_v38 _
  refine congrArg (V c main_v38) (funext fun a => Fin.ext ?_)
  match a with
  | ⟨0, _⟩ => show win1_4.index t (0 : Fin 2) * 1 + 1 * z.val = z.val; omega
  | ⟨1, _⟩ => show win1_4.index t (1 : Fin 2) * 64 + 1 * k.val = k.val; omega

/-- Entry `(r, k)` of the output block at point `t` is entry `(5000 t + r, k)` of the output array. -/
private theorem outBlock (t : Fin cfg1.N) (r : Fin 5000) (k : Fin 64) (n : Fin 100000) (hn : n.val = t.val * 5000 + r.val) :
    ((cfg1.win 5).blk t).view.emb (ix2 r k) = (ix2 n k : S100000x64.Idx) := by
  obtain ⟨-, -, -, -, -, -, -, -, -, -, e0, e1⟩ := blockAt t
  refine funext fun a => Fin.ext ?_
  match a with
  | ⟨0, _⟩ => show win1_5.index t (0 : Fin 2) * 5000 + 1 * r.val = n.val; omega
  | ⟨1, _⟩ => show win1_5.index t (1 : Fin 2) * 64 + 1 * k.val = k.val; omega

/-- What point `t` writes back is block `t` of the layer of the arrays the region is entered with. -/
private theorem flushed_layer (c : Dev nD) (t : Fin cfg1.N) :
    (dat1 V c).flushed 5 t = ((cfg1.win 5).blk t).view.read (Elt Ideal)
      (layerArr (fA S100000x64 (V c main_v27)) (fA S100000x64 (V c main_v37)) (fA S100000x1 (V c main_v11)) (fA S64x64 (V c main_arg5)) (fA S1x64 (V c main_v38))) := by
  show (cfg1.win 5).cut (grid1.coords t) ((dat1 V c).after 5 t) = _
  rw [after1_5]
  unfold out1_5
  rw [View.canon_unit_zero zeroOff]
  simp only [View.ld_unit_zero (S := S5000x64) zeroOff, View.ld_unit_zero (S := S5000x1) zeroOff, View.ld_unit_zero (S := S64x64) zeroOff, View.ld_unit_zero (S := S1x64) zeroOff]
  refine funext fun (j : S5000x64.Idx) => ?_
  obtain ⟨r, k, rfl⟩ : ∃ (r : Fin 5000) (k : Fin 64), j = ix2 r k := ⟨j 0, j 1, eq_ix2 j⟩
  have hN : cfg1.N = 20 := N_1
  have ht : t.val < 20 := hN ▸ t.isLt
  obtain ⟨n, hn⟩ : ∃ n : Fin 100000, n.val = t.val * 5000 + r.val := ⟨⟨t.val * 5000 + r.val, by have := r.isLt; omega⟩, rfl⟩
  show k1_pay1 (F := Ideal) (iblk1 V c 0 t) (iblk1 V c 1 t) (iblk1 V c 2 t) (iblk1 V c 3 t) (iblk1 V c 4 t) (ix2 r k)
    = layerArr (fA S100000x64 (V c main_v27)) (fA S100000x64 (V c main_v37)) (fA S100000x1 (V c main_v11)) (fA S64x64 (V c main_arg5)) (fA S1x64 (V c main_v38))
        (((cfg1.win 5).blk t).view.emb (ix2 r k))
  rw [outBlock t r k n hn]
  refine (layer_entry (iblk1 V c 0 t) (iblk1 V c 1 t) (iblk1 V c 2 t) (iblk1 V c 3 t) (iblk1 V c 4 t) r k).trans ?_
  simp only [fun f => featBlock V c t r f n hn, fun f => aggBlock V c t r f n hn, dinvBlock V c t r (0 : Fin 1) n hn,
    weightBlock V c t, biasBlock V c t]

/-- An entry of the output array is in point `t`'s block exactly when each coordinate is in the block's range. -/
private theorem mem_outBlock (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v39).slice (win1_5.rect t)).set ↔ _
  rw [View.set_slice_whole, Rect.mem_set_unit]
  exact Iff.rfl

/-- The twenty blocks of 5000 rows fill the output array (row `n` is in block `n / 5000`), so it ends holding the layer
    of the arrays the region is entered with. -/
private theorem layer_array (c : Dev nD) :
    (dat1 V c).arrAt 5 cfg1.N
      = layerArr (fA S100000x64 (V c main_v27)) (fA S100000x64 (V c main_v37)) (fA S100000x1 (V c main_v11)) (fA S64x64 (V c main_arg5)) (fA S1x64 (V c main_v38)) :=
  (dat1 V c).arrAt_eq_of_cover 5 _ (fun t _ => flushed_layer V c t) fun i => by
    have hN : cfg1.N = 20 := N_1
    have hi0 : (i 0).val < 100000 := (i 0).isLt
    have hi1 : (i 1).val < 64 := (i 1).isLt
    refine ⟨⟨(i 0).val / 5000, by rw [hN]; omega⟩, flush1_5 _, ?_⟩
    rw [mem_outBlock]
    obtain ⟨-, -, -, -, -, -, -, -, -, -, e0, e1⟩ := blockAt ⟨(i 0).val / 5000, by rw [hN]; omega⟩
    intro a
    match a with
    | ⟨0, _⟩ =>
      show win1_5.index ⟨(i 0).val / 5000, _⟩ (0 : Fin 2) * 5000 ≤ (i 0).val ∧ (i 0).val < win1_5.index ⟨(i 0).val / 5000, _⟩ (0 : Fin 2) * 5000 + 5000
      rw [e0]; show (i 0).val / 5000 * 5000 ≤ (i 0).val ∧ (i 0).val < (i 0).val / 5000 * 5000 + 5000; omega
    | ⟨1, _⟩ =>
      show win1_5.index ⟨(i 0).val / 5000, _⟩ (1 : Fin 2) * 64 ≤ (i 1).val ∧ (i 1).val < win1_5.index ⟨(i 0).val / 5000, _⟩ (1 : Fin 2) * 64 + 64
      rw [e1]; omega

end Region

/-! ## The region's output at an entry -/

variable (m : (ℓ : Loc nD τ sig) → Buf (Elt Ideal) ℓ) (ρ : Dev nD → PrngReg) (c : Dev nD)

/-- Row `n`, column `k` of the second layer's output, from the contents the region is entered with. -/
theorem h2_region (n : Fin 100000) (k : Fin 64) :
    fA S100000x64 (W4 m ρ c (Proc.devRef .tc main_v39)) (ix2 n k)
      = max ((0 + ∑ f : Fin 64,
          (fA S100000x1 (W3 m ρ c (Proc.devRef .tc main_v11)) (ix2 n (0 : Fin 1))
            * (fA S100000x64 (W3 m ρ c (Proc.devRef .tc main_v37)) (ix2 n f) + fA S100000x64 (W3 m ρ c (Proc.devRef .tc main_v27)) (ix2 n f)))
          * fA S64x64 (W3 m ρ c (Proc.devRef .tc main_arg5)) (ix2 f k))
        + fA S1x64 (W3 m ρ c (Proc.devRef .tc main_v38)) (ix2 (0 : Fin 1) k)) 0 := by
  have h : W4 m ρ c (Proc.devRef .tc main_v39) = (dat1 (V3 m ρ) c).arrAt 5 cfg1.N := W4_arr m ρ c 5
  rw [h, layer_array (V3 m ρ) c]

end Cert.GcnK

end
-- ==== Proof.KRegion2.lean ====
/-
  The pooling kernel, read at an element.  Its one output block is carried across the 20 grid points: the first
  point clears it, every point adds the product of the transposed one-hot matrix of its 5000 graph words with
  its 5000 feature rows.  A one-hot entry is 1 exactly when the graph word equals the column number, so after
  the last point entry `(g, k)` is the sum of column `k` over the rows whose graph word is `g`.
-/
import proofs.«418273_j51264729645494_2_alg».proof.Proof.PKernelIdealFrame
import proofs.«418273_j51264729645494_2_alg».proof.Proof.Spec
import proofs.«418273_j51264729645494_2_alg».proof.Proof.KArr

import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.GcnK

open Cert.KernelIdeal Cert.KernelIdeal.Gen Cert.KernelIdeal.GenP Cert.Gcn
open Idealize.ShloMosaic Idealize.ShloMosaic.TcCoe Idealize.SL.Sem Idealize.ShloMosaic.ValueIdx

/-! The steps, in a namespace of their own: the store pieces read back; the update at an entry; the carried block
    after each point, by induction over the points; the rows re-indexed block by block; the one write-back. -/

namespace Pool

/-! ## The store pieces read back -/

theorem hz2 : (![0, 0] : Fin 2 → Nat) = fun _ => 0 := funext fun a => by fin_cases a <;> rfl

/-- A point after the first leaves, over the carried block `xo`, the update of `xo` by its two input blocks. -/
theorem left_later {F : FTy → Type} [FloatOps F] (c : Dev nD) (i : grid2.Coords) (a1 : Memref sig .tc .vmem S5000x64 .f32) (h1 : a1.IsWhole)
    (a2 : Memref sig .tc .vmem S5000x1 .i32) (h2 : a2.IsWhole) (a3 : Memref sig .tc .vmem S256x64 .f32) (h3 : a3.IsWhole)
    (hc : ¬cond2_0 i) (x0 : Vec F S5000x64 .f32) (x1 : Vec F S5000x1 .i32) (xo : Vec F S256x64 .f32) :
    out2_B_2 c i a1 h1 a2 h2 a3 h3 hc x0 x1 xo = k2_pay2 x0 x1 xo := by
  unfold out2_B_2
  rw [View.read_writes_eq_canon _ _ _ (cover2_B_2 c i a1 h1 a2 h2 a3 h3 hc x0 x1 xo)]
  unfold kernelRun2_B
  dsimp only
  sl_unfold_words
  rw [View.canon_unit_zero hz2]
  simp only [View.readAt_eq_ld, h1.read_unread, h2.read_unread, h3.read_unread, View.ld_unit_zero (S := S5000x64) hz2,
    View.ld_unit_zero (S := S5000x1) hz2, View.ld_unit_zero (S := S256x64) hz2]

/-- The first point clears the block, reads the zeros back and leaves their update by its two input blocks. -/
theorem left_first {F : FTy → Type} [FloatOps F] (c : Dev nD) (i : grid2.Coords) (a1 : Memref sig .tc .vmem S5000x64 .f32) (h1 : a1.IsWhole)
    (a2 : Memref sig .tc .vmem S5000x1 .i32) (h2 : a2.IsWhole) (a3 : Memref sig .tc .vmem S256x64 .f32) (h3 : a3.IsWhole)
    (hc : cond2_0 i) (x0 : Vec F S5000x64 .f32) (x1 : Vec F S5000x1 .i32) :
    out2_A_2 c i a1 h1 a2 h2 a3 h3 hc x0 x1 = k2_pay2 x0 x1 k2_pay1 := by
  unfold out2_A_2
  rw [View.read_writes_eq_canon _ _ _ (cover2_A_2 c i a1 h1 a2 h2 a3 h3 hc x0 x1)]
  unfold kernelRun2_A
  dsimp only
  sl_unfold_words
  rw [View.canon_cons_unit_zero (S := S256x64) hz2, View.readCov_unit_zero (S := S256x64) _ hz2]
  simp only [View.readAt_eq_ld, h1.read_unread, h2.read_unread, View.ld_unit_zero (S := S5000x64) hz2,
    View.ld_unit_zero (S := S5000x1) hz2]

/-! ## The update at an entry -/

theorem lhs_pool_0 (i : S256x64.Idx) (q : dot_S5000x256_S5000x64_S256x64_0_0_1_1_n_n.contr.Idx) :
    (dot_S5000x256_S5000x64_S256x64_0_0_1_1_n_n.lhsIdx i q 0).val = (q ⟨0, by decide⟩).val :=
  dot_S5000x256_S5000x64_S256x64_0_0_1_1_n_n.lhsIdx_val_of_single rfl i q
theorem lhs_pool_1 (i : S256x64.Idx) (q : dot_S5000x256_S5000x64_S256x64_0_0_1_1_n_n.contr.Idx) :
    (dot_S5000x256_S5000x64_S256x64_0_0_1_1_n_n.lhsIdx i q 1).val = (i 0).val := by
  unfold DotDims.lhsIdx
  rw [dif_neg (show ¬(1 : Fin S5000x256.rank) ∈ dot_S5000x256_S5000x64_S256x64_0_0_1_1_n_n.lhsBatch by decide), dif_pos (show (1 : Fin S5000x256.rank) ∈ dot_S5000x256_S5000x64_S256x64_0_0_1_1_n_n.lhsNonContracting by decide)]
  rfl
theorem rhs_pool_0 (i : S256x64.Idx) (q : dot_S5000x256_S5000x64_S256x64_0_0_1_1_n_n.contr.Idx) :
    (dot_S5000x256_S5000x64_S256x64_0_0_1_1_n_n.rhsIdx i q 0).val = (q ⟨0, by decide⟩).val :=
  dot_S5000x256_S5000x64_S256x64_0_0_1_1_n_n.rhsIdx_val_of_single rfl i q
theorem rhs_pool_1 (i : S256x64.Idx) (q : dot_S5000x256_S5000x64_S256x64_0_0_1_1_n_n.contr.Idx) :
    (dot_S5000x256_S5000x64_S256x64_0_0_1_1_n_n.rhsIdx i q 1).val = (i 1).val := by
  unfold DotDims.rhsIdx
  rw [dif_neg (show ¬(1 : Fin S5000x64.rank) ∈ dot_S5000x256_S5000x64_S256x64_0_0_1_1_n_n.rhsBatch by decide), dif_pos (show (1 : Fin S5000x64.rank) ∈ dot_S5000x256_S5000x64_S256x64_0_0_1_1_n_n.rhsNonContracting by decide)]
  rfl

/-- The product of the transposed operand with the other, into zeros, at entry `(g, k)`: the sum over the 5000 rows. -/
theorem product_apply (L : FVec Ideal S5000x256 .f32) (R : FVec Ideal S5000x64 .f32) (g : Fin 256) (k : Fin 64) :
    matmul dot_S5000x256_S5000x64_S256x64_0_0_1_1_n_n (some .fp32) L R (constant S256x64 .f32 0x00000000#32) (ix2 g k)
      = ∑ r : Fin 5000, fA S5000x256 L (ix2 r g) * fA S5000x64 R (ix2 r k) := by
  simp only [matmul]
  rw [Ideal.matmul_constant_zero_apply, ← Equiv.sum_comp (ValueIdx.contrEquiv1 dot_S5000x256_S5000x64_S256x64_0_0_1_1_n_n 5000 rfl rfl).symm]
  refine Finset.sum_congr rfl fun r _ => ?_
  have hr := ValueIdx.contrEquiv1_symm_val dot_S5000x256_S5000x64_S256x64_0_0_1_1_n_n 5000 rfl rfl r
  have el : dot_S5000x256_S5000x64_S256x64_0_0_1_1_n_n.lhsIdx (ix2 g k) ((ValueIdx.contrEquiv1 dot_S5000x256_S5000x64_S256x64_0_0_1_1_n_n 5000 rfl rfl).symm r) = ix2 r g := funext fun a => Fin.ext (by
    match a with
    | ⟨0, _⟩ => exact (lhs_pool_0 _ _).trans hr
    | ⟨1, _⟩ => exact lhs_pool_1 _ _)
  have er : dot_S5000x256_S5000x64_S256x64_0_0_1_1_n_n.rhsIdx (ix2 g k) ((ValueIdx.contrEquiv1 dot_S5000x256_S5000x64_S256x64_0_0_1_1_n_n 5000 rfl rfl).symm r) = ix2 r k := funext fun a => Fin.ext (by
    match a with
    | ⟨0, _⟩ => exact (rhs_pool_0 _ _).trans hr
    | ⟨1, _⟩ => exact rhs_pool_1 _ _)
  rw [el, er]

/-- The comparison of two words, widened and converted: `1` when they are equal, `0` otherwise. -/
theorem onehot_word (a b : BitVec 32) :
    (FloatOps.sitofp (F := Ideal) .f32 ((IntOp.cmpi .eq a b).setWidth 32) : EReal) = if a = b then 1 else 0 := by
  show (((((BitVec.ofBool (a == b)).setWidth 32).toInt : ℤ) : ℝ) : EReal) = _
  by_cases h : a = b
  · rw [if_pos h, beq_iff_eq.mpr h]
    simp
  · rw [if_neg h, beq_eq_false_iff_ne.mpr h]
    simp

/-- The transposed operand: entry `(r, g)` is `1` when row `r`'s word is `g`, `0` otherwise. -/
theorem onehot_apply (v5 : Vec Ideal S5000x1 .i32) (r : Fin 5000) (g : Fin 256) :
    fA S5000x256 (sitofp (F := Ideal) .f32 (extui 32 (cmpi .eq (broadcastTo S5000x256 (shapeCast S5000x1 v5 shapeCasts_S5000x1_S5000x1) broadcasts_S5000x1_S5000x256)
        (iota .tc S5000x256 32 [1] iota_S5000x256_d1_w32)) natLt_1_32)) (ix2 r g)
      = if iA S5000x1 v5 (ix2 r (0 : Fin 1)) = BitVec.ofNat 32 g.val then 1 else 0 := by
  dsimp only [fA, iA]
  rw [sitofp_apply, extui_apply]
  show FloatOps.sitofp (F := Ideal) .f32 ((IntOp.cmpi .eq (broadcastTo S5000x256 (shapeCast S5000x1 v5 shapeCasts_S5000x1_S5000x1) broadcasts_S5000x1_S5000x256 (ix2 r g))
        (iota .tc S5000x256 32 [1] iota_S5000x256_d1_w32 (ix2 r g))).setWidth 32) = _
  rw [shapeCast_self, iota_single_apply,
    broadcastTo_apply v5 broadcasts_S5000x1_S5000x256 (ix2 r g) (ix2 r (0 : Fin 1)) (fun a => by
      match a with
      | ⟨0, _⟩ => rfl
      | ⟨1, _⟩ => rfl)]
  exact onehot_word _ _

/-- The update at entry `(g, k)`: the carried entry plus the sum of column `k` over the block's rows whose word is `g`. -/
theorem update_apply (v3 : Vec Ideal S5000x64 .f32) (v5 : Vec Ideal S5000x1 .i32) (v13 : Vec Ideal S256x64 .f32)
    (g : Fin 256) (k : Fin 64) :
    fA S256x64 (k2_pay2 (F := Ideal) v3 v5 v13) (ix2 g k)
      = fA S256x64 v13 (ix2 g k)
        + ∑ r : Fin 5000, (if iA S5000x1 v5 (ix2 r (0 : Fin 1)) = BitVec.ofNat 32 g.val then (1 : EReal) else 0) * fA S5000x64 v3 (ix2 r k) := by
  unfold k2_pay2
  dsimp only [fA, iA]
  refine (addf_apply _ _ (ix2 g k)).trans ?_
  refine congrArg₂ (· + ·) (congrFun (shapeCast_self v13 shapeCasts_S256x64_S256x64) (ix2 g k)) ?_
  refine (product_apply _ _ g k).trans ?_
  refine Finset.sum_congr rfl fun r _ => ?_
  refine congrArg₂ (· * ·) (onehot_apply v5 r g) (congrFun (shapeCast_self v3 shapeCasts_S5000x64_S5000x64) (ix2 r k))

/-- The cleared block is zero everywhere. -/
theorem cleared_apply (g : Fin 256) (k : Fin 64) : fA S256x64 (k2_pay1 (F := Ideal)) (ix2 g k) = 0 := by
  unfold k2_pay1
  dsimp only [fA]
  rw [broadcast_apply]
  exact Ideal.ofBits_zero_f32

/-! ## The carried block after each point -/

section Carried

variable (V : (c : Dev nD) → (b : Ref sig .tc) → Buf (Elt Ideal) ((c : Thread nD τ).loc b))

/-- The feature rows and the graph words as the region finds them, and their blocks at a point. -/
abbrev feats (c : Dev nD) : S100000x64.Idx → EReal := V c main_v39
abbrev words (c : Dev nD) : S100000x1.Idx → BitVec 32 := V c main_v40
abbrev fblk (c : Dev nD) (t : Fin cfg2.N) : Vec Ideal S5000x64 .f32 := iblk2 V c 0 t
abbrev wblk (c : Dev nD) (t : Fin cfg2.N) : Vec Ideal S5000x1 .i32 := iblk2 V c 1 t

/-- Row `r` of block `t` as a row of the arrays: row `5000 t + r` (taken modulo the number of rows, so that it is
    defined at every `t`; below 20 blocks nothing wraps). -/
def rowOf (t : ℕ) (r : Fin 5000) : Fin 100000 := ⟨(5000 * t + r.val) % 100000, Nat.mod_lt _ (by norm_num)⟩

/-- Both input windows are at block `t` of the rows and block 0 of the columns at point `t`. -/
theorem block_index : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, win2_0.index t (0 : Fin 2) = t.val ∧ win2_0.index t (1 : Fin 2) = 0
    ∧ win2_1.index t (0 : Fin 2) = t.val ∧ win2_1.index t (1 : Fin 2) = 0)

theorem fblk_apply (c : Dev nD) (t : Fin cfg2.N) (r : Fin 5000) (k : Fin 64) :
    fblk V c t (ix2 r k) = feats V c (ix2 (rowOf t.val r) k) := by
  have hN : t.val < 20 := lt_of_lt_of_eq t.isLt (show cfg2.N = 20 from N_2)
  have hr := r.isLt
  have hi := block_index t
  show iblk2 V c 0 t (ix2 r k) = V c main_v39 (ix2 (rowOf t.val r) k)
  unfold iblk2
  rw [View.read_apply]
  show V c main_v39 _ = V c main_v39 _
  refine congrArg (V c main_v39) (funext fun a => Fin.ext ?_)
  match a with
  | ⟨0, _⟩ => show win2_0.index t 0 * 5000 + 1 * r.val = (5000 * t.val + r.val) % 100000; rw [hi.1]; omega
  | ⟨1, _⟩ => show win2_0.index t 1 * 64 + 1 * k.val = k.val; rw [hi.2.1]; omega

theorem wblk_apply (c : Dev nD) (t : Fin cfg2.N) (r : Fin 5000) :
    wblk V c t (ix2 r (0 : Fin 1)) = words V c (ix2 (rowOf t.val r) (0 : Fin 1)) := by
  have hN : t.val < 20 := lt_of_lt_of_eq t.isLt (show cfg2.N = 20 from N_2)
  have hr := r.isLt
  have hi := block_index t
  show iblk2 V c 1 t (ix2 r (0 : Fin 1)) = V c main_v40 (ix2 (rowOf t.val r) (0 : Fin 1))
  unfold iblk2
  rw [View.read_apply]
  show V c main_v40 _ = V c main_v40 _
  refine congrArg (V c main_v40) (funext fun a => Fin.ext ?_)
  match a with
  | ⟨0, _⟩ => show win2_1.index t 0 * 5000 + 1 * r.val = (5000 * t.val + r.val) % 100000; rw [hi.2.2.1]; omega
  | ⟨1, _⟩ => show win2_1.index t 1 * 1 + 1 * 0 = 0; rw [hi.2.2.2]

/-- Block `t`'s part of entry `(g, k)`: column `k` summed over the block's rows whose word is `g`. -/
def part (c : Dev nD) (g : Fin 256) (k : Fin 64) (t : ℕ) : EReal :=
  ∑ r : Fin 5000, (if words V c (ix2 (rowOf t r) (0 : Fin 1)) = BitVec.ofNat 32 g.val then (1 : EReal) else 0)
      * feats V c (ix2 (rowOf t r) k)

/-- What a point's update adds, in terms of the arrays. -/
theorem update_part (c : Dev nD) (g : Fin 256) (k : Fin 64) (t : Fin cfg2.N) :
    (∑ r : Fin 5000, (if iA S5000x1 (wblk V c t) (ix2 r (0 : Fin 1)) = BitVec.ofNat 32 g.val then (1 : EReal) else 0)
        * fA S5000x64 (fblk V c t) (ix2 r k)) = part V c g k t.val := by
  unfold part
  refine Finset.sum_congr rfl fun r _ => ?_
  exact congrArg₂ (fun (w : BitVec 32) (x : EReal) => (if w = BitVec.ofNat 32 g.val then (1 : EReal) else 0) * x)
    (wblk_apply V c t r) (fblk_apply V c t r k)

/-- The first point leaves its own part. -/
theorem carried_first (c : Dev nD) (g : Fin 256) (k : Fin 64) (t : Fin cfg2.N) (h0 : t.val % 20 = 0) :
    fA S256x64 (outsAt2 V c t.val t.isLt) (ix2 g k) = part V c g k t.val := by
  rw [outsAt2_A V c t h0]
  refine (congrFun (left_first (F := Ideal) c (grid2.coords t) (ms2_0 t) (hs2_0 t) (ms2_1 t) (hs2_1 t) (ms2_2 t) (hs2_2 t)
    ((hcond2_0 t).mpr h0) (iblk2 V c 0 t) (iblk2 V c 1 t)) (ix2 g k)).trans ?_
  refine (update_apply (fblk V c t) (wblk V c t) (k2_pay1 (F := Ideal)) g k).trans ?_
  rw [cleared_apply, zero_add]
  exact update_part V c g k t

/-- A later point adds its part to what the point before left. -/
theorem carried_later (c : Dev nD) (g : Fin 256) (k : Fin 64) (t : Fin cfg2.N) (h0 : ¬t.val % 20 = 0) :
    fA S256x64 (outsAt2 V c t.val t.isLt) (ix2 g k)
      = fA S256x64 (outsAt2 V c (t.val - 1) (Nat.lt_of_le_of_lt (Nat.sub_le _ _) t.isLt)) (ix2 g k) + part V c g k t.val := by
  rw [outsAt2_B V c t h0]
  refine (congrFun (left_later (F := Ideal) c (grid2.coords t) (ms2_0 t) (hs2_0 t) (ms2_1 t) (hs2_1 t) (ms2_2 t) (hs2_2 t)
    (fun h => h0 ((hcond2_0 t).mp h)) (iblk2 V c 0 t) (iblk2 V c 1 t)
    (outsAt2 V c (t.val - 1) (Nat.lt_of_le_of_lt (Nat.sub_le _ _) t.isLt))) (ix2 g k)).trans ?_
  refine (update_apply (fblk V c t) (wblk V c t) (outsAt2 V c (t.val - 1) (Nat.lt_of_le_of_lt (Nat.sub_le _ _) t.isLt)) g k).trans ?_
  rw [update_part V c g k t]

/-- After point `n` the carried entry is the sum of the parts of blocks `0 … n`. -/
theorem carried_eq (c : Dev nD) (g : Fin 256) (k : Fin 64) : ∀ (n : ℕ) (hn : n < cfg2.N),
    fA S256x64 (outsAt2 V c n hn) (ix2 g k) = ∑ t ∈ Finset.range (n + 1), part V c g k t
  | 0, hn => by
    rw [Finset.sum_range_one]
    exact carried_first V c g k ⟨0, hn⟩ rfl
  | n + 1, hn => by
    have hN : cfg2.N = 20 := N_2
    have hB : ¬(⟨n + 1, hn⟩ : Fin cfg2.N).val % 20 = 0 := by dsimp only; omega
    rw [Finset.sum_range_succ, ← carried_eq c g k n (Nat.lt_of_succ_lt hn)]
    exact carried_later V c g k ⟨n + 1, hn⟩ hB

end Carried

/-! ## The rows, block by block -/

/-- A row of the arrays is a block and a row in the block. -/
def blockEquiv : Fin 20 × Fin 5000 ≃ Fin 100000 := finProdFinEquiv

theorem blockEquiv_apply (p : Fin 20 × Fin 5000) : blockEquiv p = rowOf p.1.val p.2 :=
  Fin.ext (by
    have h1 := p.1.isLt
    have h2 := p.2.isLt
    show p.2.val + 5000 * p.1.val = (5000 * p.1.val + p.2.val) % 100000
    omega)

/-- A word is the word of a graph number exactly when it reads, signed, as that number. -/
theorem word_eq_iff (w : BitVec 32) (g : Fin 256) : w = BitVec.ofNat 32 g.val ↔ w.toInt = (g.val : ℤ) := by
  have hg := g.isLt
  have hw := w.isLt
  constructor
  · rintro rfl
    rw [BitVec.toInt_eq_toNat_cond, BitVec.toNat_ofNat]
    split <;> omega
  · intro h
    apply BitVec.eq_of_toNat_eq
    rw [BitVec.toNat_ofNat]
    rw [BitVec.toInt_eq_toNat_cond] at h
    split at h <;> omega

section Final

variable (V : (c : Dev nD) → (b : Ref sig .tc) → Buf (Elt Ideal) ((c : Thread nD τ).loc b))

/-- The parts of the 20 blocks add up to the sum over the graph's rows. -/
theorem sum_parts (c : Dev nD) (g : Fin 256) (k : Fin 64) :
    ∑ t ∈ Finset.range 20, part V c g k t
      = ∑ n ∈ inGraph (fun n => iA S100000x1 (V c main_v40) (ix2 n (0 : Fin 1))) g, fA S100000x64 (V c main_v39) (ix2 n k) := by
  unfold inGraph part
  rw [Finset.sum_filter, Finset.sum_range fun t => ∑ r : Fin 5000,
      (if words V c (ix2 (rowOf t r) (0 : Fin 1)) = BitVec.ofNat 32 g.val then (1 : EReal) else 0) * feats V c (ix2 (rowOf t r) k),
    ← Fintype.sum_prod_type', ← Equiv.sum_comp blockEquiv]
  refine Finset.sum_congr rfl fun p _ => ?_
  rw [blockEquiv_apply]
  dsimp only [fA, iA]
  by_cases h : words V c (ix2 (rowOf p.1.val p.2) (0 : Fin 1)) = BitVec.ofNat 32 g.val
  · rw [if_pos h, if_pos ((word_eq_iff _ g).mp h), one_mul]
  · rw [if_neg h, if_neg (fun h' => h ((word_eq_iff _ g).mpr h')), zero_mul]

/-- The last point. -/
def lastPt : Fin cfg2.N := ⟨19, by rw [show cfg2.N = 20 from N_2]; decide⟩

/-- What the last point leaves in the block. -/
abbrev pooled (c : Dev nD) : Buf (Elt Ideal) ((c : Thread nD τ).loc main_v41) := outsAt2 V c 19 lastPt.isLt

/-- The one write-back, after the last point, writes that: the block is the whole array. -/
theorem written_back (c : Dev nD) (t : Fin cfg2.N) (hf : (cfg2.win 2).flush t = true) :
    (dat2 V c).flushed 2 t = ((cfg2.win 2).blk t).view.read (Elt Ideal) (pooled V c) := by
  have hN : cfg2.N = 20 := N_2
  have h19 : t.val = 19 := by have := (flush2_2 t).mp hf; have := t.isLt; omega
  obtain rfl : t = lastPt := Fin.ext h19
  show (cfg2.win 2).cut (grid2.coords lastPt) ((dat2 V c).after 2 lastPt) = _
  rw [after2_2]
  have hz' : (fun a => win2_2.index lastPt a * main_v41.ty.shape.size a) = fun _ => 0 := funext fun a => by fin_cases a <;> decide +kernel
  exact (Memref.read_access_unit_zero (Elt Ideal) main_v41 hz' (fun a => by rw [congrFun hz' a]; simp) (pooled V c)).symm

/-- So the array ends holding it. -/
theorem pooled_array (c : Dev nD) : (dat2 V c).arrAt 2 cfg2.N = pooled V c :=
  (dat2 V c).arrAt_eq_of_cover 2 (pooled V c) (written_back V c) fun i =>
    ⟨lastPt, (flush2_2 lastPt).mpr rfl, by
      show i ∈ ((View.whole main_v41).slice (win2_2.rect lastPt)).set
      rw [View.set_slice_whole, Rect.mem_set_unit]
      intro a
      have h0 : (i 0 : Nat) < 256 := (i 0).isLt
      have h1 : (i 1 : Nat) < 64 := (i 1).isLt
      match a with
      | ⟨0, _⟩ => show win2_2.index lastPt 0 * win2_2.size 0 ≤ (i 0 : Nat) ∧ (i 0 : Nat) < win2_2.index lastPt 0 * win2_2.size 0 + win2_2.xsize (grid2.coords lastPt) 0
                  rw [show win2_2.index lastPt 0 * win2_2.size 0 = 0 from by decide +kernel, show win2_2.xsize (grid2.coords lastPt) 0 = 256 from by decide +kernel]; omega
      | ⟨1, _⟩ => show win2_2.index lastPt 1 * win2_2.size 1 ≤ (i 1 : Nat) ∧ (i 1 : Nat) < win2_2.index lastPt 1 * win2_2.size 1 + win2_2.xsize (grid2.coords lastPt) 1
                  rw [show win2_2.index lastPt 1 * win2_2.size 1 = 0 from by decide +kernel, show win2_2.xsize (grid2.coords lastPt) 1 = 64 from by decide +kernel]; omega⟩

/-- Entry `(g, k)` of the array after the region, from the arrays the region is entered with. -/
theorem pooled_entry (c : Dev nD) (g : Fin 256) (k : Fin 64) :
    fA S256x64 ((dat2 V c).arrAt 2 cfg2.N) (ix2 g k)
      = ∑ n ∈ inGraph (fun n => iA S100000x1 (V c main_v40) (ix2 n (0 : Fin 1))) g, fA S100000x64 (V c main_v39) (ix2 n k) := by
  rw [pooled_array V c]
  exact (carried_eq V c g k 19 lastPt.isLt).trans (sum_parts V c g k)

end Final

end Pool

open Pool

variable (m : (ℓ : Loc nD τ sig) → Buf (Elt Ideal) ℓ) (ρ : Dev nD → PrngReg) (c : Dev nD)

/-- Entry `(g, k)` of the pooled sums, from the contents the region is entered with. -/
theorem pool_region (g : Fin 256) (k : Fin 64) :
    fA S256x64 (W6 m ρ c (Proc.devRef .tc main_v41)) (ix2 g k)
      = ∑ n ∈ inGraph (fun n => iA S100000x1 (W5 m ρ c (Proc.devRef .tc main_v40)) (ix2 n (0 : Fin 1))) g,
          fA S100000x64 (W5 m ρ c (Proc.devRef .tc main_v39)) (ix2 n k) := by
  have e : W6 m ρ c (Proc.devRef .tc main_v41) = (dat2 (V5 m ρ) c).arrAt 2 cfg2.N := W6_arr m ρ c 2
  rw [e]
  exact pooled_entry (V5 m ρ) c g k

end Cert.GcnK

end
-- ==== Proof.KRegion3.lean ====
/-
  The head kernel (one grid point), read at an element: two matrix products with bias, a rectifier between
  them, and the logistic function scaled into `[2, 5]`.

  The body loads its five operands whole, computes, and stores once through the whole output buffer; the grid has
  one point and every window is its whole array.  So the result array is one function of the five arrays the region
  is entered with: entry `(g, j)` is `2 + logistic (∑ i, max (∑ k, x g k * W₁ k i + b₁ i) 0 * W₂ i j + b₂ j) * 3`.
-/
import proofs.«418273_j51264729645494_2_alg».proof.Proof.PKernelIdealFrame
import proofs.«418273_j51264729645494_2_alg».proof.Proof.Spec
import proofs.«418273_j51264729645494_2_alg».proof.Proof.KArr

import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.GcnK

open Cert.KernelIdeal Cert.KernelIdeal.Gen Cert.KernelIdeal.GenP Cert.Gcn
open Idealize.ShloMosaic Idealize.ShloMosaic.TcCoe Idealize.SL.Sem Idealize.ShloMosaic.ValueIdx

namespace HeadRegion

/-! ## The two matrix products at an entry

Each product accumulates into zeros, so an entry is the plain sum over the contracted axis; the four axis lemmas
say which coordinate of each operand an output entry and a contraction index name. -/

theorem lhs_first_0 (i : S256x32.Idx) (q : dot_S256x64_S64x32_S256x32_1_0_0_1_n_n.contr.Idx) :
    (dot_S256x64_S64x32_S256x32_1_0_0_1_n_n.lhsIdx i q 0).val = (i 0).val := by
  unfold DotDims.lhsIdx
  rw [dif_neg (show ¬(0 : Fin S256x64.rank) ∈ dot_S256x64_S64x32_S256x32_1_0_0_1_n_n.lhsBatch by decide), dif_pos (show (0 : Fin S256x64.rank) ∈ dot_S256x64_S64x32_S256x32_1_0_0_1_n_n.lhsNonContracting by decide)]
  rfl
theorem lhs_first_1 (i : S256x32.Idx) (q : dot_S256x64_S64x32_S256x32_1_0_0_1_n_n.contr.Idx) :
    (dot_S256x64_S64x32_S256x32_1_0_0_1_n_n.lhsIdx i q 1).val = (q ⟨0, by decide⟩).val :=
  dot_S256x64_S64x32_S256x32_1_0_0_1_n_n.lhsIdx_val_of_single rfl i q
theorem rhs_first_0 (i : S256x32.Idx) (q : dot_S256x64_S64x32_S256x32_1_0_0_1_n_n.contr.Idx) :
    (dot_S256x64_S64x32_S256x32_1_0_0_1_n_n.rhsIdx i q 0).val = (q ⟨0, by decide⟩).val :=
  dot_S256x64_S64x32_S256x32_1_0_0_1_n_n.rhsIdx_val_of_single rfl i q
theorem rhs_first_1 (i : S256x32.Idx) (q : dot_S256x64_S64x32_S256x32_1_0_0_1_n_n.contr.Idx) :
    (dot_S256x64_S64x32_S256x32_1_0_0_1_n_n.rhsIdx i q 1).val = (i 1).val := by
  unfold DotDims.rhsIdx
  rw [dif_neg (show ¬(1 : Fin S64x32.rank) ∈ dot_S256x64_S64x32_S256x32_1_0_0_1_n_n.rhsBatch by decide), dif_pos (show (1 : Fin S64x32.rank) ∈ dot_S256x64_S64x32_S256x32_1_0_0_1_n_n.rhsNonContracting by decide)]
  rfl

/-- The first product: entry `(g, q)` is the sum over the 64 columns of row `g` times column `q`. -/
theorem first_product (x : FVec Ideal S256x64 .bf16) (y : FVec Ideal S64x32 .bf16) (g : Fin 256) (q : Fin 32) :
    matmul dot_S256x64_S64x32_S256x32_1_0_0_1_n_n none x y (constant S256x32 .f32 0x00000000#32) (ix2 g q)
      = ∑ k : Fin 64, x (ix2 g k) * y (ix2 k q) := by
  simp only [matmul]
  rw [Ideal.matmul_constant_zero_apply, ← Equiv.sum_comp (contrEquiv1 dot_S256x64_S64x32_S256x32_1_0_0_1_n_n 64 rfl rfl).symm]
  refine Finset.sum_congr rfl fun k _ => ?_
  have hk := contrEquiv1_symm_val dot_S256x64_S64x32_S256x32_1_0_0_1_n_n 64 rfl rfl k
  have el : dot_S256x64_S64x32_S256x32_1_0_0_1_n_n.lhsIdx (ix2 g q) ((contrEquiv1 dot_S256x64_S64x32_S256x32_1_0_0_1_n_n 64 rfl rfl).symm k) = ix2 g k := funext fun a => Fin.ext (by
    match a with
    | ⟨0, _⟩ => exact lhs_first_0 _ _
    | ⟨1, _⟩ => exact (lhs_first_1 _ _).trans hk)
  have er : dot_S256x64_S64x32_S256x32_1_0_0_1_n_n.rhsIdx (ix2 g q) ((contrEquiv1 dot_S256x64_S64x32_S256x32_1_0_0_1_n_n 64 rfl rfl).symm k) = ix2 k q := funext fun a => Fin.ext (by
    match a with
    | ⟨0, _⟩ => exact (rhs_first_0 _ _).trans hk
    | ⟨1, _⟩ => exact rhs_first_1 _ _)
  rw [el, er]

theorem lhs_second_0 (i : S256x2.Idx) (q : dot_S256x32_S32x2_S256x2_1_0_0_1_n_n.contr.Idx) :
    (dot_S256x32_S32x2_S256x2_1_0_0_1_n_n.lhsIdx i q 0).val = (i 0).val := by
  unfold DotDims.lhsIdx
  rw [dif_neg (show ¬(0 : Fin S256x32.rank) ∈ dot_S256x32_S32x2_S256x2_1_0_0_1_n_n.lhsBatch by decide), dif_pos (show (0 : Fin S256x32.rank) ∈ dot_S256x32_S32x2_S256x2_1_0_0_1_n_n.lhsNonContracting by decide)]
  rfl
theorem lhs_second_1 (i : S256x2.Idx) (q : dot_S256x32_S32x2_S256x2_1_0_0_1_n_n.contr.Idx) :
    (dot_S256x32_S32x2_S256x2_1_0_0_1_n_n.lhsIdx i q 1).val = (q ⟨0, by decide⟩).val :=
  dot_S256x32_S32x2_S256x2_1_0_0_1_n_n.lhsIdx_val_of_single rfl i q
theorem rhs_second_0 (i : S256x2.Idx) (q : dot_S256x32_S32x2_S256x2_1_0_0_1_n_n.contr.Idx) :
    (dot_S256x32_S32x2_S256x2_1_0_0_1_n_n.rhsIdx i q 0).val = (q ⟨0, by decide⟩).val :=
  dot_S256x32_S32x2_S256x2_1_0_0_1_n_n.rhsIdx_val_of_single rfl i q
theorem rhs_second_1 (i : S256x2.Idx) (q : dot_S256x32_S32x2_S256x2_1_0_0_1_n_n.contr.Idx) :
    (dot_S256x32_S32x2_S256x2_1_0_0_1_n_n.rhsIdx i q 1).val = (i 1).val := by
  unfold DotDims.rhsIdx
  rw [dif_neg (show ¬(1 : Fin S32x2.rank) ∈ dot_S256x32_S32x2_S256x2_1_0_0_1_n_n.rhsBatch by decide), dif_pos (show (1 : Fin S32x2.rank) ∈ dot_S256x32_S32x2_S256x2_1_0_0_1_n_n.rhsNonContracting by decide)]
  rfl

/-- The second product: entry `(g, j)` is the sum over the 32 hidden units. -/
theorem second_product (x : FVec Ideal S256x32 .bf16) (y : FVec Ideal S32x2 .bf16) (g : Fin 256) (q : Fin 2) :
    matmul dot_S256x32_S32x2_S256x2_1_0_0_1_n_n none x y (constant S256x2 .f32 0x00000000#32) (ix2 g q)
      = ∑ k : Fin 32, x (ix2 g k) * y (ix2 k q) := by
  simp only [matmul]
  rw [Ideal.matmul_constant_zero_apply, ← Equiv.sum_comp (contrEquiv1 dot_S256x32_S32x2_S256x2_1_0_0_1_n_n 32 rfl rfl).symm]
  refine Finset.sum_congr rfl fun k _ => ?_
  have hk := contrEquiv1_symm_val dot_S256x32_S32x2_S256x2_1_0_0_1_n_n 32 rfl rfl k
  have el : dot_S256x32_S32x2_S256x2_1_0_0_1_n_n.lhsIdx (ix2 g q) ((contrEquiv1 dot_S256x32_S32x2_S256x2_1_0_0_1_n_n 32 rfl rfl).symm k) = ix2 g k := funext fun a => Fin.ext (by
    match a with
    | ⟨0, _⟩ => exact lhs_second_0 _ _
    | ⟨1, _⟩ => exact (lhs_second_1 _ _).trans hk)
  have er : dot_S256x32_S32x2_S256x2_1_0_0_1_n_n.rhsIdx (ix2 g q) ((contrEquiv1 dot_S256x32_S32x2_S256x2_1_0_0_1_n_n 32 rfl rfl).symm k) = ix2 k q := funext fun a => Fin.ext (by
    match a with
    | ⟨0, _⟩ => exact (rhs_second_0 _ _).trans hk
    | ⟨1, _⟩ => exact rhs_second_1 _ _)
  rw [el, er]

/-! ## The head as one function of its five arrays -/

/-- Entry `(g, j)` of the head's result. -/
def headAt (a0 : S256x64.Idx → EReal) (a1 : S64x32.Idx → EReal) (a2 : S1x32.Idx → EReal) (a3 : S32x2.Idx → EReal)
    (a4 : S1x2.Idx → EReal) (g : Fin 256) (j : Fin 2) : EReal :=
  two32 + Ideal.logistic ((0 + ∑ q : Fin 32,
      max ((0 + ∑ k : Fin 64, a0 (ix2 g k) * a1 (ix2 k q)) + a2 (ix2 (0 : Fin 1) q)) 0 * a3 (ix2 q j))
    + a4 (ix2 (0 : Fin 1) j)) * three32

/-- The whole result array. -/
def headOf (a0 : S256x64.Idx → EReal) (a1 : S64x32.Idx → EReal) (a2 : S1x32.Idx → EReal) (a3 : S32x2.Idx → EReal)
    (a4 : S1x2.Idx → EReal) : S256x2.Idx → EReal := fun i => headAt a0 a1 a2 a3 a4 (i 0) (i 1)

theorem headOf_ix2 (a0 : S256x64.Idx → EReal) (a1 : S64x32.Idx → EReal) (a2 : S1x32.Idx → EReal) (a3 : S32x2.Idx → EReal)
    (a4 : S1x2.Idx → EReal) (g : Fin 256) (j : Fin 2) : headOf a0 a1 a2 a3 a4 (ix2 g j) = headAt a0 a1 a2 a3 a4 g j := rfl

/-! ## The two layers at an entry -/

/-- The hidden layer: the first product plus the bias row, rectified. -/
theorem hidden_apply (x0 : Vec Ideal S256x64 .f32) (x1 : Vec Ideal S64x32 .f32) (x2 : Vec Ideal S1x32 .f32)
    (g : Fin 256) (q : Fin 32) :
    maximumf (F := Ideal)
        (addf
          (matmul dot_S256x64_S64x32_S256x32_1_0_0_1_n_n none
            (truncf .bf16 (shapeCast S256x64 x0 shapeCasts_S256x64_S256x64) bitsLt_bf16_f32)
            (truncf .bf16 x1 bitsLt_bf16_f32) (constant S256x32 .f32 0x00000000#32))
          (broadcastTo S256x32 (shapeCast S1x32 x2 shapeCasts_S1x32_S1x32) broadcasts_S1x32_S256x32))
        (broadcast S256x32 (FloatOps.ofBits .f32 0x00000000#32)) (ix2 g q)
      = max ((0 + ∑ k : Fin 64, x0 (ix2 g k) * x1 (ix2 k q)) + x2 (ix2 (0 : Fin 1) q)) 0 := by
  rw [maximumf_apply, addf_apply, broadcast_apply, first_product, broadcastTo_1b_ab_apply, shapeCast_self, shapeCast_self,
    zero_add]
  show max _ (Ideal.ofBits .f32 0x00000000#32) = _
  rw [Ideal.ofBits_zero_f32]
  rfl

/-- The output layer over any hidden layer `h`: the second product plus the bias row, through the logistic
    function, times three, plus two. -/
theorem output_apply (h : FVec Ideal S256x32 .f32) (x3 : Vec Ideal S32x2 .f32) (x4 : Vec Ideal S1x2 .f32)
    (g : Fin 256) (j : Fin 2) :
    addf (F := Ideal) (broadcast S256x2 (FloatOps.ofBits .f32 0x40000000#32))
        (mulf
          (logistic
            (addf
              (matmul dot_S256x32_S32x2_S256x2_1_0_0_1_n_n none (truncf .bf16 h bitsLt_bf16_f32)
                (truncf .bf16 x3 bitsLt_bf16_f32) (constant S256x2 .f32 0x00000000#32))
              (broadcastTo S256x2 (shapeCast S1x2 x4 shapeCasts_S1x2_S1x2) broadcasts_S1x2_S256x2)))
          (broadcast S256x2 (FloatOps.ofBits .f32 0x40400000#32))) (ix2 g j)
      = two32 + Ideal.logistic ((0 + ∑ q : Fin 32, h (ix2 g q) * x3 (ix2 q j)) + x4 (ix2 (0 : Fin 1) j)) * three32 := by
  rw [addf_apply, mulf_apply, broadcast_apply, broadcast_apply]
  show two32 + Ideal.logistic (addf (F := Ideal) _ _ (ix2 g j)) * three32 = _
  rw [addf_apply, second_product, broadcastTo_1b_ab_apply, shapeCast_self, zero_add]
  rfl

/-- The body's arithmetic at an entry. -/
theorem pay_apply (x0 : Vec Ideal S256x64 .f32) (x1 : Vec Ideal S64x32 .f32) (x2 : Vec Ideal S1x32 .f32)
    (x3 : Vec Ideal S32x2 .f32) (x4 : Vec Ideal S1x2 .f32) (g : Fin 256) (j : Fin 2) :
    k3_pay1 x0 x1 x2 x3 x4 (ix2 g j) = headAt x0 x1 x2 x3 x4 g j := by
  unfold k3_pay1
  refine (output_apply _ x3 x4 g j).trans ?_
  unfold headAt
  simp only [hidden_apply]

theorem zero_offsets : (![0, 0] : Fin 2 → Nat) = fun _ => 0 := funext fun a => by fin_cases a <;> rfl

/-- What the body leaves in the output buffer, from the five input buffers: the body stores once, through the
    whole buffer, what it computed from whole-buffer loads. -/
theorem out_eq (x0 : Vec Ideal S256x64 .f32) (x1 : Vec Ideal S64x32 .f32) (x2 : Vec Ideal S1x32 .f32)
    (x3 : Vec Ideal S32x2 .f32) (x4 : Vec Ideal S1x2 .f32) :
    out3_5 x0 x1 x2 x3 x4 = headOf x0 x1 x2 x3 x4 := by
  unfold out3_5
  rw [View.canon_unit_zero zero_offsets]
  simp only [View.ld_unit_zero (S := S256x64) zero_offsets, View.ld_unit_zero (S := S64x32) zero_offsets,
    View.ld_unit_zero (S := S1x32) zero_offsets, View.ld_unit_zero (S := S32x2) zero_offsets,
    View.ld_unit_zero (S := S1x2) zero_offsets]
  funext y
  obtain ⟨g, j, rfl⟩ : ∃ (g : Fin 256) (j : Fin 2), y = ix2 g j := ⟨y 0, y 1, eq_ix2 y⟩
  exact pay_apply x0 x1 x2 x3 x4 g j

/-! ## From the one block to the array

The grid has one point and every window is its whole array, so each block index is zero on both axes and an index
inside a block names the same index of the array. -/

section Region

variable (V : (c : Dev nD) → (b : Ref sig .tc) → Buf (Elt Ideal) ((c : Thread nD τ).loc b)) (c : Dev nD)

/-- Every window's block index is zero on both axes, at every point of the grid. -/
theorem block_index_zero : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

/-- The mean rows' block is the array. -/
theorem block0_eq (t : Fin cfg3.N) : (iblk3 V c 0 t : S256x64.Idx → EReal) = V c main_v50 := by
  funext y
  obtain ⟨p, q, rfl⟩ : ∃ (p : Fin 256) (q : Fin 64), y = ix2 p q := ⟨y 0, y 1, eq_ix2 y⟩
  show V c main_v50 (((cfg3.win 0).blk t).view.emb (ix2 p q)) = V c main_v50 (ix2 p q)
  have h := block_index_zero t
  refine congrArg _ (funext fun a => Fin.ext ?_)
  match a with
  | ⟨0, _⟩ => show win3_0.index t (0 : Fin 2) * 256 + 1 * p.val = p.val; omega
  | ⟨1, _⟩ => show win3_0.index t (1 : Fin 2) * 64 + 1 * q.val = q.val; omega

/-- The first weight matrix's block is the array. -/
theorem block1_eq (t : Fin cfg3.N) : (iblk3 V c 1 t : S64x32.Idx → EReal) = V c main_arg7 := by
  funext y
  obtain ⟨p, q, rfl⟩ : ∃ (p : Fin 64) (q : Fin 32), y = ix2 p q := ⟨y 0, y 1, eq_ix2 y⟩
  show V c main_arg7 (((cfg3.win 1).blk t).view.emb (ix2 p q)) = V c main_arg7 (ix2 p q)
  have h := block_index_zero t
  refine congrArg _ (funext fun a => Fin.ext ?_)
  match a with
  | ⟨0, _⟩ => show win3_1.index t (0 : Fin 2) * 64 + 1 * p.val = p.val; omega
  | ⟨1, _⟩ => show win3_1.index t (1 : Fin 2) * 32 + 1 * q.val = q.val; omega

/-- The first bias row's block is the array. -/
theorem block2_eq (t : Fin cfg3.N) : (iblk3 V c 2 t : S1x32.Idx → EReal) = V c main_v51 := by
  funext y
  obtain ⟨p, q, rfl⟩ : ∃ (p : Fin 1) (q : Fin 32), y = ix2 p q := ⟨y 0, y 1, eq_ix2 y⟩
  show V c main_v51 (((cfg3.win 2).blk t).view.emb (ix2 p q)) = V c main_v51 (ix2 p q)
  have h := block_index_zero t
  refine congrArg _ (funext fun a => Fin.ext ?_)
  match a with
  | ⟨0, _⟩ => show win3_2.index t (0 : Fin 2) * 1 + 1 * p.val = p.val; omega
  | ⟨1, _⟩ => show win3_2.index t (1 : Fin 2) * 32 + 1 * q.val = q.val; omega

/-- The second weight matrix's block is the array. -/
theorem block3_eq (t : Fin cfg3.N) : (iblk3 V c 3 t : S32x2.Idx → EReal) = V c main_arg9 := by
  funext y
  obtain ⟨p, q, rfl⟩ : ∃ (p : Fin 32) (q : Fin 2), y = ix2 p q := ⟨y 0, y 1, eq_ix2 y⟩
  show V c main_arg9 (((cfg3.win 3).blk t).view.emb (ix2 p q)) = V c main_arg9 (ix2 p q)
  have h := block_index_zero t
  refine congrArg _ (funext fun a => Fin.ext ?_)
  match a with
  | ⟨0, _⟩ => show win3_3.index t (0 : Fin 2) * 32 + 1 * p.val = p.val; omega
  | ⟨1, _⟩ => show win3_3.index t (1 : Fin 2) * 2 + 1 * q.val = q.val; omega

/-- The second bias row's block is the array. -/
theorem block4_eq (t : Fin cfg3.N) : (iblk3 V c 4 t : S1x2.Idx → EReal) = V c main_v52 := by
  funext y
  obtain ⟨p, q, rfl⟩ : ∃ (p : Fin 1) (q : Fin 2), y = ix2 p q := ⟨y 0, y 1, eq_ix2 y⟩
  show V c main_v52 (((cfg3.win 4).blk t).view.emb (ix2 p q)) = V c main_v52 (ix2 p q)
  have h := block_index_zero t
  refine congrArg _ (funext fun a => Fin.ext ?_)
  match a with
  | ⟨0, _⟩ => show win3_4.index t (0 : Fin 2) * 1 + 1 * p.val = p.val; omega
  | ⟨1, _⟩ => show win3_4.index t (1 : Fin 2) * 2 + 1 * q.val = q.val; omega

/-- The result as the region's entry contents determine it. -/
abbrev headArr : S256x2.Idx → EReal :=
  headOf (fA S256x64 (V c main_v50)) (fA S64x32 (V c main_arg7)) (fA S1x32 (V c main_v51)) (fA S32x2 (V c main_arg9))
    (fA S1x2 (V c main_v52))

/-- What the one point writes back is the whole result, read through the output's block. -/
theorem flushed_eq (t : Fin cfg3.N) :
    (dat3 V c).flushed 5 t = ((cfg3.win 5).blk t).view.read (Elt Ideal) (headArr V c) := by
  show (cfg3.win 5).cut (grid3.coords t) ((dat3 V c).after 5 t) = _
  rw [after3_5]
  refine (congrArg ((cfg3.win 5).cut (grid3.coords t))
    (out_eq (iblk3 V c 0 t) (iblk3 V c 1 t) (iblk3 V c 2 t) (iblk3 V c 3 t) (iblk3 V c 4 t))).trans ?_
  rw [block0_eq V c t, block1_eq V c t, block2_eq V c t, block3_eq V c t, block4_eq V c t]
  funext y
  obtain ⟨g, j, rfl⟩ : ∃ (g : Fin 256) (j : Fin 2), y = ix2 g j := ⟨y 0, y 1, eq_ix2 y⟩
  show headArr V c (ix2 g j) = headArr V c (((cfg3.win 5).blk t).view.emb (ix2 g j))
  have h := block_index_zero t
  refine congrArg (headArr V c) (funext fun a => Fin.ext ?_)
  match a with
  | ⟨0, _⟩ => show g.val = win3_5.index t (0 : Fin 2) * 256 + 1 * g.val; omega
  | ⟨1, _⟩ => show j.val = win3_5.index t (1 : Fin 2) * 2 + 1 * j.val; omega

/-- An index of the array is in point `t`'s block iff each coordinate is in the block's range on its axis. -/
theorem mem_block (t : Fin cfg3.N) (i : S256x2.Idx) :
    i ∈ ((cfg3.win 5).blk t).view.set ↔ ∀ a : Fin 2, win3_5.index t a * S256x2.size a ≤ (i a).val ∧ (i a).val < win3_5.index t a * S256x2.size a + S256x2.size a := by
  show i ∈ ((View.whole main_v53).slice (win3_5.rect t)).set ↔ _
  rw [View.set_slice_whole, Rect.mem_set_unit]
  exact Iff.rfl

/-- The one block covers the array. -/
theorem covered (i : S256x2.Idx) : ∃ t : Fin cfg3.N, (cfg3.win 5).flush t = true ∧ i ∈ ((cfg3.win 5).blk t).view.set := by
  refine ⟨t3_0, flush3_5 t3_0, ?_⟩
  rw [mem_block]
  have h := block_index_zero t3_0
  have h0 : (i 0).val < 256 := (i 0).isLt
  have h1 : (i 1).val < 2 := (i 1).isLt
  intro a
  match a with
  | ⟨0, _⟩ => show win3_5.index t3_0 (0 : Fin 2) * 256 ≤ (i 0).val ∧ (i 0).val < win3_5.index t3_0 (0 : Fin 2) * 256 + 256; omega
  | ⟨1, _⟩ => show win3_5.index t3_0 (1 : Fin 2) * 2 ≤ (i 1).val ∧ (i 1).val < win3_5.index t3_0 (1 : Fin 2) * 2 + 2; omega

/-- The output array when the region is left. -/
theorem final_eq : (dat3 V c).arrAt 5 cfg3.N = headArr V c :=
  (dat3 V c).arrAt_eq_of_cover 5 (headArr V c) (fun t _ => flushed_eq V c t) covered

end Region

end HeadRegion

variable (m : (ℓ : Loc nD τ sig) → Buf (Elt Ideal) ℓ) (ρ : Dev nD → PrngReg) (c : Dev nD)

/-- Entry `(g, j)` of the result, from the contents the region is entered with. -/
theorem head_region (g : Fin 256) (j : Fin 2) :
    fA S256x2 (W8 m ρ c (Proc.devRef .tc main_v53)) (ix2 g j)
      = two32 + Ideal.logistic ((0 + ∑ i : Fin 32,
            max ((0 + ∑ k : Fin 64, fA S256x64 (W7 m ρ c (Proc.devRef .tc main_v50)) (ix2 g k) * fA S64x32 (W7 m ρ c (Proc.devRef .tc main_arg7)) (ix2 k i))
                  + fA S1x32 (W7 m ρ c (Proc.devRef .tc main_v51)) (ix2 (0 : Fin 1) i)) 0
              * fA S32x2 (W7 m ρ c (Proc.devRef .tc main_arg9)) (ix2 i j))
          + fA S1x2 (W7 m ρ c (Proc.devRef .tc main_v52)) (ix2 (0 : Fin 1) j)) * three32 := by
  have e : fA S256x2 (W8 m ρ c (Proc.devRef .tc main_v53)) = HeadRegion.headArr (V7 m ρ) c :=
    (W8_arr (F := Ideal) m ρ c 5).trans (HeadRegion.final_eq (V7 m ρ) c)
  exact congrFun e (ix2 g j)

end Cert.GcnK

end
-- ==== Proof.KHost0.lean ====
/-
  The host operations before the first kernel, read at an element: the two rows of the edge list, the degree
  (a segment sum of ones over the destination words, plus one) and its inverse square root as a column, the
  features scaled by it, their aggregate over the edges into each node (rows gathered at the source nodes,
  summed at the destination words), and the bias as a row.
-/
import proofs.«418273_j51264729645494_2_alg».proof.Proof.PKernelIdealFrame
import proofs.«418273_j51264729645494_2_alg».proof.Proof.Spec
import proofs.«418273_j51264729645494_2_alg».proof.Proof.KArr
import proofs.«418273_j51264729645494_2_alg».proof.Proof.LibScatter
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.GcnK

open Cert.KernelIdeal Cert.KernelIdeal.Gen Cert.KernelIdeal.GenP Cert.Gcn
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

namespace Host0

/-! ## Broadcasts and casts of small shapes read at a coordinate -/

section Layout
variable {α : Type}

/-- A scalar laid over any shape reads the scalar everywhere. -/
theorem bcast_scalar_apply {t : Shape} (h : S_.BroadcastsInDim t (![] : Fin 0 → Fin t.rank)) (x : S_.Idx → α) (j : t.Idx) :
    broadcastInDim t ![] h x j = x ix0 :=
  broadcastInDim_apply _ h x j ix0 (fun a => a.elim0)

/-- A vector kept as a column reads, at row `i`, the vector at `i`. -/
theorem bcast_col_apply {n : ℕ} (h : (⟨1, ![n]⟩ : Shape).BroadcastsInDim ⟨2, ![n, 1]⟩ (![0] : Fin 1 → Fin 2))
    (x : (⟨1, ![n]⟩ : Shape).Idx → α) (i : Fin n) (u : Fin 1) :
    broadcastInDim ⟨2, ![n, 1]⟩ ![0] h x (ix2 i u) = x (ix1 i) :=
  broadcastInDim_apply _ h x (ix2 i u) (ix1 i) (fun a => match a with
    | ⟨0, _⟩ => by
      show i.val = if n = 1 then 0 else i.val
      split
      · have := i.isLt; omega
      · rfl)

/-- A column laid along the rows of an `[n, k]` rectangle reads, at `(i, j)`, the column at `i`. -/
theorem bcast_colrect_apply {n k : ℕ} (h : (⟨2, ![n, 1]⟩ : Shape).BroadcastsInDim ⟨2, ![n, k]⟩ (![0, 1] : Fin 2 → Fin 2))
    (x : (⟨2, ![n, 1]⟩ : Shape).Idx → α) (i : Fin n) (j : Fin k) :
    broadcastInDim ⟨2, ![n, k]⟩ ![0, 1] h x (ix2 i j) = x (ix2 i (0 : Fin 1)) :=
  broadcastInDim_apply _ h x (ix2 i j) (ix2 i (0 : Fin 1)) (fun a => match a with
    | ⟨0, _⟩ => by
      show i.val = if n = 1 then 0 else i.val
      split
      · have := i.isLt; omega
      · rfl
    | ⟨1, _⟩ => by
      show (0 : ℕ) = if (1 : ℕ) = 1 then 0 else j.val
      rw [if_pos rfl])

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-! ## The stretch's buffers, each from the ones before it -/

/-- The source words: row 0 of the edge list, as a vector. -/
theorem e_v1 :
    iA S3200000 (W1 m ρ c (Proc.devRef .tc main_v1))
      = shapeCast S3200000 (extractStridedSlice S1x3200000 ![0, 0] (iA S2x3200000 (W0 m ρ c (Proc.devRef .tc main_arg1)))
          slices_S2x3200000_S1x3200000_0_0) shapeCasts_S1x3200000_S3200000 := by
  dsimp only [W1, fA, iA]
  after_results_simp
  all_goals rfl

/-- The destination words: row 1 of the edge list, as a vector. -/
theorem e_v3 :
    iA S3200000 (W1 m ρ c (Proc.devRef .tc main_v3))
      = shapeCast S3200000 (extractStridedSlice S1x3200000 ![1, 0] (iA S2x3200000 (W0 m ρ c (Proc.devRef .tc main_arg1)))
          slices_S2x3200000_S1x3200000_1_0) shapeCasts_S1x3200000_S3200000 := by
  dsimp only [W1, fA, iA]
  after_results_simp
  all_goals rfl

/-- The degree column's term over destination words `d3`: a segment sum of ones into zeros, plus one, inverse square root, as a column. -/
abbrev dinvCol (d3 : S3200000.Idx → BitVec 32) : S100000x1.Idx → EReal :=
  shapeCast S100000x1
    (Host.rsqrt (F := Ideal) (φ := .f32)
      (addf (F := Ideal) (φ := .f32)
        (Host.scatterAdd (F := Ideal) (φ := .f32) scatter_S100000_S3200000x1_S3200000_n_0_0_1
          (broadcastInDim S100000 ![] bcast_S_S100000 (constant (F := Ideal) S_ .f32 0x00000000#32))
          (broadcastInDim S3200000x1 ![0] bcast_S3200000_S3200000x1_0 d3)
          (broadcastInDim S3200000 ![] bcast_S_S3200000 (constant (F := Ideal) S_ .f32 0x3F800000#32)))
        (broadcastInDim S100000 ![] bcast_S_S100000 (constant (F := Ideal) S_ .f32 0x3F800000#32))))
    shapeCasts_S100000_S100000x1

theorem e_v11 :
    fA S100000x1 (W1 m ρ c (Proc.devRef .tc main_v11)) = dinvCol (iA S3200000 (W1 m ρ c (Proc.devRef .tc main_v3))) := by
  dsimp only [W1, fA, iA]
  after_results_simp
  all_goals rfl

theorem e_v13 :
    fA S100000x5 (W1 m ρ c (Proc.devRef .tc main_v13))
      = mulf (F := Ideal) (φ := .f32) (fA S100000x5 (W0 m ρ c (Proc.devRef .tc main_arg0)))
          (broadcastInDim S100000x5 ![0, 1] bcast_S100000x1_S100000x5_0_1 (fA S100000x1 (W1 m ρ c (Proc.devRef .tc main_v11)))) := by
  dsimp only [W1, fA, iA]
  after_results_simp
  all_goals rfl

/-- The wrapped words' term over words `d1`. -/
abbrev wrapVec (d1 : S3200000.Idx → BitVec 32) : S3200000.Idx → BitVec 32 :=
  select (cmpi .slt d1 (broadcastInDim S3200000 ![] bcast_S_S3200000 (constantI S_ 32 0#32)))
    (addi d1 (broadcastInDim S3200000 ![] bcast_S_S3200000 (constantI S_ 32 100000#32))) d1

theorem e_v18 :
    iA S3200000 (W1 m ρ c (Proc.devRef .tc main_v18)) = wrapVec (iA S3200000 (W1 m ρ c (Proc.devRef .tc main_v1))) := by
  dsimp only [W1, fA, iA]
  after_results_simp
  all_goals rfl

theorem e_v20 :
    fA S3200000x5 (W1 m ρ c (Proc.devRef .tc main_v20))
      = Host.gather gather_S100000x5_S3200000x1_S3200000x5_1_0_n_n_0_1_15 (fA S100000x5 (W1 m ρ c (Proc.devRef .tc main_v13)))
          (broadcastInDim S3200000x1 ![0] bcast_S3200000_S3200000x1_0 (iA S3200000 (W1 m ρ c (Proc.devRef .tc main_v18)))) := by
  dsimp only [W1, fA, iA]
  after_results_simp
  all_goals rfl

theorem e_v23 :
    fA S100000x5 (W1 m ρ c (Proc.devRef .tc main_v23))
      = Host.scatterAdd (F := Ideal) (φ := .f32) scatter_S100000x5_S3200000x1_S3200000x5_1_0_0_1
          (broadcastInDim S100000x5 ![] bcast_S_S100000x5 (constant (F := Ideal) S_ .f32 0x00000000#32))
          (broadcastInDim S3200000x1 ![0] bcast_S3200000_S3200000x1_0 (iA S3200000 (W1 m ρ c (Proc.devRef .tc main_v3))))
          (fA S3200000x5 (W1 m ρ c (Proc.devRef .tc main_v20))) := by
  dsimp only [W1, fA, iA]
  after_results_simp
  all_goals rfl

theorem e_v24 :
    fA S1x64 (W1 m ρ c (Proc.devRef .tc main_v24)) = shapeCast S1x64 (fA S64 (W0 m ρ c (Proc.devRef .tc main_arg4))) shapeCasts_S64_S1x64 := by
  dsimp only [W1, fA, iA]
  after_results_simp
  all_goals rfl

/-! ## The operations read at a coordinate, over any operands -/

/-- The host's inverse square root at a position. -/
theorem hostRsqrt_apply {s : Shape} (x : FVec Ideal s .f32) (i : s.Idx) :
    Host.rsqrt (F := Ideal) (φ := .f32) x i = Ideal.rsqrt (x i) := rfl

/-- The host's segment sum at a position is the exact one. -/
theorem hostScatterAdd_apply {s si u : Shape} {w : ℕ} (d : ScatterDims s si u) (x : FVec Ideal s .f32) (idx : IVec si w)
    (upd : FVec Ideal u .f32) (i : s.Idx) :
    Host.scatterAdd (F := Ideal) (φ := .f32) d x idx upd i = Ideal.hostScatterAdd d x idx upd i := rfl

/-- The wrapped words at a position: the compare, add and select at that position. -/
theorem wrapVec_apply (d1 : S3200000.Idx → BitVec 32) (i : S3200000.Idx) : wrapVec d1 i = wrapW (d1 i) := rfl

/-- The degree column at node `n`: the inverse square root of the number of destination words equal to `n`, plus one. -/
theorem dinvCol_apply (d3 : S3200000.Idx → BitVec 32) (n : Fin 100000) :
    dinvCol d3 (ix2 n (0 : Fin 1)) = dinv (fun e => d3 (ix1 e)) n := by
  refine (shapeCast_a_a1_apply _ shapeCasts_S100000_S100000x1 n (0 : Fin 1)).trans ?_
  rw [hostRsqrt_apply, addf_apply, hostScatterAdd_apply,
    Cert.GcnLib.scatterAdd_vec scatter_S100000_S3200000x1_S3200000_n_0_0_1 rfl rfl rfl rfl]
  unfold dinv deg into
  refine congrArg Ideal.rsqrt (congrArg₂ (· + ·) (congrArg₂ (· + ·) ?_
    (Finset.sum_congr (Finset.filter_congr fun e _ => ?_) fun e _ => ?_)) ?_)
  · rw [bcast_scalar_apply, constant_apply]; exact Ideal.ofBits_zero_f32
  · rw [bcast_col_apply bcast_S3200000_S3200000x1_0 d3 e (0 : Fin 1)]
  · rw [bcast_scalar_apply, constant_apply]
  · rw [bcast_scalar_apply, constant_apply]

/-- A row gathered at the wrapped word: row `nodeOf` of the word, the same column. -/
theorem gather5_apply (x : S100000x5.Idx → EReal) (d1 : S3200000.Idx → BitVec 32) (e : Fin 3200000) (f : Fin 5) :
    Host.gather gather_S100000x5_S3200000x1_S3200000x5_1_0_n_n_0_1_15 x
        (broadcastInDim S3200000x1 ![0] bcast_S3200000_S3200000x1_0 (wrapVec d1)) (ix2 e f)
      = x (ix2 (nodeOf (d1 (ix1 e))) f) := by
  refine (Cert.GcnLib.gather_rows gather_S100000x5_S3200000x1_S3200000x5_1_0_n_n_0_1_15 rfl rfl rfl rfl rfl rfl rfl x _ e f (by decide)).trans ?_
  have hI := bcast_col_apply bcast_S3200000_S3200000x1_0 (wrapVec d1) e (0 : Fin 1)
  refine congrArg (fun r => x (ix2 r f)) (Fin.ext ?_)
  show min (broadcastInDim S3200000x1 ![0] bcast_S3200000_S3200000x1_0 (wrapVec d1) (ix2 e (0 : Fin 1))).toInt.toNat (100000 - 1)
    = min (wrapW (d1 (ix1 e))).toInt.toNat (100000 - 1)
  rw [hI, wrapVec_apply]

/-- A row segment sum into zeros at `(n, f)`: the updates whose destination word is `n`, column `f`. -/
theorem aggr5_apply (d3 : S3200000.Idx → BitVec 32) (u : S3200000x5.Idx → EReal) (n : Fin 100000) (f : Fin 5) :
    Host.scatterAdd (F := Ideal) (φ := .f32) scatter_S100000x5_S3200000x1_S3200000x5_1_0_0_1
        (broadcastInDim S100000x5 ![] bcast_S_S100000x5 (constant (F := Ideal) S_ .f32 0x00000000#32))
        (broadcastInDim S3200000x1 ![0] bcast_S3200000_S3200000x1_0 d3) u (ix2 n f)
      = 0 + ∑ e ∈ into (fun e => d3 (ix1 e)) n, u (ix2 e f) := by
  rw [hostScatterAdd_apply, Cert.GcnLib.scatterAdd_rows scatter_S100000x5_S3200000x1_S3200000x5_1_0_0_1 rfl rfl rfl rfl]
  unfold into
  refine congrArg₂ (· + ·) ?_ (Finset.sum_congr (Finset.filter_congr fun e _ => ?_) fun e _ => rfl)
  · rw [bcast_scalar_apply, constant_apply]; exact Ideal.ofBits_zero_f32
  · rw [bcast_col_apply bcast_S3200000_S3200000x1_0 d3 e (0 : Fin 1)]

end Host0

open Host0

/-- The source words. -/
theorem w1_v1 (e : Fin 3200000) :
    iA S3200000 (W1 m ρ c (Proc.devRef .tc main_v1)) (ix1 e) = iA S2x3200000 (W0 m ρ c (Proc.devRef .tc main_arg1)) (ix2 (0 : Fin 2) e) := by
  rw [e_v1]
  generalize iA S2x3200000 (W0 m ρ c (Proc.devRef .tc main_arg1)) = x
  refine (shapeCast_1a_a_apply _ shapeCasts_S1x3200000_S3200000 e).trans ?_
  exact slice2_axis0_apply 0 x slices_S2x3200000_S1x3200000_0_0 (0 : Fin 1) e (0 : Fin 2) rfl

/-- The destination words. -/
theorem w1_v3 (e : Fin 3200000) :
    iA S3200000 (W1 m ρ c (Proc.devRef .tc main_v3)) (ix1 e) = iA S2x3200000 (W0 m ρ c (Proc.devRef .tc main_arg1)) (ix2 (1 : Fin 2) e) := by
  rw [e_v3]
  generalize iA S2x3200000 (W0 m ρ c (Proc.devRef .tc main_arg1)) = x
  refine (shapeCast_1a_a_apply _ shapeCasts_S1x3200000_S3200000 e).trans ?_
  exact slice2_axis0_apply 1 x slices_S2x3200000_S1x3200000_1_0 (0 : Fin 1) e (1 : Fin 2) rfl

/-- The column of inverse square roots of the degrees. -/
theorem w1_v11 (n : Fin 100000) :
    fA S100000x1 (W1 m ρ c (Proc.devRef .tc main_v11)) (ix2 n (0 : Fin 1)) = dinv (fun e => iA S2x3200000 (W0 m ρ c (Proc.devRef .tc main_arg1)) (ix2 (1 : Fin 2) e)) n := by
  rw [e_v11]
  refine (dinvCol_apply _ n).trans ?_
  exact congrArg (fun d => dinv d n) (funext fun e => w1_v3 m ρ c e)

/-- The scaled features. -/
theorem w1_v13 (n : Fin 100000) (f : Fin 5) :
    fA S100000x5 (W1 m ρ c (Proc.devRef .tc main_v13)) (ix2 n f)
      = fA S100000x5 (W0 m ρ c (Proc.devRef .tc main_arg0)) (ix2 n f) * dinv (fun e => iA S2x3200000 (W0 m ρ c (Proc.devRef .tc main_arg1)) (ix2 (1 : Fin 2) e)) n := by
  rw [e_v13]
  refine (mulf_apply _ _ _).trans ?_
  rw [bcast_colrect_apply bcast_S100000x1_S100000x5_0_1, w1_v11]

/-- Their aggregate over the edges into `n`. -/
theorem w1_v23 (n : Fin 100000) (f : Fin 5) :
    fA S100000x5 (W1 m ρ c (Proc.devRef .tc main_v23)) (ix2 n f)
      = 0 + ∑ e ∈ into (fun e => iA S2x3200000 (W0 m ρ c (Proc.devRef .tc main_arg1)) (ix2 (1 : Fin 2) e)) n,
          fA S100000x5 (W0 m ρ c (Proc.devRef .tc main_arg0)) (ix2 (nodeOf ((fun e => iA S2x3200000 (W0 m ρ c (Proc.devRef .tc main_arg1)) (ix2 (0 : Fin 2) e)) e)) f) * dinv (fun e => iA S2x3200000 (W0 m ρ c (Proc.devRef .tc main_arg1)) (ix2 (1 : Fin 2) e)) (nodeOf ((fun e => iA S2x3200000 (W0 m ρ c (Proc.devRef .tc main_arg1)) (ix2 (0 : Fin 2) e)) e)) := by
  rw [e_v23]
  refine (aggr5_apply _ _ n f).trans ?_
  rw [show (fun e => iA S3200000 (W1 m ρ c (Proc.devRef .tc main_v3)) (ix1 e))
      = (fun e => iA S2x3200000 (W0 m ρ c (Proc.devRef .tc main_arg1)) (ix2 (1 : Fin 2) e)) from funext fun e => w1_v3 m ρ c e]
  refine congrArg (fun z => 0 + z) (Finset.sum_congr rfl fun e _ => ?_)
  rw [e_v20, e_v18]
  refine (gather5_apply _ _ e f).trans ?_
  rw [w1_v1, w1_v13]

/-- The first bias as a row. -/
theorem w1_v24 (k : Fin 64) :
    fA S1x64 (W1 m ρ c (Proc.devRef .tc main_v24)) (ix2 (0 : Fin 1) k) = fA S64 (W0 m ρ c (Proc.devRef .tc main_arg4)) (ix1 k) := by
  rw [e_v24]
  exact shapeCast_a_1a_apply _ shapeCasts_S64_S1x64 (0 : Fin 1) k

end Cert.GcnK

end
-- ==== Proof.KHost1.lean ====
/-
  The host operations between the two graph-convolution kernels, read at an element: the first layer's output
  scaled by `dinv`, its aggregate over the edges into each node, and the second bias as a row.
-/
import proofs.«418273_j51264729645494_2_alg».proof.Proof.PKernelIdealFrame
import proofs.«418273_j51264729645494_2_alg».proof.Proof.Spec
import proofs.«418273_j51264729645494_2_alg».proof.Proof.KArr
import proofs.«418273_j51264729645494_2_alg».proof.Proof.LibScatter
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.GcnK

open Cert.KernelIdeal Cert.KernelIdeal.Gen Cert.KernelIdeal.GenP Cert.Gcn
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-! ## The operations of the stretch, read at an index -/

/-- A column broadcast along the rows, read at `(n, k)`: the column's entry of row `n`. -/
private theorem bcast_col_apply (y : S100000x1.Idx → EReal) (n : Fin 100000) (k : Fin 64) :
    broadcastInDim S100000x64 ![0, 1] bcast_S100000x1_S100000x64_0_1 y (ix2 n k) = y (ix2 n (0 : Fin 1)) :=
  broadcastInDim_apply _ bcast_S100000x1_S100000x64_0_1 y (ix2 n k) (ix2 n (0 : Fin 1)) (fun a => match a with
    | ⟨0, _⟩ => by show n.val = if (100000 : Nat) = 1 then 0 else n.val; rw [if_neg (by decide)]
    | ⟨1, _⟩ => by show 0 = if (1 : Nat) = 1 then 0 else k.val; rw [if_pos rfl])

/-- The product with the broadcast column at `(n, k)`. -/
private theorem scale_apply (x : S100000x64.Idx → EReal) (y : S100000x1.Idx → EReal) (n : Fin 100000) (k : Fin 64) :
    mulf (F := Ideal) (φ := .f32) x (broadcastInDim S100000x64 ![0, 1] bcast_S100000x1_S100000x64_0_1 y) (ix2 n k)
      = x (ix2 n k) * y (ix2 n (0 : Fin 1)) := by
  show x (ix2 n k) * broadcastInDim S100000x64 ![0, 1] bcast_S100000x1_S100000x64_0_1 y (ix2 n k) = _
  rw [bcast_col_apply]

/-- A word vector turned into a one-column array, read at `(e, 0)`. -/
private theorem col_apply (s : S3200000.Idx → BitVec 32) (e : Fin 3200000) :
    broadcastInDim S3200000x1 ![0] bcast_S3200000_S3200000x1_0 s (ix2 e (0 : Fin 1)) = s (ix1 e) :=
  broadcastInDim_apply _ bcast_S3200000_S3200000x1_0 s (ix2 e (0 : Fin 1)) (ix1 e) (fun a => match a with
    | ⟨0, _⟩ => by show e.val = if (3200000 : Nat) = 1 then 0 else e.val; rw [if_neg (by decide)])

/-- The compare-with-zero, add-the-node-count, select chain at an edge is the wrapped word. -/
private theorem wrap_apply (s : S3200000.Idx → BitVec 32) (e : Fin 3200000) :
    select (cmpi .slt s (broadcastInDim S3200000 ![] bcast_S_S3200000 (constantI S_ 32 0#32)))
        (addi s (broadcastInDim S3200000 ![] bcast_S_S3200000 (constantI S_ 32 100000#32))) s (ix1 e)
      = wrapW (s (ix1 e)) := rfl

/-- A row gather read at `(e, k)`, when the index column holds at `e` the wrapped form of a word: the row of the
    node that word names. -/
private theorem gather_apply (z : S100000x64.Idx → EReal) (icol : S3200000x1.Idx → BitVec 32) (w : BitVec 32)
    (e : Fin 3200000) (k : Fin 64) (hi : icol (ix2 e (0 : Fin 1)) = wrapW w) :
    Host.gather gather_S100000x64_S3200000x1_S3200000x64_1_0_n_n_0_1_164 z icol (ix2 e k) = z (ix2 (nodeOf w) k) := by
  refine (Cert.GcnLib.gather_rows gather_S100000x64_S3200000x1_S3200000x64_1_0_n_n_0_1_164 rfl rfl rfl rfl rfl rfl rfl z icol e k
    (by decide)).trans ?_
  refine congrArg z (congrArg (fun p : Fin 100000 => ix2 p k) (Fin.ext ?_))
  show min (BitVec.toInt (icol (ix2 e (0 : Fin 1)))).toNat (100000 - 1) = min (wrapW w).toInt.toNat (100000 - 1)
  rw [hi]

/-- The zero array: a scalar zero word broadcast to the full shape reads `0` everywhere. -/
private theorem zeros_apply (i : S100000x64.Idx) :
    broadcastInDim S100000x64 ![] bcast_S_S100000x64 (constant (F := Ideal) S_ .f32 0x00000000#32) i = 0 := by
  rw [broadcastInDim_apply _ bcast_S_S100000x64 (constant (F := Ideal) S_ .f32 0x00000000#32) i ix0 (fun a => a.elim0),
    constant_apply]
  exact Ideal.ofBits_zero_f32

/-- A scatter-add of rows into an array of zeros, read at `(n, k)`, when the index column holds at each edge its
    destination word: the sum of the updates' rows over the edges into `n`. -/
private theorem scatter_apply (z : S100000x64.Idx → EReal) (hz : ∀ i, z i = 0) (dcol : S3200000x1.Idx → BitVec 32)
    (d : S3200000.Idx → BitVec 32) (hd : ∀ e : Fin 3200000, dcol (ix2 e (0 : Fin 1)) = d (ix1 e))
    (u : S3200000x64.Idx → EReal) (n : Fin 100000) (k : Fin 64) :
    Host.scatterAdd (F := Ideal) (φ := .f32) scatter_S100000x64_S3200000x1_S3200000x64_1_0_0_1 z dcol u (ix2 n k)
      = 0 + ∑ e ∈ into (fun e => d (ix1 e)) n, u (ix2 e k) := by
  refine (Cert.GcnLib.scatterAdd_rows scatter_S100000x64_S3200000x1_S3200000x64_1_0_0_1 rfl rfl rfl rfl z dcol u n k).trans ?_
  rw [hz]
  refine congrArg (fun t : EReal => 0 + t) (Finset.sum_congr ?_ (fun _ _ => rfl))
  unfold into
  exact Finset.filter_congr (fun e _ => by rw [hd])

/-! ## The stretch's buffers as the operations' terms over the contents at its entry -/

/-- The scaled features: the first layer's output times the broadcast `dinv` column. -/
private theorem e27 :
    fA S100000x64 (W3 m ρ c (Proc.devRef .tc main_v27))
      = mulf (F := Ideal) (φ := .f32) (fA S100000x64 (W2 m ρ c (Proc.devRef .tc main_v25)))
          (broadcastInDim S100000x64 ![0, 1] bcast_S100000x1_S100000x64_0_1 (fA S100000x1 (W2 m ρ c (Proc.devRef .tc main_v11)))) := by
  show StableHlo.after hostOps1 (W2 m ρ c) (Proc.devRef .tc main_v27) = _
  after_results_simp
  all_goals rfl

/-- The aggregate: the scatter-add, at the raw destination words, of the scaled features' rows gathered at the wrapped
    source words, into zeros. -/
private theorem e37 :
    fA S100000x64 (W3 m ρ c (Proc.devRef .tc main_v37))
      = Host.scatterAdd (F := Ideal) (φ := .f32) scatter_S100000x64_S3200000x1_S3200000x64_1_0_0_1
          (broadcastInDim S100000x64 ![] bcast_S_S100000x64 (constant (F := Ideal) S_ .f32 0x00000000#32))
          (broadcastInDim S3200000x1 ![0] bcast_S3200000_S3200000x1_0 (iA S3200000 (W2 m ρ c (Proc.devRef .tc main_v3))))
          (Host.gather gather_S100000x64_S3200000x1_S3200000x64_1_0_n_n_0_1_164
            (mulf (F := Ideal) (φ := .f32) (fA S100000x64 (W2 m ρ c (Proc.devRef .tc main_v25)))
              (broadcastInDim S100000x64 ![0, 1] bcast_S100000x1_S100000x64_0_1 (fA S100000x1 (W2 m ρ c (Proc.devRef .tc main_v11)))))
            (broadcastInDim S3200000x1 ![0] bcast_S3200000_S3200000x1_0
              (select
                (cmpi .slt (iA S3200000 (W2 m ρ c (Proc.devRef .tc main_v1)))
                  (broadcastInDim S3200000 ![] bcast_S_S3200000 (constantI S_ 32 0#32)))
                (addi (iA S3200000 (W2 m ρ c (Proc.devRef .tc main_v1)))
                  (broadcastInDim S3200000 ![] bcast_S_S3200000 (constantI S_ 32 100000#32)))
                (iA S3200000 (W2 m ρ c (Proc.devRef .tc main_v1)))))) := by
  show StableHlo.after hostOps1 (W2 m ρ c) (Proc.devRef .tc main_v37) = _
  after_results_simp
  all_goals rfl

/-- The second bias, reshaped to one row. -/
private theorem e38 :
    fA S1x64 (W3 m ρ c (Proc.devRef .tc main_v38))
      = shapeCast S1x64 (fA S64 (W2 m ρ c (Proc.devRef .tc main_arg6))) shapeCasts_S64_S1x64 := by
  show StableHlo.after hostOps1 (W2 m ρ c) (Proc.devRef .tc main_v38) = _
  after_results_simp
  all_goals rfl

/-! ## The three buffers read at an element -/

/-- The scaled hidden features. -/
theorem w3_v27 (n : Fin 100000) (k : Fin 64) :
    fA S100000x64 (W3 m ρ c (Proc.devRef .tc main_v27)) (ix2 n k)
      = fA S100000x64 (W2 m ρ c (Proc.devRef .tc main_v25)) (ix2 n k) * fA S100000x1 (W2 m ρ c (Proc.devRef .tc main_v11)) (ix2 n (0 : Fin 1)) :=
  (congrFun (e27 m ρ c) (ix2 n k)).trans (scale_apply _ _ n k)

/-- Their aggregate over the edges into `n`. -/
theorem w3_v37 (n : Fin 100000) (k : Fin 64) :
    fA S100000x64 (W3 m ρ c (Proc.devRef .tc main_v37)) (ix2 n k)
      = 0 + ∑ e ∈ into (fun e => iA S3200000 (W2 m ρ c (Proc.devRef .tc main_v3)) (ix1 e)) n,
          fA S100000x64 (W2 m ρ c (Proc.devRef .tc main_v25)) (ix2 (nodeOf ((fun e => iA S3200000 (W2 m ρ c (Proc.devRef .tc main_v1)) (ix1 e)) e)) k)
            * fA S100000x1 (W2 m ρ c (Proc.devRef .tc main_v11)) (ix2 (nodeOf ((fun e => iA S3200000 (W2 m ρ c (Proc.devRef .tc main_v1)) (ix1 e)) e)) (0 : Fin 1)) := by
  refine (congrFun (e37 m ρ c) (ix2 n k)).trans ?_
  refine (scatter_apply _ zeros_apply _ (iA S3200000 (W2 m ρ c (Proc.devRef .tc main_v3))) (fun e => col_apply _ e) _ n k).trans ?_
  refine congrArg (fun t : EReal => 0 + t) (Finset.sum_congr rfl (fun e _ => ?_))
  refine (gather_apply _ _ (iA S3200000 (W2 m ρ c (Proc.devRef .tc main_v1)) (ix1 e)) e k
    ((col_apply _ e).trans (wrap_apply _ e))).trans ?_
  exact scale_apply _ _ _ k

/-- The second bias as a row. -/
theorem w3_v38 (k : Fin 64) :
    fA S1x64 (W3 m ρ c (Proc.devRef .tc main_v38)) (ix2 (0 : Fin 1) k) = fA S64 (W2 m ρ c (Proc.devRef .tc main_arg6)) (ix1 k) :=
  (congrFun (e38 m ρ c) (ix2 (0 : Fin 1) k)).trans (shapeCast_a_1a_apply _ shapeCasts_S64_S1x64 0 k)

end Cert.GcnK

end
-- ==== Proof.KHost23.lean ====
/-
  The host operations around the pooling kernel, read at an element: the graph words as a column before it;
  after it the graph sizes (a segment sum of ones over the graph words), the pooled sums divided by the size
  (at least one), and the head's two biases as rows.
-/
import proofs.«418273_j51264729645494_2_alg».proof.Proof.PKernelIdealFrame
import proofs.«418273_j51264729645494_2_alg».proof.Proof.Spec
import proofs.«418273_j51264729645494_2_alg».proof.Proof.KArr
import proofs.«418273_j51264729645494_2_alg».proof.Proof.LibScatter
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.GcnK

open Cert.KernelIdeal Cert.KernelIdeal.Gen Cert.KernelIdeal.GenP Cert.Gcn
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-- A vector recast as a one-column array, read at row `n`. -/
private theorem cast_col {α : Type} (x : S100000.Idx → α) (n : Fin 100000) :
    shapeCast S100000x1 x shapeCasts_S100000_S100000x1 (ix2 n (0 : Fin 1)) = x (ix1 n) :=
  shapeCast_apply x shapeCasts_S100000_S100000x1 (ix2 n (0 : Fin 1)) (ix1 n)
    (by rw [Shape.rowMajor_val_two, Shape.rowMajor_val_one]; show n.val = n.val * 1 + 0; omega)

/-- The graph words as a column. -/
theorem w5_v40 (n : Fin 100000) :
    iA S100000x1 (W5 m ρ c (Proc.devRef .tc main_v40)) (ix2 n (0 : Fin 1)) = iA S100000 (W4 m ρ c (Proc.devRef .tc main_arg2)) (ix1 n) := by
  have e : iA S100000x1 (W5 m ρ c (Proc.devRef .tc main_v40))
      = shapeCast S100000x1 (iA S100000 (W4 m ρ c (Proc.devRef .tc main_arg2))) shapeCasts_S100000_S100000x1 := by
    show StableHlo.after hostOps2 (W4 m ρ c) (Proc.devRef .tc main_v40) = _
    after_results
    rfl
  exact (congrFun e (ix2 n (0 : Fin 1))).trans (cast_col (iA S100000 (W4 m ρ c (Proc.devRef .tc main_arg2))) n)

/-- The vector of ones that is counted. -/
private def ones100k : S100000.Idx → EReal :=
  broadcastInDim S100000 ![] bcast_S_S100000 (constant (F := Ideal) S_ .f32 0x3F800000#32)

/-- The zero vector the count starts from. -/
private def zeros256 : S256.Idx → EReal :=
  broadcastInDim S256 ![] bcast_S_S256 (constant (F := Ideal) S_ .f32 0x00000000#32)

/-- The vector of ones the sizes are raised to. -/
private def ones256 : S256.Idx → EReal :=
  broadcastInDim S256 ![] bcast_S_S256 (constant (F := Ideal) S_ .f32 0x3F800000#32)

/-- The graph sizes: the segment sum of ones over the graph words. -/
private def sizes (batch : S100000.Idx → BitVec 32) : S256.Idx → EReal :=
  Host.scatterAdd (F := Ideal) (φ := .f32) scatter_S256_S100000x1_S100000_n_0_0_1 zeros256
    (broadcastInDim S100000x1 ![0] bcast_S100000_S100000x1_0 batch) ones100k

/-- The divisor: the sizes, at least one, spread along each row. -/
private def divisor (batch : S100000.Idx → BitVec 32) : S256x64.Idx → EReal :=
  broadcastInDim S256x64 ![0, 1] bcast_S256x1_S256x64_0_1
    (broadcastInDim S256x1 ![0] bcast_S256_S256x1_0 (maximumf (F := Ideal) (φ := .f32) (sizes batch) ones256))

private theorem ones100k_at (i : S100000.Idx) : ones100k i = one32 := by
  unfold ones100k
  exact broadcastInDim_apply _ bcast_S_S100000 _ i (fun a => a.elim0) (fun a => a.elim0)

private theorem zeros256_at (i : S256.Idx) : zeros256 i = 0 := by
  unfold zeros256
  refine (broadcastInDim_apply _ bcast_S_S256 _ i (fun a => a.elim0) (fun a => a.elim0)).trans ?_
  exact Ideal.ofBits_zero_f32

private theorem ones256_at (i : S256.Idx) : ones256 i = one32 := by
  unfold ones256
  exact broadcastInDim_apply _ bcast_S_S256 _ i (fun a => a.elim0) (fun a => a.elim0)

/-- The graph words spread to a column, read at row `n`. -/
private theorem bcast_col (batch : S100000.Idx → BitVec 32) (n : Fin 100000) :
    broadcastInDim S100000x1 ![0] bcast_S100000_S100000x1_0 batch (ix2 n (0 : Fin 1)) = batch (ix1 n) :=
  broadcastInDim_apply _ bcast_S100000_S100000x1_0 batch (ix2 n (0 : Fin 1)) (ix1 n) (fun a => match a with
    | ⟨0, _⟩ => by show n.val = if (100000 : Nat) = 1 then 0 else n.val; rw [if_neg (by decide)])

/-- The segment sum of ones over the graph words is the graph's size. -/
private theorem sizes_at (batch : S100000.Idx → BitVec 32) (g : Fin 256) :
    sizes batch (ix1 g) = 0 + ∑ _n ∈ inGraph (fun n => batch (ix1 n)) g, one32 := by
  unfold sizes
  have key := Cert.GcnLib.scatterAdd_vec scatter_S256_S100000x1_S100000_n_0_0_1 rfl rfl rfl rfl zeros256
    (broadcastInDim S100000x1 ![0] bcast_S100000_S100000x1_0 batch) ones100k g
  refine key.trans ?_
  rw [zeros256_at]
  unfold inGraph
  have hf : (Finset.univ.filter fun e : Fin 100000 =>
        (broadcastInDim S100000x1 ![0] bcast_S100000_S100000x1_0 batch (ix2 e (0 : Fin 1))).toInt = (g.val : ℤ))
      = Finset.univ.filter fun n : Fin 100000 => (batch (ix1 n)).toInt = (g.val : ℤ) :=
    Finset.filter_congr (fun e _ => by rw [bcast_col batch e])
  rw [hf]
  exact congrArg (fun t : EReal => 0 + t) (Finset.sum_congr rfl (fun e _ => ones100k_at (ix1 e)))

private theorem divisor_at (batch : S100000.Idx → BitVec 32) (g : Fin 256) (k : Fin 64) :
    divisor batch (ix2 g k) = max (0 + ∑ _n ∈ inGraph (fun n => batch (ix1 n)) g, one32) one32 := by
  unfold divisor
  refine (broadcastInDim_apply _ bcast_S256x1_S256x64_0_1 _ (ix2 g k) (ix2 g (0 : Fin 1)) (fun a => match a with
    | ⟨0, _⟩ => by show g.val = if (256 : Nat) = 1 then 0 else g.val; rw [if_neg (by decide)]
    | ⟨1, _⟩ => by show 0 = if (1 : Nat) = 1 then 0 else k.val; rw [if_pos rfl])).trans ?_
  refine (broadcastInDim_apply _ bcast_S256_S256x1_0 _ (ix2 g (0 : Fin 1)) (ix1 g) (fun a => match a with
    | ⟨0, _⟩ => by show g.val = if (256 : Nat) = 1 then 0 else g.val; rw [if_neg (by decide)])).trans ?_
  show max (sizes batch (ix1 g)) (ones256 (ix1 g)) = _
  rw [sizes_at, ones256_at]

/-- The quotient by the divisor, read at an element. -/
private theorem divf_at (p d : S256x64.Idx → EReal) (i : S256x64.Idx) :
    Host.divf (F := Ideal) (φ := .f32) p d i = Ideal.div (p i) (d i) := rfl

/-- The mean rows. -/
theorem w7_v50 (g : Fin 256) (k : Fin 64) :
    fA S256x64 (W7 m ρ c (Proc.devRef .tc main_v50)) (ix2 g k)
      = Ideal.div (fA S256x64 (W6 m ρ c (Proc.devRef .tc main_v41)) (ix2 g k))
          (max (0 + ∑ _n ∈ inGraph (fun n => iA S100000 (W6 m ρ c (Proc.devRef .tc main_arg2)) (ix1 n)) g, one32) one32) := by
  have e : fA S256x64 (W7 m ρ c (Proc.devRef .tc main_v50))
      = Host.divf (F := Ideal) (φ := .f32) (fA S256x64 (W6 m ρ c (Proc.devRef .tc main_v41)))
          (divisor (iA S100000 (W6 m ρ c (Proc.devRef .tc main_arg2)))) := by
    show StableHlo.after hostOps3 (W6 m ρ c) (Proc.devRef .tc main_v50) = _
    after_results
    rfl
  exact ((congrFun e (ix2 g k)).trans
    (divf_at (fA S256x64 (W6 m ρ c (Proc.devRef .tc main_v41))) (divisor (iA S100000 (W6 m ρ c (Proc.devRef .tc main_arg2)))) (ix2 g k))).trans
    (congrArg (fun t : EReal => Ideal.div (fA S256x64 (W6 m ρ c (Proc.devRef .tc main_v41)) (ix2 g k)) t)
      (divisor_at (iA S100000 (W6 m ρ c (Proc.devRef .tc main_arg2))) g k))

/-- A vector recast as a one-row array, read at column `i`. -/
private theorem cast_row32 {α : Type} (x : S32.Idx → α) (i : Fin 32) :
    shapeCast S1x32 x shapeCasts_S32_S1x32 (ix2 (0 : Fin 1) i) = x (ix1 i) :=
  shapeCast_apply x shapeCasts_S32_S1x32 (ix2 (0 : Fin 1) i) (ix1 i)
    (by rw [Shape.rowMajor_val_two, Shape.rowMajor_val_one]; show i.val = 0 * 32 + i.val; omega)

/-- The head's first bias as a row. -/
theorem w7_v51 (i : Fin 32) :
    fA S1x32 (W7 m ρ c (Proc.devRef .tc main_v51)) (ix2 (0 : Fin 1) i) = fA S32 (W6 m ρ c (Proc.devRef .tc main_arg8)) (ix1 i) := by
  have e : fA S1x32 (W7 m ρ c (Proc.devRef .tc main_v51))
      = shapeCast S1x32 (fA S32 (W6 m ρ c (Proc.devRef .tc main_arg8))) shapeCasts_S32_S1x32 := by
    show StableHlo.after hostOps3 (W6 m ρ c) (Proc.devRef .tc main_v51) = _
    after_results
    rfl
  exact (congrFun e (ix2 (0 : Fin 1) i)).trans (cast_row32 (fA S32 (W6 m ρ c (Proc.devRef .tc main_arg8))) i)

/-- A vector recast as a one-row array, read at column `j`. -/
private theorem cast_row2 {α : Type} (x : S2.Idx → α) (j : Fin 2) :
    shapeCast S1x2 x shapeCasts_S2_S1x2 (ix2 (0 : Fin 1) j) = x (ix1 j) :=
  shapeCast_apply x shapeCasts_S2_S1x2 (ix2 (0 : Fin 1) j) (ix1 j)
    (by rw [Shape.rowMajor_val_two, Shape.rowMajor_val_one]; show j.val = 0 * 2 + j.val; omega)

/-- The head's second bias as a row. -/
theorem w7_v52 (j : Fin 2) :
    fA S1x2 (W7 m ρ c (Proc.devRef .tc main_v52)) (ix2 (0 : Fin 1) j) = fA S2 (W6 m ρ c (Proc.devRef .tc main_arg10)) (ix1 j) := by
  have e : fA S1x2 (W7 m ρ c (Proc.devRef .tc main_v52))
      = shapeCast S1x2 (fA S2 (W6 m ρ c (Proc.devRef .tc main_arg10))) shapeCasts_S2_S1x2 := by
    show StableHlo.after hostOps3 (W6 m ρ c) (Proc.devRef .tc main_v52) = _
    after_results
    rfl
  exact (congrFun e (ix2 (0 : Fin 1) j)).trans (cast_row2 (fA S2 (W6 m ρ c (Proc.devRef .tc main_arg10))) j)

end Cert.GcnK

end
-- ==== Proof.KChain.lean ====
/-
  The kernel program's result as one function of its arguments.  Each boundary between a host stretch and a kernel
  launch holds every buffer either as the last writer left it or as launched; composing the four kernels' and the
  four host stretches' element formulas gives the result as the head of the mean-pooled second layer over the first,
  each layer in the kernel's spelling (aggregate the scaled features, then transform).
-/
import proofs.«418273_j51264729645494_2_alg».proof.Proof.PKernelIdealFrame
import proofs.«418273_j51264729645494_2_alg».proof.Proof.Spec
import proofs.«418273_j51264729645494_2_alg».proof.Proof.LibScatter
import proofs.«418273_j51264729645494_2_alg».proof.Proof.KRegion0
import proofs.«418273_j51264729645494_2_alg».proof.Proof.KRegion1
import proofs.«418273_j51264729645494_2_alg».proof.Proof.KRegion2
import proofs.«418273_j51264729645494_2_alg».proof.Proof.KRegion3
import proofs.«418273_j51264729645494_2_alg».proof.Proof.KHost0
import proofs.«418273_j51264729645494_2_alg».proof.Proof.KHost1
import proofs.«418273_j51264729645494_2_alg».proof.Proof.KHost23
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.GcnK

open Cert.KernelIdeal Cert.KernelIdeal.Gen Cert.KernelIdeal.GenP Cert.Gcn
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-! ## Buffers a stretch or a launch leaves alone -/

theorem keep1_0_main_arg3 : W1 m ρ c (Proc.devRef .tc main_arg3) = W0 m ρ c (Proc.devRef .tc main_arg3) :=
  calc W1 m ρ c (Proc.devRef .tc main_arg3)
    _ = W0 m ρ c (Proc.devRef .tc main_arg3) := (StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem keep2_0_main_arg6 : W2 m ρ c (Proc.devRef .tc main_arg6) = W0 m ρ c (Proc.devRef .tc main_arg6) :=
  calc W2 m ρ c (Proc.devRef .tc main_arg6)
    _ = W1 m ρ c (Proc.devRef .tc main_arg6) := (W2_of_ne m ρ c main_arg6 (by decide))
    _ = W0 m ρ c (Proc.devRef .tc main_arg6) := (StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem keep3_0_main_arg5 : W3 m ρ c (Proc.devRef .tc main_arg5) = W0 m ρ c (Proc.devRef .tc main_arg5) :=
  calc W3 m ρ c (Proc.devRef .tc main_arg5)
    _ = W2 m ρ c (Proc.devRef .tc main_arg5) := (StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W1 m ρ c (Proc.devRef .tc main_arg5) := (W2_of_ne m ρ c main_arg5 (by decide))
    _ = W0 m ρ c (Proc.devRef .tc main_arg5) := (StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem keep4_0_main_arg2 : W4 m ρ c (Proc.devRef .tc main_arg2) = W0 m ρ c (Proc.devRef .tc main_arg2) :=
  calc W4 m ρ c (Proc.devRef .tc main_arg2)
    _ = W3 m ρ c (Proc.devRef .tc main_arg2) := (W4_of_ne m ρ c main_arg2 (by decide))
    _ = W2 m ρ c (Proc.devRef .tc main_arg2) := (StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W1 m ρ c (Proc.devRef .tc main_arg2) := (W2_of_ne m ρ c main_arg2 (by decide))
    _ = W0 m ρ c (Proc.devRef .tc main_arg2) := (StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem keep6_0_main_arg2 : W6 m ρ c (Proc.devRef .tc main_arg2) = W0 m ρ c (Proc.devRef .tc main_arg2) :=
  calc W6 m ρ c (Proc.devRef .tc main_arg2)
    _ = W5 m ρ c (Proc.devRef .tc main_arg2) := (W6_of_ne m ρ c main_arg2 (by decide))
    _ = W4 m ρ c (Proc.devRef .tc main_arg2) := (StableHlo.after_of_forall_not_mem (b := Proc.devRef .tc main_arg2) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W3 m ρ c (Proc.devRef .tc main_arg2) := (W4_of_ne m ρ c main_arg2 (by decide))
    _ = W2 m ρ c (Proc.devRef .tc main_arg2) := (StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W1 m ρ c (Proc.devRef .tc main_arg2) := (W2_of_ne m ρ c main_arg2 (by decide))
    _ = W0 m ρ c (Proc.devRef .tc main_arg2) := (StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem keep6_0_main_arg8 : W6 m ρ c (Proc.devRef .tc main_arg8) = W0 m ρ c (Proc.devRef .tc main_arg8) :=
  calc W6 m ρ c (Proc.devRef .tc main_arg8)
    _ = W5 m ρ c (Proc.devRef .tc main_arg8) := (W6_of_ne m ρ c main_arg8 (by decide))
    _ = W4 m ρ c (Proc.devRef .tc main_arg8) := (StableHlo.after_of_forall_not_mem (b := Proc.devRef .tc main_arg8) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W3 m ρ c (Proc.devRef .tc main_arg8) := (W4_of_ne m ρ c main_arg8 (by decide))
    _ = W2 m ρ c (Proc.devRef .tc main_arg8) := (StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W1 m ρ c (Proc.devRef .tc main_arg8) := (W2_of_ne m ρ c main_arg8 (by decide))
    _ = W0 m ρ c (Proc.devRef .tc main_arg8) := (StableHlo.after_of_forall_not_mem (b := Proc.devRef .tc main_arg8) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem keep6_0_main_arg10 : W6 m ρ c (Proc.devRef .tc main_arg10) = W0 m ρ c (Proc.devRef .tc main_arg10) :=
  calc W6 m ρ c (Proc.devRef .tc main_arg10)
    _ = W5 m ρ c (Proc.devRef .tc main_arg10) := (W6_of_ne m ρ c main_arg10 (by decide))
    _ = W4 m ρ c (Proc.devRef .tc main_arg10) := (StableHlo.after_of_forall_not_mem (b := Proc.devRef .tc main_arg10) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W3 m ρ c (Proc.devRef .tc main_arg10) := (W4_of_ne m ρ c main_arg10 (by decide))
    _ = W2 m ρ c (Proc.devRef .tc main_arg10) := (StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W1 m ρ c (Proc.devRef .tc main_arg10) := (W2_of_ne m ρ c main_arg10 (by decide))
    _ = W0 m ρ c (Proc.devRef .tc main_arg10) := (StableHlo.after_of_forall_not_mem (b := Proc.devRef .tc main_arg10) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem keep7_0_main_arg7 : W7 m ρ c (Proc.devRef .tc main_arg7) = W0 m ρ c (Proc.devRef .tc main_arg7) :=
  calc W7 m ρ c (Proc.devRef .tc main_arg7)
    _ = W6 m ρ c (Proc.devRef .tc main_arg7) := (StableHlo.after_of_forall_not_mem (b := Proc.devRef .tc main_arg7) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W5 m ρ c (Proc.devRef .tc main_arg7) := (W6_of_ne m ρ c main_arg7 (by decide))
    _ = W4 m ρ c (Proc.devRef .tc main_arg7) := (StableHlo.after_of_forall_not_mem (b := Proc.devRef .tc main_arg7) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W3 m ρ c (Proc.devRef .tc main_arg7) := (W4_of_ne m ρ c main_arg7 (by decide))
    _ = W2 m ρ c (Proc.devRef .tc main_arg7) := (StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W1 m ρ c (Proc.devRef .tc main_arg7) := (W2_of_ne m ρ c main_arg7 (by decide))
    _ = W0 m ρ c (Proc.devRef .tc main_arg7) := (StableHlo.after_of_forall_not_mem (b := Proc.devRef .tc main_arg7) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem keep7_0_main_arg9 : W7 m ρ c (Proc.devRef .tc main_arg9) = W0 m ρ c (Proc.devRef .tc main_arg9) :=
  calc W7 m ρ c (Proc.devRef .tc main_arg9)
    _ = W6 m ρ c (Proc.devRef .tc main_arg9) := (StableHlo.after_of_forall_not_mem (b := Proc.devRef .tc main_arg9) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W5 m ρ c (Proc.devRef .tc main_arg9) := (W6_of_ne m ρ c main_arg9 (by decide))
    _ = W4 m ρ c (Proc.devRef .tc main_arg9) := (StableHlo.after_of_forall_not_mem (b := Proc.devRef .tc main_arg9) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W3 m ρ c (Proc.devRef .tc main_arg9) := (W4_of_ne m ρ c main_arg9 (by decide))
    _ = W2 m ρ c (Proc.devRef .tc main_arg9) := (StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W1 m ρ c (Proc.devRef .tc main_arg9) := (W2_of_ne m ρ c main_arg9 (by decide))
    _ = W0 m ρ c (Proc.devRef .tc main_arg9) := (StableHlo.after_of_forall_not_mem (b := Proc.devRef .tc main_arg9) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem keep2_1_main_v1 : W2 m ρ c (Proc.devRef .tc main_v1) = W1 m ρ c (Proc.devRef .tc main_v1) :=
  calc W2 m ρ c (Proc.devRef .tc main_v1)
    _ = W1 m ρ c (Proc.devRef .tc main_v1) := (W2_of_ne m ρ c main_v1 (by decide))

theorem keep2_1_main_v3 : W2 m ρ c (Proc.devRef .tc main_v3) = W1 m ρ c (Proc.devRef .tc main_v3) :=
  calc W2 m ρ c (Proc.devRef .tc main_v3)
    _ = W1 m ρ c (Proc.devRef .tc main_v3) := (W2_of_ne m ρ c main_v3 (by decide))

theorem keep3_2_main_v11 : W3 m ρ c (Proc.devRef .tc main_v11) = W2 m ρ c (Proc.devRef .tc main_v11) :=
  calc W3 m ρ c (Proc.devRef .tc main_v11)
    _ = W2 m ρ c (Proc.devRef .tc main_v11) := (StableHlo.after_of_forall_not_mem (b := Proc.devRef .tc main_v11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem keep5_4_main_v39 : W5 m ρ c (Proc.devRef .tc main_v39) = W4 m ρ c (Proc.devRef .tc main_v39) :=
  calc W5 m ρ c (Proc.devRef .tc main_v39)
    _ = W4 m ρ c (Proc.devRef .tc main_v39) := (StableHlo.after_of_forall_not_mem (b := Proc.devRef .tc main_v39) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- The column of inverse square roots is an input of the first launch: it leaves it as entered. -/
theorem keep2_1_main_v11 : W2 m ρ c (Proc.devRef .tc main_v11) = W1 m ρ c (Proc.devRef .tc main_v11) :=
  (W2_arr m ρ c 2).trans (((dat0 (V1 m ρ) c).arrAt_in 2 rfl _).trans (A_eq0 (V1 m ρ) c 2))

/-! ## The stages -/

/-- The first layer's output is the kernel's spelling of a layer over the launch features. -/
theorem k_h1 (n : Fin 100000) (k : Fin 64) :
    fA S100000x64 (W2 m ρ c (Proc.devRef .tc main_v25)) (ix2 n k)
      = layerK (fun e => iA S2x3200000 (W0 m ρ c (Proc.devRef .tc main_arg1)) (ix2 (0 : Fin 2) e)) (fun e => iA S2x3200000 (W0 m ρ c (Proc.devRef .tc main_arg1)) (ix2 (1 : Fin 2) e)) (fun i j => fA S100000x5 (W0 m ρ c (Proc.devRef .tc main_arg0)) (ix2 i j)) (fun i j => fA S5x64 (W0 m ρ c (Proc.devRef .tc main_arg3)) (ix2 i j)) (fun i => fA S64 (W0 m ρ c (Proc.devRef .tc main_arg4)) (ix1 i)) n k := by
  rw [h1_region, w1_v11, w1_v24, keep1_0_main_arg3]
  have e23 : ∀ f : Fin 5, fA S100000x5 (W1 m ρ c (Proc.devRef .tc main_v23)) (ix2 n f) = _ := fun f => w1_v23 m ρ c n f
  have e13 : ∀ f : Fin 5, fA S100000x5 (W1 m ρ c (Proc.devRef .tc main_v13)) (ix2 n f) = _ := fun f => w1_v13 m ρ c n f
  simp only [e23, e13]
  rfl

/-- The second layer's output is the kernel's spelling of a layer over the first layer's output. -/
theorem k_h2 (n : Fin 100000) (k : Fin 64) :
    fA S100000x64 (W4 m ρ c (Proc.devRef .tc main_v39)) (ix2 n k)
      = layerK (fun e => iA S2x3200000 (W0 m ρ c (Proc.devRef .tc main_arg1)) (ix2 (0 : Fin 2) e)) (fun e => iA S2x3200000 (W0 m ρ c (Proc.devRef .tc main_arg1)) (ix2 (1 : Fin 2) e)) (fun i j => fA S100000x64 (W2 m ρ c (Proc.devRef .tc main_v25)) (ix2 i j))
          (fun i j => fA S64x64 (W0 m ρ c (Proc.devRef .tc main_arg5)) (ix2 i j)) (fun i => fA S64 (W0 m ρ c (Proc.devRef .tc main_arg6)) (ix1 i)) n k := by
  rw [h2_region, w3_v38, keep2_0_main_arg6, keep3_0_main_arg5, keep3_2_main_v11, keep2_1_main_v11, w1_v11]
  have e37 : ∀ f : Fin 64, fA S100000x64 (W3 m ρ c (Proc.devRef .tc main_v37)) (ix2 n f) = _ := fun f => w3_v37 m ρ c n f
  have e27 : ∀ f : Fin 64, fA S100000x64 (W3 m ρ c (Proc.devRef .tc main_v27)) (ix2 n f) = _ := fun f => w3_v27 m ρ c n f
  simp only [e37, e27]
  rw [keep2_1_main_v3, keep2_1_main_v1, keep2_1_main_v11]
  have e3 : ∀ e : Fin 3200000, iA S3200000 (W1 m ρ c (Proc.devRef .tc main_v3)) (ix1 e) = _ := fun e => w1_v3 m ρ c e
  have e1 : ∀ e : Fin 3200000, iA S3200000 (W1 m ρ c (Proc.devRef .tc main_v1)) (ix1 e) = _ := fun e => w1_v1 m ρ c e
  have e11 : ∀ n' : Fin 100000, fA S100000x1 (W1 m ρ c (Proc.devRef .tc main_v11)) (ix2 n' (0 : Fin 1)) = _ := fun n' => w1_v11 m ρ c n'
  simp only [e3, e1, e11]
  rfl

/-- The pooled sums of the second layer's rows. -/
theorem k_pool (g : Fin 256) (k : Fin 64) :
    fA S256x64 (W6 m ρ c (Proc.devRef .tc main_v41)) (ix2 g k)
      = pool (fun n => iA S100000 (W0 m ρ c (Proc.devRef .tc main_arg2)) (ix1 n)) (fun i j => fA S100000x64 (W4 m ρ c (Proc.devRef .tc main_v39)) (ix2 i j)) g k := by
  rw [pool_region, keep5_4_main_v39]
  have e40 : ∀ n : Fin 100000, iA S100000x1 (W5 m ρ c (Proc.devRef .tc main_v40)) (ix2 n (0 : Fin 1)) = _ := fun n => w5_v40 m ρ c n
  simp only [e40]
  rw [keep4_0_main_arg2]
  rfl

/-- The result: the head over the mean rows. -/
theorem k_out (g : Fin 256) (j : Fin 2) :
    fA S256x2 (W8 m ρ c (Proc.devRef .tc main_v53)) (ix2 g j)
      = head (emb (fun n => iA S100000 (W0 m ρ c (Proc.devRef .tc main_arg2)) (ix1 n)) (fun i j => fA S256x64 (W6 m ρ c (Proc.devRef .tc main_v41)) (ix2 i j)))
          (fun i j => fA S64x32 (W0 m ρ c (Proc.devRef .tc main_arg7)) (ix2 i j)) (fun i => fA S32 (W0 m ρ c (Proc.devRef .tc main_arg8)) (ix1 i)) (fun i j => fA S32x2 (W0 m ρ c (Proc.devRef .tc main_arg9)) (ix2 i j)) (fun i => fA S2 (W0 m ρ c (Proc.devRef .tc main_arg10)) (ix1 i)) g j := by
  rw [head_region, w7_v52, keep7_0_main_arg7, keep7_0_main_arg9]
  have e50 : ∀ k : Fin 64, fA S256x64 (W7 m ρ c (Proc.devRef .tc main_v50)) (ix2 g k) = _ := fun k => w7_v50 m ρ c g k
  have e51 : ∀ i : Fin 32, fA S1x32 (W7 m ρ c (Proc.devRef .tc main_v51)) (ix2 (0 : Fin 1) i) = _ := fun i => w7_v51 m ρ c i
  simp only [e50, e51]
  rw [keep6_0_main_arg2, keep6_0_main_arg8, keep6_0_main_arg10]
  rfl
end Cert.GcnK

end
-- ==== Proof.RLayer1.lean ====
/-
  The reference's first graph-convolution layer, read at an element: the features times the weights, the rows
  gathered at the source nodes and scaled by the edge normalisation `dinv(src)·dinv(dst)`, summed at the
  destination words, plus the self-loop term, the bias and the rectifier.
-/
import proofs.«418273_j51264729645494_2_alg».proof.Proof.Gen.ReferenceIdeal.Read
import proofs.«418273_j51264729645494_2_alg».proof.Proof.Spec
import proofs.«418273_j51264729645494_2_alg».proof.Proof.KArr
import proofs.«418273_j51264729645494_2_alg».proof.Proof.LibScatter
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.GcnR

open Cert.ReferenceIdeal Cert.ReferenceIdeal.Gen Cert.ReferenceIdeal.Read Cert.Gcn
open Idealize.ShloMosaic Idealize.ShloMosaic.TcCoe Idealize.SL.Sem Idealize.ShloMosaic.ValueIdx

variable (x0 : S100000x5.Idx → EReal) (x1 : S2x3200000.Idx → BitVec 32) (x2 : S100000.Idx → BitVec 32)
  (x3 : S5x64.Idx → EReal) (x4 : S64.Idx → EReal) (x5 : S64x64.Idx → EReal) (x6 : S64.Idx → EReal)
  (x7 : S64x32.Idx → EReal) (x8 : S32.Idx → EReal) (x9 : S32x2.Idx → EReal) (x10 : S2.Idx → EReal)

/-! The stages of the reference read at an index.  The lemmas on the edge words, the degree count, the segment
    sums and the gathers do not depend on the layer; the rest are the first layer's own stages. -/
namespace L1

/-- The source word of edge `e`: row 0 of the edge list. -/
theorem src_word (e : Fin 3200000) :
    val_main_v1 (F := Ideal) x1 (ix1 e) = x1 (ix2 (0 : Fin 2) e) := by
  rw [val_main_v1_apply, val_main_v0_apply]
  refine congrArg x1 (funext fun a => Fin.ext ?_)
  match a with
  | ⟨0, _⟩ => rfl
  | ⟨1, _⟩ => exact Nat.mod_eq_of_lt e.isLt

/-- The destination word of edge `e`: row 1 of the edge list. -/
theorem dst_word (e : Fin 3200000) :
    val_main_v3 (F := Ideal) x1 (ix1 e) = x1 (ix2 (1 : Fin 2) e) := by
  rw [val_main_v3_apply, val_main_v2_apply]
  refine congrArg x1 (funext fun a => Fin.ext ?_)
  match a with
  | ⟨0, _⟩ => rfl
  | ⟨1, _⟩ => exact Nat.mod_eq_of_lt e.isLt

/-- The raw destination words as the index column of the degree count. -/
theorem dst_col_deg (e : Fin 3200000) :
    val_main_v6 (F := Ideal) x1 (ix2 e (0 : Fin 1)) = x1 (ix2 (1 : Fin 2) e) := by
  rw [val_main_v6_apply]
  have hi : idx_main_v6 (ix2 e (0 : Fin 1)) = ix1 e :=
    funext fun a => Fin.ext (by match a with | ⟨0, _⟩ => rfl)
  rw [hi, dst_word]

/-- The raw destination words as the index column of the aggregation. -/
theorem dst_col_agg (e : Fin 3200000) :
    val_main_v38 (F := Ideal) x1 (ix2 e (0 : Fin 1)) = x1 (ix2 (1 : Fin 2) e) := by
  rw [val_main_v38_apply]
  have hi : idx_main_v38 (ix2 e (0 : Fin 1)) = ix1 e :=
    funext fun a => Fin.ext (by match a with | ⟨0, _⟩ => rfl)
  rw [hi, dst_word]

/-- The wrapped source words as the index column of the first `dinv` gather. -/
theorem src_col_norm (e : Fin 3200000) :
    val_main_v17 (F := Ideal) x1 (ix2 e (0 : Fin 1)) = wrapW (x1 (ix2 (0 : Fin 2) e)) := by
  rw [val_main_v17_apply, val_main_v16_apply, val_main_v13_apply, val_main_v15_apply, val_main_v12_apply,
    val_main_v14_apply, val_main_c_apply, val_main_c_2_apply]
  have hi : idx_main_v17 (ix2 e (0 : Fin 1)) = ix1 e :=
    funext fun a => Fin.ext (by match a with | ⟨0, _⟩ => rfl)
  rw [hi, src_word]
  rfl

/-- The wrapped destination words as the index column of the second `dinv` gather. -/
theorem dst_col_norm (e : Fin 3200000) :
    val_main_v24 (F := Ideal) x1 (ix2 e (0 : Fin 1)) = wrapW (x1 (ix2 (1 : Fin 2) e)) := by
  rw [val_main_v24_apply, val_main_v23_apply, val_main_v20_apply, val_main_v22_apply, val_main_v19_apply,
    val_main_v21_apply, val_main_c_3_apply, val_main_c_4_apply]
  have hi : idx_main_v24 (ix2 e (0 : Fin 1)) = ix1 e :=
    funext fun a => Fin.ext (by match a with | ⟨0, _⟩ => rfl)
  rw [hi, dst_word]
  rfl

/-- The wrapped source words as the index column of the row gather. -/
theorem src_col_rows (e : Fin 3200000) :
    val_main_v32 (F := Ideal) x1 (ix2 e (0 : Fin 1)) = wrapW (x1 (ix2 (0 : Fin 2) e)) := by
  rw [val_main_v32_apply, val_main_v31_apply, val_main_v28_apply, val_main_v30_apply, val_main_v27_apply,
    val_main_v29_apply, val_main_c_5_apply, val_main_c_6_apply]
  have hi : idx_main_v32 (ix2 e (0 : Fin 1)) = ix1 e :=
    funext fun a => Fin.ext (by match a with | ⟨0, _⟩ => rfl)
  rw [hi, src_word]
  rfl

/-- A segment sum of scalars over the edges, read at node `n`. -/
theorem segsum_vec (y : S100000.Idx → EReal) (ids : S3200000x1.Idx → BitVec 32) (u : S3200000.Idx → EReal)
    (n : Fin 100000) :
    Host.scatterAdd (F := Ideal) (φ := .f32) scatter_S100000_S3200000x1_S3200000_n_0_0_1 y ids u (ix1 n)
      = y (ix1 n) + ∑ e ∈ Finset.univ.filter (fun e : Fin 3200000 => (ids (ix2 e (0 : Fin 1))).toInt = (n.val : ℤ)),
          u (ix1 e) :=
  Cert.GcnLib.scatterAdd_vec scatter_S100000_S3200000x1_S3200000_n_0_0_1 rfl rfl rfl rfl y ids u n

/-- A segment sum of rows over the edges, read at node `n`, column `k`. -/
theorem segsum_rows (y : S100000x64.Idx → EReal) (ids : S3200000x1.Idx → BitVec 32)
    (u : S3200000x64.Idx → EReal) (n : Fin 100000) (k : Fin 64) :
    Host.scatterAdd (F := Ideal) (φ := .f32) scatter_S100000x64_S3200000x1_S3200000x64_1_0_0_1 y ids u (ix2 n k)
      = y (ix2 n k) + ∑ e ∈ Finset.univ.filter (fun e : Fin 3200000 => (ids (ix2 e (0 : Fin 1))).toInt = (n.val : ℤ)),
          u (ix2 e k) :=
  Cert.GcnLib.scatterAdd_rows scatter_S100000x64_S3200000x1_S3200000x64_1_0_0_1 rfl rfl rfl rfl y ids u n k

/-- A gather of scalars at edge `e` whose index word is the wrapped `w`: the entry at node `nodeOf w`. -/
theorem take_vec (y : S100000.Idx → EReal) (ids : S3200000x1.Idx → BitVec 32) (e : Fin 3200000)
    (w : BitVec 32) (hw : ids (ix2 e (0 : Fin 1)) = wrapW w) :
    Host.gather gather_S100000_S3200000x1_S3200000_n_0_n_n_0_1_1 y ids (ix1 e) = y (ix1 (nodeOf w)) := by
  refine (Cert.GcnLib.gather_vec gather_S100000_S3200000x1_S3200000_n_0_n_n_0_1_1 rfl rfl rfl rfl y ids e
    (by decide)).trans ?_
  refine congrArg y (congrArg (ix1 (n := 100000)) (Fin.ext ?_))
  show min (ids (ix2 e (0 : Fin 1))).toInt.toNat (100000 - 1) = min (wrapW w).toInt.toNat (100000 - 1)
  rw [hw]

/-- A gather of rows at edge `e`, column `k`, whose index word is the wrapped `w`: row `nodeOf w`. -/
theorem take_rows (y : S100000x64.Idx → EReal) (ids : S3200000x1.Idx → BitVec 32) (e : Fin 3200000)
    (k : Fin 64) (w : BitVec 32) (hw : ids (ix2 e (0 : Fin 1)) = wrapW w) :
    Host.gather gather_S100000x64_S3200000x1_S3200000x64_1_0_n_n_0_1_164 y ids (ix2 e k)
      = y (ix2 (nodeOf w) k) := by
  refine (Cert.GcnLib.gather_rows gather_S100000x64_S3200000x1_S3200000x64_1_0_n_n_0_1_164 rfl rfl rfl rfl rfl rfl
    rfl y ids e k (by decide)).trans ?_
  refine congrArg y (congrArg (fun m : Fin 100000 => ix2 m k) (Fin.ext ?_))
  show min (ids (ix2 e (0 : Fin 1))).toInt.toNat (100000 - 1) = min (wrapW w).toInt.toNat (100000 - 1)
  rw [hw]

/-- The reference's inverse square roots of the degrees, read at node `n`. -/
theorem dinv_read (n : Fin 100000) :
    val_main_v10 (F := Ideal) x1 (ix1 n) = dinv (fun e => x1 (ix2 (1 : Fin 2) e)) n := by
  rw [val_main_v10_apply, val_main_v9_apply, val_main_v8_apply, val_main_cst_1_apply]
  unfold val_main_v7
  rw [segsum_vec]
  simp only [dst_col_deg, val_main_v5_apply, val_main_cst_0_apply, val_main_v4_apply, val_main_cst_apply,
    Ideal.hostUnary_rsqrt_def, Ideal.addf_def, Ideal.ofBits_def, Ideal.ofBits_zero_f32]
  unfold dinv deg into
  rfl

/-- `dinv` gathered at the source node of edge `e`. -/
theorem dinv_src (e : Fin 3200000) :
    val_main_v18 (F := Ideal) x1 (ix1 e)
      = dinv (fun e => x1 (ix2 (1 : Fin 2) e)) (nodeOf (x1 (ix2 (0 : Fin 2) e))) := by
  unfold val_main_v18
  exact (take_vec _ _ e _ (src_col_norm x1 e)).trans (dinv_read x1 _)

/-- `dinv` gathered at the destination node of edge `e`. -/
theorem dinv_dst (e : Fin 3200000) :
    val_main_v25 (F := Ideal) x1 (ix1 e)
      = dinv (fun e => x1 (ix2 (1 : Fin 2) e)) (nodeOf (x1 (ix2 (1 : Fin 2) e))) := by
  unfold val_main_v25
  exact (take_vec _ _ e _ (dst_col_norm x1 e)).trans (dinv_read x1 _)

/-- The edge normalisation, broadcast along the columns. -/
theorem norm_edge (e : Fin 3200000) (k : Fin 64) :
    val_main_v35 (F := Ideal) x1 (ix2 e k)
      = dinv (fun e => x1 (ix2 (1 : Fin 2) e)) (nodeOf (x1 (ix2 (0 : Fin 2) e)))
          * dinv (fun e => x1 (ix2 (1 : Fin 2) e)) (nodeOf (x1 (ix2 (1 : Fin 2) e))) := by
  rw [val_main_v35_apply, val_main_v34_apply]
  have hi : idx_main_v34 (idx_main_v35 (ix2 e k)) = ix1 e :=
    funext fun a => Fin.ext (by match a with | ⟨0, _⟩ => rfl)
  rw [hi, val_main_v26_apply, dinv_src, dinv_dst]
  rfl

/-- The transformed features: row `m` of the features times column `k` of the weights. -/
theorem xw_read (m : Fin 100000) (k : Fin 64) :
    val_main_v11 (F := Ideal) x0 x3 (ix2 m k) = ∑ f : Fin 5, x0 (ix2 m f) * x3 (ix2 f k) := by
  rw [val_main_v11_apply]
  refine Finset.sum_congr rfl fun f _ => ?_
  have hl : lidx_main_v11 (ix2 m k) f = ix2 m f :=
    funext fun a => Fin.ext (by match a with | ⟨0, _⟩ => rfl | ⟨1, _⟩ => rfl)
  have hr : ridx_main_v11 (ix2 m k) f = ix2 f k :=
    funext fun a => Fin.ext (by match a with | ⟨0, _⟩ => rfl | ⟨1, _⟩ => rfl)
  rw [hl, hr]

/-- The transformed features gathered at the source node of edge `e`. -/
theorem xw_src (e : Fin 3200000) (k : Fin 64) :
    val_main_v33 (F := Ideal) x0 x1 x3 (ix2 e k)
      = ∑ f : Fin 5, x0 (ix2 (nodeOf (x1 (ix2 (0 : Fin 2) e))) f) * x3 (ix2 f k) := by
  unfold val_main_v33
  exact (take_rows _ _ e k _ (src_col_rows x1 e)).trans (xw_read x0 x3 _ k)

/-- The aggregation over the edges into node `n`. -/
theorem agg_read (n : Fin 100000) (k : Fin 64) :
    val_main_v39 (F := Ideal) x0 x1 x3 (ix2 n k)
      = 0 + ∑ e ∈ into (fun e => x1 (ix2 (1 : Fin 2) e)) n,
          (∑ f : Fin 5, x0 (ix2 (nodeOf (x1 (ix2 (0 : Fin 2) e))) f) * x3 (ix2 f k))
            * (dinv (fun e => x1 (ix2 (1 : Fin 2) e)) (nodeOf (x1 (ix2 (0 : Fin 2) e)))
                * dinv (fun e => x1 (ix2 (1 : Fin 2) e)) (nodeOf (x1 (ix2 (1 : Fin 2) e)))) := by
  unfold val_main_v39
  rw [segsum_rows]
  simp only [dst_col_agg, val_main_v36_apply, xw_src, norm_edge, val_main_v37_apply, val_main_cst_7_apply,
    Ideal.mulf_def, Ideal.ofBits_def, Ideal.ofBits_zero_f32]
  unfold into
  rfl

/-- The self-loop normalisation, broadcast along the columns. -/
theorem norm_self (n : Fin 100000) (k : Fin 64) :
    val_main_v42 (F := Ideal) x1 (ix2 n k)
      = dinv (fun e => x1 (ix2 (1 : Fin 2) e)) n * dinv (fun e => x1 (ix2 (1 : Fin 2) e)) n := by
  rw [val_main_v42_apply, val_main_v41_apply]
  have hi : idx_main_v41 (idx_main_v42 (ix2 n k)) = ix1 n :=
    funext fun a => Fin.ext (by match a with | ⟨0, _⟩ => rfl)
  rw [hi, val_main_v40_apply, dinv_read]
  rfl

/-- The bias row, broadcast down the nodes. -/
theorem bias_read (n : Fin 100000) (k : Fin 64) :
    val_main_v46 (F := Ideal) x4 (ix2 n k) = x4 (ix1 k) := by
  rw [val_main_v46_apply, val_main_v45_apply]
  exact congrArg x4 (funext fun a => Fin.ext (by match a with | ⟨0, _⟩ => rfl))

end L1

/-- The reference's inverse square roots of the degrees. -/
theorem r_dinv (n : Fin 100000) :
    fA S100000 (val_main_v10 (F := Ideal) x1) (ix1 n) = dinv (fun e => x1 (ix2 (1 : Fin 2) e)) n :=
  L1.dinv_read x1 n

/-- The reference's first layer. -/
theorem r_h1 (n : Fin 100000) (k : Fin 64) :
    fA S100000x64 (val_main_v48 (F := Ideal) x0 x1 x3 x4) (ix2 n k)
      = layerR (fun e => x1 (ix2 (0 : Fin 2) e)) (fun e => x1 (ix2 (1 : Fin 2) e)) (fun n f => x0 (ix2 n f)) (fun f k => x3 (ix2 f k)) (fun k => x4 (ix1 k)) n k := by
  show val_main_v48 (F := Ideal) x0 x1 x3 x4 (ix2 n k) = _
  rw [val_main_v48_apply, val_main_v47_apply, val_main_v44_apply, val_main_v43_apply, L1.agg_read, L1.xw_read,
    L1.norm_self, L1.bias_read, val_main_call0_v0_apply, val_main_call0_cst_apply]
  simp only [Ideal.maximumf_def, Ideal.addf_def, Ideal.mulf_def, Ideal.ofBits_def, Ideal.ofBits_zero_f32]
  unfold layerR
  simp only [zero_add]

end Cert.GcnR

end
-- ==== Proof.RLayer2.lean ====
/-
  The reference's second graph-convolution layer, read at an element, over the first layer's output: the same
  operations as the first layer at feature width 64.
-/
import proofs.«418273_j51264729645494_2_alg».proof.Proof.Gen.ReferenceIdeal.Read
import proofs.«418273_j51264729645494_2_alg».proof.Proof.Spec
import proofs.«418273_j51264729645494_2_alg».proof.Proof.KArr
import proofs.«418273_j51264729645494_2_alg».proof.Proof.LibScatter
import proofs.«418273_j51264729645494_2_alg».proof.Proof.RLayer1
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.GcnR

open Cert.ReferenceIdeal Cert.ReferenceIdeal.Gen Cert.ReferenceIdeal.Read Cert.Gcn
open Idealize.ShloMosaic Idealize.ShloMosaic.TcCoe Idealize.SL.Sem Idealize.ShloMosaic.ValueIdx

variable (x0 : S100000x5.Idx → EReal) (x1 : S2x3200000.Idx → BitVec 32) (x2 : S100000.Idx → BitVec 32)
  (x3 : S5x64.Idx → EReal) (x4 : S64.Idx → EReal) (x5 : S64x64.Idx → EReal) (x6 : S64.Idx → EReal)
  (x7 : S64x32.Idx → EReal) (x8 : S32.Idx → EReal) (x9 : S32x2.Idx → EReal) (x10 : S2.Idx → EReal)

/-! The second layer's stages read at an index.  The edge words, the segment sums, the gathers and the degrees are
    the first layer's lemmas; the first layer's output enters only as the array the layer transforms. -/
namespace L2

/-- The raw destination words as the index column of the second layer's aggregation. -/
theorem dst_col_agg (e : Fin 3200000) :
    val_main_v76 (F := Ideal) x1 (ix2 e (0 : Fin 1)) = x1 (ix2 (1 : Fin 2) e) := by
  rw [val_main_v76_apply]
  have hi : idx_main_v76 (ix2 e (0 : Fin 1)) = ix1 e :=
    funext fun a => Fin.ext (by match a with | ⟨0, _⟩ => rfl)
  rw [hi, L1.dst_word]

/-- The wrapped source words as the index column of the first `dinv` gather. -/
theorem src_col_norm (e : Fin 3200000) :
    val_main_v55 (F := Ideal) x1 (ix2 e (0 : Fin 1)) = wrapW (x1 (ix2 (0 : Fin 2) e)) := by
  rw [val_main_v55_apply, val_main_v54_apply, val_main_v51_apply, val_main_v53_apply, val_main_v50_apply,
    val_main_v52_apply, val_main_c_8_apply, val_main_c_9_apply]
  have hi : idx_main_v55 (ix2 e (0 : Fin 1)) = ix1 e :=
    funext fun a => Fin.ext (by match a with | ⟨0, _⟩ => rfl)
  rw [hi, L1.src_word]
  rfl

/-- The wrapped destination words as the index column of the second `dinv` gather. -/
theorem dst_col_norm (e : Fin 3200000) :
    val_main_v62 (F := Ideal) x1 (ix2 e (0 : Fin 1)) = wrapW (x1 (ix2 (1 : Fin 2) e)) := by
  rw [val_main_v62_apply, val_main_v61_apply, val_main_v58_apply, val_main_v60_apply, val_main_v57_apply,
    val_main_v59_apply, val_main_c_10_apply, val_main_c_11_apply]
  have hi : idx_main_v62 (ix2 e (0 : Fin 1)) = ix1 e :=
    funext fun a => Fin.ext (by match a with | ⟨0, _⟩ => rfl)
  rw [hi, L1.dst_word]
  rfl

/-- The wrapped source words as the index column of the row gather. -/
theorem src_col_rows (e : Fin 3200000) :
    val_main_v70 (F := Ideal) x1 (ix2 e (0 : Fin 1)) = wrapW (x1 (ix2 (0 : Fin 2) e)) := by
  rw [val_main_v70_apply, val_main_v69_apply, val_main_v66_apply, val_main_v68_apply, val_main_v65_apply,
    val_main_v67_apply, val_main_c_12_apply, val_main_c_13_apply]
  have hi : idx_main_v70 (ix2 e (0 : Fin 1)) = ix1 e :=
    funext fun a => Fin.ext (by match a with | ⟨0, _⟩ => rfl)
  rw [hi, L1.src_word]
  rfl

/-- `dinv` gathered at the source node of edge `e`. -/
theorem dinv_src (e : Fin 3200000) :
    val_main_v56 (F := Ideal) x1 (ix1 e)
      = dinv (fun e => x1 (ix2 (1 : Fin 2) e)) (nodeOf (x1 (ix2 (0 : Fin 2) e))) := by
  unfold val_main_v56
  exact (L1.take_vec _ _ e _ (src_col_norm x1 e)).trans (L1.dinv_read x1 _)

/-- `dinv` gathered at the destination node of edge `e`. -/
theorem dinv_dst (e : Fin 3200000) :
    val_main_v63 (F := Ideal) x1 (ix1 e)
      = dinv (fun e => x1 (ix2 (1 : Fin 2) e)) (nodeOf (x1 (ix2 (1 : Fin 2) e))) := by
  unfold val_main_v63
  exact (L1.take_vec _ _ e _ (dst_col_norm x1 e)).trans (L1.dinv_read x1 _)

/-- The edge normalisation, broadcast along the columns. -/
theorem norm_edge (e : Fin 3200000) (k : Fin 64) :
    val_main_v73 (F := Ideal) x1 (ix2 e k)
      = dinv (fun e => x1 (ix2 (1 : Fin 2) e)) (nodeOf (x1 (ix2 (0 : Fin 2) e)))
          * dinv (fun e => x1 (ix2 (1 : Fin 2) e)) (nodeOf (x1 (ix2 (1 : Fin 2) e))) := by
  rw [val_main_v73_apply, val_main_v72_apply]
  have hi : idx_main_v72 (idx_main_v73 (ix2 e k)) = ix1 e :=
    funext fun a => Fin.ext (by match a with | ⟨0, _⟩ => rfl)
  rw [hi, val_main_v64_apply, dinv_src, dinv_dst]
  rfl

/-- The self-loop normalisation, broadcast along the columns. -/
theorem norm_self (n : Fin 100000) (k : Fin 64) :
    val_main_v80 (F := Ideal) x1 (ix2 n k)
      = dinv (fun e => x1 (ix2 (1 : Fin 2) e)) n * dinv (fun e => x1 (ix2 (1 : Fin 2) e)) n := by
  rw [val_main_v80_apply, val_main_v79_apply]
  have hi : idx_main_v79 (idx_main_v80 (ix2 n k)) = ix1 n :=
    funext fun a => Fin.ext (by match a with | ⟨0, _⟩ => rfl)
  rw [hi, val_main_v78_apply, L1.dinv_read]
  rfl

/-- The bias row, broadcast down the nodes. -/
theorem bias_read (n : Fin 100000) (k : Fin 64) :
    val_main_v84 (F := Ideal) x6 (ix2 n k) = x6 (ix1 k) := by
  rw [val_main_v84_apply, val_main_v83_apply]
  exact congrArg x6 (funext fun a => Fin.ext (by match a with | ⟨0, _⟩ => rfl))

/-- The transformed features: row `m` of the first layer's output times column `k` of the weights. -/
theorem xw_read (m : Fin 100000) (k : Fin 64) :
    val_main_v49 (F := Ideal) x0 x1 x3 x4 x5 (ix2 m k)
      = ∑ f : Fin 64, val_main_v48 (F := Ideal) x0 x1 x3 x4 (ix2 m f) * x5 (ix2 f k) := by
  rw [val_main_v49_apply]
  refine Finset.sum_congr rfl fun f _ => ?_
  have hl : lidx_main_v49 (ix2 m k) f = ix2 m f :=
    funext fun a => Fin.ext (by match a with | ⟨0, _⟩ => rfl | ⟨1, _⟩ => rfl)
  have hr : ridx_main_v49 (ix2 m k) f = ix2 f k :=
    funext fun a => Fin.ext (by match a with | ⟨0, _⟩ => rfl | ⟨1, _⟩ => rfl)
  rw [hl, hr]

/-- The transformed features gathered at the source node of edge `e`. -/
theorem xw_src (e : Fin 3200000) (k : Fin 64) :
    val_main_v71 (F := Ideal) x0 x1 x3 x4 x5 (ix2 e k)
      = ∑ f : Fin 64, val_main_v48 (F := Ideal) x0 x1 x3 x4 (ix2 (nodeOf (x1 (ix2 (0 : Fin 2) e))) f)
          * x5 (ix2 f k) := by
  unfold val_main_v71
  exact (L1.take_rows _ _ e k _ (src_col_rows x1 e)).trans (xw_read x0 x1 x3 x4 x5 _ k)

/-- The message of edge `e`: the gathered transformed row times the edge normalisation. -/
theorem msg_read (e : Fin 3200000) (k : Fin 64) :
    val_main_v74 (F := Ideal) x0 x1 x3 x4 x5 (ix2 e k)
      = (∑ f : Fin 64, val_main_v48 (F := Ideal) x0 x1 x3 x4 (ix2 (nodeOf (x1 (ix2 (0 : Fin 2) e))) f)
            * x5 (ix2 f k))
          * (dinv (fun e => x1 (ix2 (1 : Fin 2) e)) (nodeOf (x1 (ix2 (0 : Fin 2) e)))
              * dinv (fun e => x1 (ix2 (1 : Fin 2) e)) (nodeOf (x1 (ix2 (1 : Fin 2) e)))) := by
  rw [val_main_v74_apply, xw_src, norm_edge]
  rfl

/-- The aggregation of any messages `u`, column `k`, over the edges into node `n`. -/
theorem agg_gen (n : Fin 100000) (k : Fin 64) (u : S3200000x64.Idx → EReal) (g : Fin 3200000 → EReal)
    (hu : ∀ e, u (ix2 e k) = g e) :
    Host.scatterAdd (F := Ideal) (φ := .f32) scatter_S100000x64_S3200000x1_S3200000x64_1_0_0_1
        (val_main_v75 (F := Ideal)) (val_main_v76 (F := Ideal) x1) u (ix2 n k)
      = 0 + ∑ e ∈ into (fun e => x1 (ix2 (1 : Fin 2) e)) n, g e := by
  rw [L1.segsum_rows]
  simp only [dst_col_agg, hu, val_main_v75_apply, val_main_cst_14_apply, Ideal.ofBits_def, Ideal.ofBits_zero_f32]
  unfold into
  rfl

/-- The aggregation over the edges into node `n`. -/
theorem agg_read (n : Fin 100000) (k : Fin 64) :
    val_main_v77 (F := Ideal) x0 x1 x3 x4 x5 (ix2 n k)
      = 0 + ∑ e ∈ into (fun e => x1 (ix2 (1 : Fin 2) e)) n,
          (∑ f : Fin 64, val_main_v48 (F := Ideal) x0 x1 x3 x4 (ix2 (nodeOf (x1 (ix2 (0 : Fin 2) e))) f)
              * x5 (ix2 f k))
            * (dinv (fun e => x1 (ix2 (1 : Fin 2) e)) (nodeOf (x1 (ix2 (0 : Fin 2) e)))
                * dinv (fun e => x1 (ix2 (1 : Fin 2) e)) (nodeOf (x1 (ix2 (1 : Fin 2) e)))) := by
  unfold val_main_v77
  exact agg_gen x1 n k (val_main_v74 (F := Ideal) x0 x1 x3 x4 x5) _ (fun e => msg_read x0 x1 x3 x4 x5 e k)

end L2

/-- The reference's second layer, over its first. -/
theorem r_h2 (n : Fin 100000) (k : Fin 64) :
    fA S100000x64 (val_main_v86 (F := Ideal) x0 x1 x3 x4 x5 x6) (ix2 n k)
      = layerR (fun e => x1 (ix2 (0 : Fin 2) e)) (fun e => x1 (ix2 (1 : Fin 2) e))
          (fun n f => fA S100000x64 (val_main_v48 (F := Ideal) x0 x1 x3 x4) (ix2 n f))
          (fun f k => x5 (ix2 f k)) (fun k => x6 (ix1 k)) n k := by
  show val_main_v86 (F := Ideal) x0 x1 x3 x4 x5 x6 (ix2 n k) = _
  rw [val_main_v86_apply, val_main_v85_apply, val_main_v82_apply, val_main_v81_apply, L2.agg_read, L2.xw_read,
    L2.norm_self, L2.bias_read, val_main_call1_v0_apply, val_main_call1_cst_apply]
  generalize val_main_v48 (F := Ideal) x0 x1 x3 x4 = h
  simp only [Ideal.maximumf_def, Ideal.addf_def, Ideal.mulf_def, Ideal.ofBits_def, Ideal.ofBits_zero_f32]
  unfold layerR
  simp only [zero_add, fA]

end Cert.GcnR

end
-- ==== Proof.SpecFacts.lean ====
/-
  Facts about the specification's constants and index words: the word 0x3F800000 is the real one; a destination
  word that IS node `n` names `n` when it is gathered with; every degree is a real number at least one, so
  every `dinv` is a positive real.
-/
import proofs.«418273_j51264729645494_2_alg».proof.Proof.Spec
import Idealize.ShloMosaic.Lib.StableHlo.Predicate
import Mathlib.Data.EReal.Operations
import Mathlib.Analysis.Real.Sqrt

noncomputable section

namespace Cert.Gcn

open Idealize.ShloMosaic

/-- Sign 0, exponent field 127 (the bias), fraction 0: `2^23 · 2^(127 - 127 - 23) = 1`. -/
theorem one32_eq : one32 = (1 : EReal) := by
  simp [one32, Ideal.ofBits, Ideal.ieee, -EReal.coe_mul]; norm_num

/-- Sign 0, exponent field 128, fraction 0: `2^23 · 2^(128 - 127 - 23) = 2`. -/
theorem two32_eq : two32 = ((2 : ℝ) : EReal) := by
  simp [two32, Ideal.ofBits, Ideal.ieee, -EReal.coe_mul]; norm_num

/-- Sign 0, exponent field 128, fraction `2^22`: `(2^23 + 2^22) · 2^(128 - 127 - 23) = 3`. -/
theorem three32_eq : three32 = ((3 : ℝ) : EReal) := by
  simp [three32, Ideal.ofBits, Ideal.ieee, -EReal.coe_mul]; norm_num

/-- A destination word that is node `n` when read signed is not negative and in range: wrapping and clamping
    leave it alone. -/
theorem nodeOf_of_into (dst : Fin 3200000 → BitVec 32) (n : Fin 100000) (e : Fin 3200000) (he : e ∈ into dst n) :
    nodeOf (dst e) = n := by
  -- membership says the word, read signed, is `n`
  have h : (dst e).toInt = (n.val : ℤ) := by
    simpa [into] using he
  have hn := n.isLt
  -- so it is not below zero: the signed comparison with zero is the zero bit
  have hslt : IntOp.cmpi .slt (dst e) 0#32 = 0#1 := by
    have h0 : (0#32 : BitVec 32).toInt = 0 := by decide
    have hd : decide ((n.val : ℤ) < 0) = false := by
      simp
    simp only [IntOp.cmpi, BitVec.slt, h, h0, hd]
    rfl
  -- and the wrap keeps the word
  have hw : wrapW (dst e) = dst e := by
    unfold wrapW Scalar.select
    rw [hslt]
    simp
  -- the clamp of `n < 100000` into `[0, 99999]` is `n`
  apply Fin.ext
  simp only [nodeOf, hw, h]
  omega

/-- The degree is the real `(number of edges into n) + 1`. -/
theorem deg_eq (dst : Fin 3200000 → BitVec 32) (n : Fin 100000) :
    deg dst n = ((((into dst n).card : ℝ) + 1 : ℝ) : EReal) := by
  unfold deg
  -- a sum of ones over a set is the set's size
  rw [one32_eq, Finset.sum_const, zero_add, EReal.nsmul_eq_mul, mul_one, EReal.coe_add, EReal.coe_one, EReal.coe_natCast]

/-- Every `dinv` is a positive real. -/
theorem dinv_real (dst : Fin 3200000 → BitVec 32) (n : Fin 100000) : ∃ r : ℝ, 0 < r ∧ dinv dst n = (r : EReal) := by
  -- the degree `card + 1` is a positive real, so its reciprocal square root is `(√(card + 1))⁻¹ > 0`
  have hpos : (0 : ℝ) < ((into dst n).card : ℝ) + 1 := by positivity
  refine ⟨(Real.sqrt (((into dst n).card : ℝ) + 1))⁻¹, inv_pos.mpr (Real.sqrt_pos.mpr hpos), ?_⟩
  unfold dinv
  rw [deg_eq, Ideal.rsqrt_coe, if_neg (not_lt.mpr hpos.le), if_neg hpos.ne']

end Cert.Gcn

end
-- ==== Proof.RPoolHead.lean ====
/-
  The reference's pooling and head, read at an element: the segment sum of the second layer's rows over the graph
  words, divided by the graph's size (at least one), then two matrix products with bias, a rectifier between them,
  and `2 + 3 / (1 + exp (-x))`, which is the scaled logistic function.
-/
import proofs.«418273_j51264729645494_2_alg».proof.Proof.Gen.ReferenceIdeal.Read
import proofs.«418273_j51264729645494_2_alg».proof.Proof.Spec
import proofs.«418273_j51264729645494_2_alg».proof.Proof.SpecFacts
import proofs.«418273_j51264729645494_2_alg».proof.Proof.KArr
import proofs.«418273_j51264729645494_2_alg».proof.Proof.LibScatter
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.GcnR

open Cert.ReferenceIdeal Cert.ReferenceIdeal.Gen Cert.ReferenceIdeal.Read Cert.Gcn
open Idealize.ShloMosaic Idealize.ShloMosaic.TcCoe Idealize.SL.Sem Idealize.ShloMosaic.ValueIdx

variable (x0 : S100000x5.Idx → EReal) (x1 : S2x3200000.Idx → BitVec 32) (x2 : S100000.Idx → BitVec 32)
  (x3 : S5x64.Idx → EReal) (x4 : S64.Idx → EReal) (x5 : S64x64.Idx → EReal) (x6 : S64.Idx → EReal)
  (x7 : S64x32.Idx → EReal) (x8 : S32.Idx → EReal) (x9 : S32x2.Idx → EReal) (x10 : S2.Idx → EReal)

/-- The graph words, spread to a column, read at row `n`. -/
private theorem v92_at (n : Fin 100000) : val_main_v92 (F := Ideal) x2 (ix2 n (0 : Fin 1)) = x2 (ix1 n) := by
  rw [val_main_v92_apply]
  congr 1
  funext a
  match a with
  | ⟨0, _⟩ => rfl

/-- The zero array the segment sum of rows starts from. -/
private theorem v91_at (i : S256x64.Idx) : val_main_v91 (F := Ideal) i = 0 := by
  rw [val_main_v91_apply, val_main_cst_17_apply, Ideal.ofBits_def, Ideal.ofBits_zero_f32]

/-- The reference's pooled sums, over its second layer. -/
theorem r_pool (g : Fin 256) (k : Fin 64) :
    fA S256x64 (val_main_v93 (F := Ideal) x0 x1 x2 x3 x4 x5 x6) (ix2 g k)
      = pool (fun n => x2 (ix1 n)) (fun n k => fA S100000x64 (val_main_v86 (F := Ideal) x0 x1 x3 x4 x5 x6) (ix2 n k)) g k := by
  unfold val_main_v93
  generalize val_main_v86 (F := Ideal) x0 x1 x3 x4 x5 x6 = h
  -- a segment sum of rows adds to row `g` the rows whose word is `g`
  have key := Cert.GcnLib.scatterAdd_rows scatter_S256x64_S100000x1_S100000x64_1_0_0_1 rfl rfl rfl rfl
    (val_main_v91 (F := Ideal)) (val_main_v92 (F := Ideal) x2) h g k
  refine key.trans ?_
  rw [v91_at, zero_add]
  unfold Cert.Gcn.pool inGraph
  simp only [v92_at]

/-- The graph words, spread to a column for the count, read at row `n`. -/
private theorem v89_at (n : Fin 100000) : val_main_v89 (F := Ideal) x2 (ix2 n (0 : Fin 1)) = x2 (ix1 n) := by
  rw [val_main_v89_apply]
  congr 1
  funext a
  match a with
  | ⟨0, _⟩ => rfl

/-- The zero vector the count starts from. -/
private theorem v88_at (i : S256.Idx) : val_main_v88 (F := Ideal) i = 0 := by
  rw [val_main_v88_apply, val_main_cst_16_apply, Ideal.ofBits_def, Ideal.ofBits_zero_f32]

/-- The vector of ones that is counted. -/
private theorem v87_at (i : S100000.Idx) : val_main_v87 (F := Ideal) i = one32 := by
  rw [val_main_v87_apply, val_main_cst_15_apply, Ideal.ofBits_def]

/-- The segment sum of ones over the graph words is the graph's size. -/
private theorem v90_at (g : Fin 256) :
    fA S256 (val_main_v90 (F := Ideal) x2) (ix1 g) = Cert.Gcn.cnt (fun n => x2 (ix1 n)) g := by
  unfold val_main_v90
  have key := Cert.GcnLib.scatterAdd_vec scatter_S256_S100000x1_S100000_n_0_0_1 rfl rfl rfl rfl
    (val_main_v88 (F := Ideal)) (val_main_v89 (F := Ideal) x2) (val_main_v87 (F := Ideal)) g
  refine key.trans ?_
  rw [v88_at]
  unfold Cert.Gcn.cnt inGraph
  simp only [v89_at, v87_at]

/-- The divisor, spread along a row: the graph's size, at least one. -/
private theorem v97_at (g : Fin 256) (k : Fin 64) :
    fA S256x64 (val_main_v97 (F := Ideal) x2) (ix2 g k) = max (Cert.Gcn.cnt (fun n => x2 (ix1 n)) g) one32 := by
  have e1 : idx_main_v96 (idx_main_v97 (ix2 g k)) = ix1 g := funext fun a => by
    match a with
    | ⟨0, _⟩ => rfl
  show val_main_v97 (F := Ideal) x2 (ix2 g k) = _
  rw [val_main_v97_apply, val_main_v96_apply, e1, val_main_v95_apply, val_main_v94_apply, val_main_cst_18_apply,
    Ideal.maximumf_def, Ideal.ofBits_def]
  exact congrArg (fun t => max t one32) (v90_at x2 g)

/-- The mean rows. -/
private theorem v98_at (g : Fin 256) (k : Fin 64) :
    fA S256x64 (val_main_v98 (F := Ideal) x0 x1 x2 x3 x4 x5 x6) (ix2 g k)
      = Cert.Gcn.emb (fun n => x2 (ix1 n))
          (fun g k => fA S256x64 (val_main_v93 (F := Ideal) x0 x1 x2 x3 x4 x5 x6) (ix2 g k)) g k := by
  show val_main_v98 (F := Ideal) x0 x1 x2 x3 x4 x5 x6 (ix2 g k) = _
  rw [val_main_v98_apply, Ideal.hostDivf_def]
  unfold Cert.Gcn.emb
  exact congrArg (fun t => Ideal.div (val_main_v93 (F := Ideal) x0 x1 x2 x3 x4 x5 x6 (ix2 g k)) t) (v97_at x2 g k)

/-- The first head layer: a matrix product with bias, rectified. -/
private theorem v103_at (g : Fin 256) (i : Fin 32) :
    fA S256x32 (val_main_v103 (F := Ideal) x0 x1 x2 x3 x4 x5 x6 x7 x8) (ix2 g i)
      = max ((0 + ∑ k : Fin 64, fA S256x64 (val_main_v98 (F := Ideal) x0 x1 x2 x3 x4 x5 x6) (ix2 g k) * x7 (ix2 k i))
          + x8 (ix1 i)) 0 := by
  have el : ∀ k : Fin 64, lidx_main_v99 (ix2 g i) k = ix2 g k := fun k => funext fun a => by
    match a with
    | ⟨0, _⟩ => rfl
    | ⟨1, _⟩ => rfl
  have er : ∀ k : Fin 64, ridx_main_v99 (ix2 g i) k = ix2 k i := fun k => funext fun a => by
    match a with
    | ⟨0, _⟩ => rfl
    | ⟨1, _⟩ => rfl
  have eb : idx_main_v100 (idx_main_v101 (ix2 g i)) = ix1 i := funext fun a => by
    match a with
    | ⟨0, _⟩ => rfl
  show val_main_v103 (F := Ideal) x0 x1 x2 x3 x4 x5 x6 x7 x8 (ix2 g i) = _
  rw [val_main_v103_apply, val_main_v102_apply, val_main_v99_apply, val_main_v101_apply, val_main_v100_apply, eb,
    val_main_call2_v0_apply, val_main_call2_cst_apply, Ideal.maximumf_def, Ideal.addf_def, Ideal.ofBits_def,
    Ideal.ofBits_zero_f32, zero_add]
  simp only [el, er]

/-- The second head layer: a matrix product with bias. -/
private theorem v107_at (g : Fin 256) (j : Fin 2) :
    fA S256x2 (val_main_v107 (F := Ideal) x0 x1 x2 x3 x4 x5 x6 x7 x8 x9 x10) (ix2 g j)
      = (0 + ∑ i : Fin 32, fA S256x32 (val_main_v103 (F := Ideal) x0 x1 x2 x3 x4 x5 x6 x7 x8) (ix2 g i) * x9 (ix2 i j))
          + x10 (ix1 j) := by
  have el : ∀ i : Fin 32, lidx_main_v104 (ix2 g j) i = ix2 g i := fun i => funext fun a => by
    match a with
    | ⟨0, _⟩ => rfl
    | ⟨1, _⟩ => rfl
  have er : ∀ i : Fin 32, ridx_main_v104 (ix2 g j) i = ix2 i j := fun i => funext fun a => by
    match a with
    | ⟨0, _⟩ => rfl
    | ⟨1, _⟩ => rfl
  have eb : idx_main_v105 (idx_main_v106 (ix2 g j)) = ix1 j := funext fun a => by
    match a with
    | ⟨0, _⟩ => rfl
  show val_main_v107 (F := Ideal) x0 x1 x2 x3 x4 x5 x6 x7 x8 x9 x10 (ix2 g j) = _
  rw [val_main_v107_apply, val_main_v104_apply, val_main_v106_apply, val_main_v105_apply, eb, Ideal.addf_def, zero_add]
  simp only [el, er]

/-- The output stage: `2 + 3 · (1 / (1 + exp (-x)))`, the scaled logistic function. -/
private theorem v117_at (i : S256x2.Idx) :
    fA S256x2 (val_main_v117 (F := Ideal) x0 x1 x2 x3 x4 x5 x6 x7 x8 x9 x10) i
      = two32 + Ideal.logistic (fA S256x2 (val_main_v107 (F := Ideal) x0 x1 x2 x3 x4 x5 x6 x7 x8 x9 x10) i) * three32 := by
  have h1 : Ideal.ofBits .f32 0x3F800000#32 = (1 : EReal) := one32_eq
  show val_main_v117 (F := Ideal) x0 x1 x2 x3 x4 x5 x6 x7 x8 x9 x10 i = _
  rw [val_main_v117_apply, val_main_v116_apply, val_main_cst_22_apply, val_main_v115_apply, val_main_v114_apply,
    val_main_cst_21_apply, val_main_v113_apply, val_main_v112_apply, val_main_cst_20_apply, val_main_v111_apply,
    val_main_v110_apply, val_main_cst_19_apply, val_main_v109_apply, val_main_v108_apply]
  simp only [Ideal.addf_def, Ideal.mulf_def, Ideal.hostDivf_def, Ideal.hostUnary_exp_def, Ideal.hostNegf_def,
    Ideal.negf_def, Ideal.ofBits_def, h1]
  rfl

/-- The reference's result, over its pooled sums. -/
theorem r_out (g : Fin 256) (j : Fin 2) :
    fA S256x2 (val_main_v117 (F := Ideal) x0 x1 x2 x3 x4 x5 x6 x7 x8 x9 x10) (ix2 g j)
      = head (emb (fun n => x2 (ix1 n)) (fun g k => fA S256x64 (val_main_v93 (F := Ideal) x0 x1 x2 x3 x4 x5 x6) (ix2 g k)))
          (fun k i => x7 (ix2 k i)) (fun i => x8 (ix1 i)) (fun i j => x9 (ix2 i j)) (fun j => x10 (ix1 j)) g j := by
  rw [v117_at, v107_at]
  unfold Cert.Gcn.head
  simp only [v103_at, v98_at]

end Cert.GcnR

end
-- ==== Proof.LayerEq.lean ====
/-
  The two spellings of a graph-convolution layer agree on real features and weights: aggregation is linear,
  so it commutes with the node-local linear map, and the two factors `dinv` may be applied before or after.
  All quantities are finite sums of real numbers, where multiplication distributes over addition.
-/
import proofs.«418273_j51264729645494_2_alg».proof.Proof.Spec
import proofs.«418273_j51264729645494_2_alg».proof.Proof.SpecFacts

noncomputable section

namespace Cert.Gcn

open Idealize.ShloMosaic

/-- The coercion of the reals into the extended reals commutes with finite sums. -/
private theorem coe_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The positive part of a real number, taken in the extended reals, is the real positive part. -/
private theorem coe_max_zero (a : ℝ) : max (a : EReal) 0 = ((max a 0 : ℝ) : EReal) := by
  rcases le_total a 0 with h | h
  · rw [max_eq_right h, max_eq_right (by exact_mod_cast h), EReal.coe_zero]
  · rw [max_eq_left h, max_eq_left (by exact_mod_cast h)]

/-- The real identity behind the layer: distribute, exchange the two finite sums, regroup the factors. -/
private theorem layer_real {Fi : ℕ} {ι : Type} (E : Finset ι) (s : ι → Fin 100000)
    (x : Fin 100000 → Fin Fi → ℝ) (w : Fin Fi → ℝ) (d : Fin 100000 → ℝ) (n : Fin 100000) :
    (∑ f : Fin Fi, (d n * ((∑ e ∈ E, x (s e) f * d (s e)) + x n f * d n)) * w f)
      = (∑ e ∈ E, (∑ f : Fin Fi, x (s e) f * w f) * (d (s e) * d n))
          + (∑ f : Fin Fi, x n f * w f) * (d n * d n) := by
  simp only [mul_add, add_mul, Finset.sum_add_distrib, Finset.mul_sum, Finset.sum_mul]
  rw [Finset.sum_comm]
  congr 1
  · refine Finset.sum_congr rfl fun e _ => Finset.sum_congr rfl fun f _ => ?_
    ring
  · refine Finset.sum_congr rfl fun f _ => ?_
    ring

/-- The reference's inner term (before the bias) is the coercion of a real number. -/
private theorem innerR_coe {Fi : ℕ} (src dst : Fin 3200000 → BitVec 32)
    (x : Fin 100000 → Fin Fi → ℝ) (w : Fin Fi → Fin 64 → ℝ) (d : Fin 100000 → ℝ)
    (hd : ∀ m, dinv dst m = (d m : EReal)) (n : Fin 100000) (k : Fin 64) :
    ((0 + ∑ e ∈ into dst n,
          (0 + ∑ f : Fin Fi, ((x (nodeOf (src e)) f : ℝ) : EReal) * ((w f k : ℝ) : EReal))
            * (dinv dst (nodeOf (src e)) * dinv dst (nodeOf (dst e))))
        + (0 + ∑ f : Fin Fi, ((x n f : ℝ) : EReal) * ((w f k : ℝ) : EReal)) * (dinv dst n * dinv dst n))
      = (((∑ e ∈ into dst n, (∑ f : Fin Fi, x (nodeOf (src e)) f * w f k) * (d (nodeOf (src e)) * d n))
          + (∑ f : Fin Fi, x n f * w f k) * (d n * d n) : ℝ) : EReal) := by
  have hsum : ∑ e ∈ into dst n,
        (0 + ∑ f : Fin Fi, ((x (nodeOf (src e)) f : ℝ) : EReal) * ((w f k : ℝ) : EReal))
          * (dinv dst (nodeOf (src e)) * dinv dst (nodeOf (dst e)))
      = ∑ e ∈ into dst n,
        (0 + ∑ f : Fin Fi, ((x (nodeOf (src e)) f : ℝ) : EReal) * ((w f k : ℝ) : EReal))
          * (dinv dst (nodeOf (src e)) * dinv dst n) :=
    Finset.sum_congr rfl fun e he => by rw [nodeOf_of_into dst n e he]
  rw [hsum]
  simp only [hd, zero_add, EReal.coe_add, EReal.coe_mul, coe_sum]

/-- On real features and real weights the kernel's layer is the reference's. -/
theorem layer_eq {Fi : ℕ} (src dst : Fin 3200000 → BitVec 32)
    (feat : Fin 100000 → Fin Fi → EReal) (W : Fin Fi → Fin 64 → EReal) (b : Fin 64 → EReal)
    (hfeat : ∀ n f, ∃ r : ℝ, feat n f = (r : EReal)) (hW : ∀ f k, ∃ r : ℝ, W f k = (r : EReal))
    (n : Fin 100000) (k : Fin 64) :
    layerK src dst feat W b n k = layerR src dst feat W b n k := by
  choose x hx using hfeat
  choose w hw using hW
  choose d _hd0 hd using dinv_real dst
  obtain rfl : feat = fun m f => ((x m f : ℝ) : EReal) := by funext m f; exact hx m f
  obtain rfl : W = fun f j => ((w f j : ℝ) : EReal) := by funext f j; exact hw f j
  unfold layerK layerR
  rw [innerR_coe src dst x w d hd n k, ← layer_real (into dst n) (fun e => nodeOf (src e)) x (fun f => w f k) d n]
  simp only [hd, zero_add, EReal.coe_add, EReal.coe_mul, coe_sum]

/-- With a real bias too, a layer's output is real. -/
theorem layerR_real {Fi : ℕ} (src dst : Fin 3200000 → BitVec 32)
    (feat : Fin 100000 → Fin Fi → EReal) (W : Fin Fi → Fin 64 → EReal) (b : Fin 64 → EReal)
    (hfeat : ∀ n f, ∃ r : ℝ, feat n f = (r : EReal)) (hW : ∀ f k, ∃ r : ℝ, W f k = (r : EReal))
    (hb : ∀ k, ∃ r : ℝ, b k = (r : EReal)) (n : Fin 100000) (k : Fin 64) :
    ∃ r : ℝ, layerR src dst feat W b n k = (r : EReal) := by
  choose x hx using hfeat
  choose w hw using hW
  choose d _hd0 hd using dinv_real dst
  obtain ⟨c, hc⟩ := hb k
  obtain rfl : feat = fun m f => ((x m f : ℝ) : EReal) := by funext m f; exact hx m f
  obtain rfl : W = fun f j => ((w f j : ℝ) : EReal) := by funext f j; exact hw f j
  unfold layerR
  rw [innerR_coe src dst x w d hd n k, hc, ← EReal.coe_add, coe_max_zero]
  exact ⟨_, rfl⟩

end Cert.Gcn

end
-- ==== Proof.Final.lean ====
/-
  The kernel's result is the reference's, under the precondition.  Both are the head of the mean-pooled second
  layer over the first; the kernel spells a layer "aggregate, then transform", the reference "transform, then
  aggregate", and the two spellings agree on real features and weights: the launch features and both weight
  matrices are real by the precondition, and the first layer's output is real because its bias is.
-/
import proofs.«418273_j51264729645494_2_alg».proof.Proof.KChain
import proofs.«418273_j51264729645494_2_alg».proof.Proof.RLayer1
import proofs.«418273_j51264729645494_2_alg».proof.Proof.RLayer2
import proofs.«418273_j51264729645494_2_alg».proof.Proof.RPoolHead
import proofs.«418273_j51264729645494_2_alg».proof.Proof.LayerEq
import proofs.«418273_j51264729645494_2_alg».proof.Proof.Finite
import Idealize.ShloMosaic.Lib.ValueIdx

set_option maxRecDepth 16384

noncomputable section

namespace Cert.GcnFinal

open Cert.KernelIdeal Cert.KernelIdeal.Gen Cert.KernelIdeal.GenP Cert.Gcn Cert.GcnK
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-- The argument arrays at their literal types. -/
abbrev a0 : S100000x5.Idx → EReal := m ((c.tc : Thread nD τ).loc main_arg0)
abbrev a1 : S2x3200000.Idx → BitVec 32 := m ((c.tc : Thread nD τ).loc main_arg1)
abbrev a2 : S100000.Idx → BitVec 32 := m ((c.tc : Thread nD τ).loc main_arg2)
abbrev a3 : S5x64.Idx → EReal := m ((c.tc : Thread nD τ).loc main_arg3)
abbrev a4 : S64.Idx → EReal := m ((c.tc : Thread nD τ).loc main_arg4)
abbrev a5 : S64x64.Idx → EReal := m ((c.tc : Thread nD τ).loc main_arg5)
abbrev a6 : S64.Idx → EReal := m ((c.tc : Thread nD τ).loc main_arg6)
abbrev a7 : S64x32.Idx → EReal := m ((c.tc : Thread nD τ).loc main_arg7)
abbrev a8 : S32.Idx → EReal := m ((c.tc : Thread nD τ).loc main_arg8)
abbrev a9 : S32x2.Idx → EReal := m ((c.tc : Thread nD τ).loc main_arg9)
abbrev a10 : S2.Idx → EReal := m ((c.tc : Thread nD τ).loc main_arg10)

section
variable (hfin : (∀ i, ∃ r : ℝ, a0 m c i = (r : EReal)) ∧ (∀ i, ∃ r : ℝ, a3 m c i = (r : EReal))
      ∧ (∀ i, ∃ r : ℝ, a4 m c i = (r : EReal)) ∧ (∀ i, ∃ r : ℝ, a5 m c i = (r : EReal)))
include hfin

/-- The first layer: the two programs agree, element by element. -/
theorem h1_eq (n : Fin 100000) (k : Fin 64) :
    fA S100000x64 (W2 m ρ c (Proc.devRef .tc main_v25)) (ix2 n k)
      = fA S100000x64 (Cert.ReferenceIdeal.Read.val_main_v48 (F := Ideal) (a0 m c) (a1 m c) (a3 m c) (a4 m c)) (ix2 n k) := by
  rw [k_h1 m ρ c n k, Cert.GcnR.r_h1 (a0 m c) (a1 m c) (a3 m c) (a4 m c) n k]
  exact layer_eq _ _ _ _ _ (fun n f => hfin.1 _) (fun f k => hfin.2.1 _) n k

/-- The first layer's output is real. -/
theorem h1_real (n : Fin 100000) (k : Fin 64) :
    ∃ r : ℝ, fA S100000x64 (Cert.ReferenceIdeal.Read.val_main_v48 (F := Ideal) (a0 m c) (a1 m c) (a3 m c) (a4 m c)) (ix2 n k) = (r : EReal) := by
  rw [Cert.GcnR.r_h1 (a0 m c) (a1 m c) (a3 m c) (a4 m c) n k]
  exact layerR_real _ _ _ _ _ (fun n f => hfin.1 _) (fun f k => hfin.2.1 _) (fun k => hfin.2.2.1 _) n k

/-- The second layer: the two programs agree. -/
theorem h2_eq (n : Fin 100000) (k : Fin 64) :
    fA S100000x64 (W4 m ρ c (Proc.devRef .tc main_v39)) (ix2 n k)
      = fA S100000x64 (Cert.ReferenceIdeal.Read.val_main_v86 (F := Ideal) (a0 m c) (a1 m c) (a3 m c) (a4 m c) (a5 m c) (a6 m c)) (ix2 n k) := by
  rw [k_h2 m ρ c n k, Cert.GcnR.r_h2 (a0 m c) (a1 m c) (a3 m c) (a4 m c) (a5 m c) (a6 m c) n k]
  have e : (fun i j => fA S100000x64 (W2 m ρ c (Proc.devRef .tc main_v25)) (ix2 i j))
      = fun i j => fA S100000x64 (Cert.ReferenceIdeal.Read.val_main_v48 (F := Ideal) (a0 m c) (a1 m c) (a3 m c) (a4 m c)) (ix2 i j) :=
    funext fun i => funext fun j => h1_eq m ρ c hfin i j
  rw [e]
  exact layer_eq _ _ _ _ _ (fun n f => h1_real m c hfin n f) (fun f k => hfin.2.2.2 _) n k

/-- The pooled sums agree. -/
theorem pool_eq (g : Fin 256) (k : Fin 64) :
    fA S256x64 (W6 m ρ c (Proc.devRef .tc main_v41)) (ix2 g k)
      = fA S256x64 (Cert.ReferenceIdeal.Read.val_main_v93 (F := Ideal) (a0 m c) (a1 m c) (a2 m c) (a3 m c) (a4 m c) (a5 m c) (a6 m c)) (ix2 g k) := by
  rw [k_pool m ρ c g k, Cert.GcnR.r_pool (a0 m c) (a1 m c) (a2 m c) (a3 m c) (a4 m c) (a5 m c) (a6 m c) g k]
  have e : (fun i j => fA S100000x64 (W4 m ρ c (Proc.devRef .tc main_v39)) (ix2 i j))
      = fun i j => fA S100000x64 (Cert.ReferenceIdeal.Read.val_main_v86 (F := Ideal) (a0 m c) (a1 m c) (a3 m c) (a4 m c) (a5 m c) (a6 m c)) (ix2 i j) :=
    funext fun i => funext fun j => h2_eq m ρ c hfin i j
  rw [e]

/-- The results agree, element by element. -/
theorem out_eq (g : Fin 256) (j : Fin 2) :
    fA S256x2 (W8 m ρ c (Proc.devRef .tc main_v53)) (ix2 g j)
      = fA S256x2 (Cert.ReferenceIdeal.Read.val_main_v117 (F := Ideal) (a0 m c) (a1 m c) (a2 m c) (a3 m c) (a4 m c) (a5 m c) (a6 m c) (a7 m c) (a8 m c) (a9 m c) (a10 m c)) (ix2 g j) := by
  rw [k_out m ρ c g j, Cert.GcnR.r_out (a0 m c) (a1 m c) (a2 m c) (a3 m c) (a4 m c) (a5 m c) (a6 m c) (a7 m c) (a8 m c) (a9 m c) (a10 m c) g j]
  have e : (fun i j => fA S256x64 (W6 m ρ c (Proc.devRef .tc main_v41)) (ix2 i j))
      = fun i j => fA S256x64 (Cert.ReferenceIdeal.Read.val_main_v93 (F := Ideal) (a0 m c) (a1 m c) (a2 m c) (a3 m c) (a4 m c) (a5 m c) (a6 m c)) (ix2 i j) :=
    funext fun i => funext fun j => pool_eq m ρ c hfin i j
  rw [e]

/-- The kernel's result array is the reference's result term of the same arguments. -/
theorem value_eq :
    fA S256x2 (W8 m ρ c (Proc.devRef .tc main_v53))
      = fA S256x2 (Cert.ReferenceIdeal.Read.val_main_v117 (F := Ideal) (a0 m c) (a1 m c) (a2 m c) (a3 m c) (a4 m c) (a5 m c) (a6 m c) (a7 m c) (a8 m c) (a9 m c) (a10 m c)) := by
  funext i
  obtain ⟨g, j, rfl⟩ : ∃ (g : Fin 256) (j : Fin 2), i = ix2 g j := ⟨i 0, i 1, eq_ix2 i⟩
  exact out_eq m ρ c hfin g j

end

end Cert.GcnFinal

end
-- ==== Proof.lean ====
/-
  The certificate of the two-layer graph-convolution network with mean pooling and a two-layer head.

  Frames: the kernel program's two frames are the generated frame certificates (four launches among host
  stretches); the reference's is its generated run with the result dropped.  `preserves` is trivial: the ideal
  pass rewrote nothing.  Algebraic: at the extended reals the kernel's result buffer ends at the last boundary's
  contents, which is the reference's result term of the same arguments: both are the head of the mean-pooled
  second layer over the first, and the two spellings of a layer (aggregate then transform; transform then
  aggregate) agree on real features and weights, which the precondition gives.
-/
import proofs.«418273_j51264729645494_2_alg».proof.Defs
import proofs.«418273_j51264729645494_2_alg».proof.Proof.Gen.Kernel
import proofs.«418273_j51264729645494_2_alg».proof.Proof.Gen.Kernel.Skeleton
import proofs.«418273_j51264729645494_2_alg».proof.Proof.Gen.Kernel.Points
import proofs.«418273_j51264729645494_2_alg».proof.Proof.PKernelFrame
import proofs.«418273_j51264729645494_2_alg».proof.Proof.Gen.KernelIdeal
import proofs.«418273_j51264729645494_2_alg».proof.Proof.Gen.KernelIdeal.Skeleton
import proofs.«418273_j51264729645494_2_alg».proof.Proof.Gen.KernelIdeal.Points
import proofs.«418273_j51264729645494_2_alg».proof.Proof.PKernelIdealFrame
import proofs.«418273_j51264729645494_2_alg».proof.Proof.KernelIdealValueRun
import proofs.«418273_j51264729645494_2_alg».proof.Proof.Gen.ReferenceIdeal
import proofs.«418273_j51264729645494_2_alg».proof.Proof.Gen.ReferenceIdeal.Run
import proofs.«418273_j51264729645494_2_alg».proof.Proof.Gen.ReferenceIdeal.Read
import proofs.«418273_j51264729645494_2_alg».proof.Proof.Gen.Pre_finite_inputs
import proofs.«418273_j51264729645494_2_alg».proof.Proof.Finite
import proofs.«418273_j51264729645494_2_alg».proof.Proof.Final
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.GenP.frame m ρ

theorem frame_kernelIdeal : Cert.frame_KernelIdeal := fun m ρ _ => Cert.KernelIdeal.GenP.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the same result array: the kernel's result buffer at the last boundary's contents,
    which is the reference's result term of arguments that agree. -/
theorem algebraic : Cert.algebraic_KernelIdeal_ReferenceIdeal := by
  intro m ρ m' ρ' hpre hagree
  refine ⟨fun c => Cert.KernelIdeal.GenP.W8 m ρ c (Proc.devRef .tc Cert.KernelIdeal.main_v53), Cert.KernelIdeal.GenP.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v117_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
  exact (Cert.GcnFinal.value_eq m ρ c (Cert.GcnPre.real_of_pre _ _ _ _ _ _ _ _ _ _ _ (hpre c))).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
